-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x16x64 : Shape := ⟨4, ![2, 2048, 16, 64]⟩
abbrev S1x1024x8x64 : Shape := ⟨4, ![1, 1024, 8, 64]⟩
abbrev S1x128x8x64 : Shape := ⟨4, ![1, 128, 8, 64]⟩
abbrev S8x1024 : Shape := ⟨2, ![8, 1024]⟩
abbrev S8x1024x64 : Shape := ⟨3, ![8, 1024, 64]⟩
abbrev S1024x8x64 : Shape := ⟨3, ![1024, 8, 64]⟩
abbrev S128x8x64 : Shape := ⟨3, ![128, 8, 64]⟩
abbrev S8x128x64 : Shape := ⟨3, ![8, 128, 64]⟩
abbrev S8x1024x128 : Shape := ⟨3, ![8, 1024, 128]⟩
abbrev S8x1024x1 : Shape := ⟨3, ![8, 1024, 1]⟩
abbrev S1x1024 : Shape := ⟨2, ![1, 1024]⟩

abbrev nBuf : Space → Nat
  | .hbm => 34
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x3072, .bf16⟩
  | .hbm, ⟨16, _⟩ => ⟨S3072, .f32⟩
  | .hbm, ⟨17, _⟩ => ⟨S1x3072, .f32⟩
  | .hbm, ⟨18, _⟩ => ⟨S4096x1024, .f32⟩
  | .hbm, ⟨19, _⟩ => ⟨S4096x1024, .bf16⟩
  | .hbm, ⟨20, _⟩ => ⟨S4096x3072, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S2x2048x16x64, .f32⟩
  | .hbm, ⟨25, _⟩ => ⟨S2x2048x16x64, .f32⟩
  | .hbm, ⟨26, _⟩ => ⟨S2x2048x16x64, .f32⟩
  | .hbm, ⟨27, _⟩ => ⟨S2x2048x16x64, .f32⟩
  | .hbm, ⟨28, _⟩ => ⟨S4096x1024, .f32⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S4096x1024, .f32⟩
  | .hbm, ⟨33, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | .local _ .vmem, ⟨6, _⟩ => ⟨S1x1024x8x64, .f32⟩
  | .local _ .vmem, ⟨7, _⟩ => ⟨S1x1024x8x64, .f32⟩
  | .local _ .vmem, ⟨8, _⟩ => ⟨S1x128x8x64, .f32⟩
  | .local _ .vmem, ⟨9, _⟩ => ⟨S1x128x8x64, .f32⟩
  | .local _ .vmem, ⟨10, _⟩ => ⟨S1x128x8x64, .f32⟩
  | .local _ .vmem, ⟨11, _⟩ => ⟨S1x128x8x64, .f32⟩
  | .local _ .vmem, ⟨12, _⟩ => ⟨S1x1024x8x64, .f32⟩
  | .local _ .vmem, ⟨13, _⟩ => ⟨S1x1024x8x64, .f32⟩
  | .local _ .vmem, ⟨14, _⟩ => ⟨S8x1024, .f32⟩
  | .local _ .vmem, ⟨15, _⟩ => ⟨S8x1024, .f32⟩
  | .local _ .vmem, ⟨16, _⟩ => ⟨S8x1024x64, .f32⟩
  | .local _ .vmem, ⟨17, _⟩ => ⟨S8x1024x64, .bf16⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨4, ![2, 2, 2, 16], ![false, false, false, false]⟩

def k1_cond2 (i : grid1.Coords) : BitVec 1 :=
  let arg3 : BitVec 32 := BitVec.ofNat 32 (i 3).val
  let c15_i32 : BitVec 32 := 15#32
  let v42 : BitVec 1 := Scalar.cmpi .eq arg3 c15_i32
  let v43 : BitVec 32 := Scalar.extui v42
  let c0_i32_28 : BitVec 32 := 0#32
  let v44 : BitVec 1 := Scalar.cmpi .ne v43 c0_i32_28
  v44

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, c0_i32.toNat]

abbrev stage1_0 : Fin 2 → Memref sig .tc .vmem S1x1024x8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x128x8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, true]

abbrev stage1_2 : Fin 2 → Memref sig .tc .vmem S1x128x8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, true]

abbrev stage1_3 : Fin 2 → Memref sig .tc .vmem S1x1024x8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x1024x64_S8x1024x64_0_0_0 : ∀ a, (![0, 0, 0] : Fin 3 → Nat) a + S8x1024x64.size a ≤ S8x1024x64.size a
  h_S8x1024x64 : 0 < S8x1024x64.numel
  shapeCasts_S8x1024x64_S8x1024x64 : S8x1024x64.ShapeCasts S8x1024x64
  inb_S1x1024x8x64_S1x1024x8x64_0_0_0_0 : ∀ a, (![0, 0, 0, 0] : Fin 4 → Nat) a + S1x1024x8x64.size a ≤ S1x1024x8x64.size a
  h_S1x1024x8x64 : 0 < S1x1024x8x64.numel
  shapeCasts_S1x1024x8x64_S1024x8x64 : S1x1024x8x64.ShapeCasts S1024x8x64
  transposes_S1024x8x64_p1_0_2_S8x1024x64 : S1024x8x64.Transposes [1, 0, 2] S8x1024x64
  packedbf16_S8x1024x64_S8x1024x64_0_0_0 : (Rect.unit (s := S8x1024x64) ![0, 0, 0] S8x1024x64.size inb_S8x1024x64_S8x1024x64_0_0_0).PackedRows (EltTy.packing .bf16)
  inb_S1x128x8x64_S1x128x8x64_0_0_0_0 : ∀ a, (![0, 0, 0, 0] : Fin 4 → Nat) a + S1x128x8x64.size a ≤ S1x128x8x64.size a
  h_S1x128x8x64 : 0 < S1x128x8x64.numel
  shapeCasts_S1x128x8x64_S128x8x64 : S1x128x8x64.ShapeCasts S128x8x64
  transposes_S128x8x64_p1_0_2_S8x128x64 : S128x8x64.Transposes [1, 0, 2] S8x128x64
  reduces_S8x1024x128_S8x1024 : S8x1024x128.Reduces [2] S8x1024
  shapeCasts_S8x1024_S8x1024x1 : S8x1024.ShapeCasts S8x1024x1
  broadcasts_S8x1024x1_S8x1024x128 : S8x1024x1.Broadcasts S8x1024x128
  broadcasts_S8x1024x1_S8x1024x64 : S8x1024x1.Broadcasts S8x1024x64
  transposes_S8x1024x64_p1_0_2_S1024x8x64 : S8x1024x64.Transposes [1, 0, 2] S1024x8x64
  shapeCasts_S1024x8x64_S1x1024x8x64 : S1024x8x64.ShapeCasts S1x1024x8x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S8x1024x64_S8x128x64_S8x1024x128_2_2_1_1_0_0_wf : DotDims.WF S8x1024x64 S8x128x64 S8x1024x128 [2] [2] [1] [1] [0] [0]
  dot_S8x1024x128_S8x128x64_S8x1024x64_2_1_1_2_0_0_wf : DotDims.WF S8x1024x128 S8x128x64 S8x1024x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .f32 = 32 ∨ (Rect.block (s := S4096x3072) S512x3072.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x8x64.size a ≤ S2x2048x16x64.size a
  hwx1_0 : ∀ i : grid1.Coords, EltTy.bits .f32 = 32 ∨ (Rect.block (s := S2x2048x16x64) S1x1024x8x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x8x64.size a ≤ S2x2048x16x64.size a
  hwx1_1 : ∀ i : grid1.Coords, EltTy.bits .f32 = 32 ∨ (Rect.block (s := S2x2048x16x64) S1x128x8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x8x64.size a ≤ S2x2048x16x64.size a
  hwx1_2 : ∀ i : grid1.Coords, EltTy.bits .f32 = 32 ∨ (Rect.block (s := S2x2048x16x64) S1x128x8x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x8x64.size a ≤ S2x2048x16x64.size a
  hwx1_3 : ∀ i : grid1.Coords, EltTy.bits .f32 = 32 ∨ (Rect.block (s := S2x2048x16x64) S1x1024x8x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S8x1024x64_S8x128x64_S8x1024x128_2_2_1_1_0_0 : DotDims S8x1024x64 S8x128x64 S8x1024x128 where
  lhsContracting := [2]
  rhsContracting := [2]
  lhsNonContracting := [1]
  rhsNonContracting := [1]
  lhsBatch := [0]
  rhsBatch := [0]
  wf := dot_S8x1024x64_S8x128x64_S8x1024x128_2_2_1_1_0_0_wf
def dot_S8x1024x128_S8x128x64_S8x1024x64_2_1_1_2_0_0 : DotDims S8x1024x128 S8x128x64 S8x1024x64 where
  lhsContracting := [2]
  rhsContracting := [1]
  lhsNonContracting := [1]
  rhsNonContracting := [2]
  lhsBatch := [0]
  rhsBatch := [0]
  wf := dot_S8x1024x128_S8x128x64_S8x1024x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1x1024x8x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128x8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128x8x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1024x8x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v19) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S_, .f32⟩
  | .hbm, ⟨34, _⟩ => ⟨S2x16x2048, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x64, .f32⟩
  | .hbm, ⟨46, _⟩ => ⟨S2x2048x16x64, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Reg0.lean ====
/-
  The first pallas_call: the fused projection  out[r, :] = a[r, :] · w + bias  over row blocks of 512.

  Its grid has 8 points; point t stages rows 512 t … 512 t + 511 of the activations, the whole weight matrix and
  the whole bias row (both staged once and found again at every later point), and writes rows 512 t … of the
  result.  The body loads its three input blocks whole, forms the product into a zero accumulator, adds the bias
  row to every row and stores the block whole: what the output buffer holds afterwards is that one value, as a
  function of the three input blocks.  This module states that function, the body's run on any staging buffers,
  the per-point contents the pipeline rule asks for, and the rule's obligation at every point, for whatever the
  arrays hold when the call is entered.
-/
import proofs.«414835_j10436770529900_3_alg».proof.Proof.Gen.Kernel.Launch
import proofs.«414835_j10436770529900_3_alg».proof.Proof.Gen.Kernel.Skeleton
import proofs.«414835_j10436770529900_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds rows 512 t … at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point: staged at the first, left in place after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the row at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output buffer -/

abbrev rA0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0
abbrev rO0 : Rect S512x3072 := Rect.unit (s := S512x3072) ![0, 0] S512x3072.size inb_S512x3072_S512x3072_0_0

/-- The output buffer after the body: its one whole-block store of product plus bias, over the three input blocks. -/
def out0_3 (a : Vec F S512x1024 .bf16) (w : Vec F S1024x3072 .bf16) (b : Vec F S1x3072 .f32) : Vec F S512x3072 .f32 :=
  View.canon [⟨rO0, k0_pay1 (View.ld a rA0) (View.ld w rW0) (View.ld b rB0)⟩]

/-- The one store fills the buffer. -/
theorem cover0_3 (p0 : Vec F S512x3072 .f32) (y : S512x3072.Idx) :
    ∃ pc ∈ ([⟨rO0, p0⟩] : List (View.Piece (Elt F) S512x3072 .f32)), y ∈ pc.1.set :=
  View.cover_of_tiled [⟨rO0, p0⟩] S512x3072.size (by rfl) y

/-! ## The body's run -/

set_option maxHeartbeats 1000000 in
/-- On whole staging buffers, the inputs' at contents a, w, b and the output's at anything, the body runs to the end
    with the inputs as they were and the output at out0_3 a w b. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .f32) (harg4 : arg4.IsWhole)
    (a : Vec F S512x1024 .bf16) (w : Vec F S1024x3072 .bf16) (b : Vec F S1x3072 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (out0_3 a w b)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The per-point contents -/

/-- The call's data: the arrays as found; after the body at point t each input's buffer at its block and the
    output's at out0_3 of the three input blocks; nothing else kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's run applies; what is kept between points and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Run.lean ====
/-
  The second pallas_call, one grid point at a time: attention for 8 heads and 1024 query rows against one block of
  128 key rows, accumulated over the 16 key blocks of the sequence.

  Between the key blocks of one query tile the body keeps four arrays of its own: the running row maximum m, the
  running denominator l, the running numerator acc, and the scaled, transposed queries qT.  At the FIRST key block
  it resets them (m to -inf, l and acc to zero, qT from the query block); at EVERY block it forms the scores of the
  kept queries against the block's keys, raises the maximum, rescales l and acc by exp (old maximum - new maximum)
  and adds the block's exponentials and their products with the values; at the LAST block it also divides acc by l
  and stores the result, transposed back, into the output block.  The output buffer is touched at no other block.

  This module states the new contents of the four kept arrays and of the output block as compositions of the
  body's named values, and proves the body's run in each of the three cases (first block, a middle block, last
  block) on any staging buffers.
-/
import proofs.«414835_j10436770529900_3_alg».proof.Proof.Gen.Kernel.Launch
import proofs.«414835_j10436770529900_3_alg».proof.Proof.Gen.Kernel.Skeleton
import proofs.«414835_j10436770529900_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kept arrays and their update -/

/-- The four arrays kept between key blocks: running maximum, running denominator, running numerator, scaled queries. -/
abbrev St (F : FTy → Type) [FloatOps F] : Type :=
  Vec F S8x1024 .f32 × Vec F S8x1024 .f32 × Vec F S8x1024x64 .f32 × Vec F S8x1024x64 .bf16

/-- What the first key block resets them to, from the query block. -/
def resetSt (q : Vec F S1x1024x8x64 .f32) : St F := (k1_pay4, k1_pay5, k1_pay6, k1_pay7 q)

/-- One key block folded in: from the block's keys k and values v and the arrays s as the block finds them. -/
def advance (k v : Vec F S1x128x8x64 .f32) (s : St F) : St F :=
  (k1_pay2 (k1_pay9 k s.2.2.2 s.1), k1_pay12 k s.2.2.2 s.1 s.2.1,
    k1_pay1 (k1_pay10 k s.2.2.2 s.1) (k1_pay13 k v s.2.2.2 s.1) s.2.2.1, s.2.2.2)

/-- What the last key block stores into the output block: numerator over denominator, transposed back. -/
def outOf (s : St F) : Vec F S1x1024x8x64 .f32 := k1_pay3 s.2.2.1 s.2.1

/-! ## The branch conditions, from the grid coordinates -/

/-- The body's first branch is taken: the key-block coordinate is 0. -/
abbrev cond1_0 (i : grid1.Coords) : Prop :=
  (Scalar.cmpi .ne (Scalar.extui (Scalar.cmpi .eq (BitVec.ofNat 32 (i 3).val) 0#32)) 0#32) = 1#1
/-- The body's last branch is taken: the key-block coordinate is 15. -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-! ## Whole-block accesses -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A buffer whose LAST store was a whole-block store reads back as that store's value, whatever was stored before. -/
theorem read_writes_head {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.Mem.head _, View.mem_set_unit_zero h inb y⟩)).trans
    (View.canon_cons_unit_zero h inb w L)

/-! ## The body's run, case by case -/

set_option maxHeartbeats 4000000 in
/-- A MIDDLE key block: the kept arrays at s become advance k v s; the query block, the key and value blocks and
    the output buffer are left as found. -/
theorem run_mid (c : Dev nD) (E : Set ℕ) (i : grid1.Coords) (hc1 : ¬cond1_0 i) (hc2 : ¬cond1_1 i)
    (arg4 : Memref sig .tc .vmem S1x1024x8x64 .f32) (harg4 : arg4.IsWhole) (arg5 : Memref sig .tc .vmem S1x128x8x64 .f32) (harg5 : arg5.IsWhole)
    (arg6 : Memref sig .tc .vmem S1x128x8x64 .f32) (harg6 : arg6.IsWhole) (arg7 : Memref sig .tc .vmem S1x1024x8x64 .f32) (harg7 : arg7.IsWhole)
    (arg8 : Memref sig .tc .vmem S8x1024 .f32) (harg8 : arg8.IsWhole) (arg9 : Memref sig .tc .vmem S8x1024 .f32) (harg9 : arg9.IsWhole)
    (arg10 : Memref sig .tc .vmem S8x1024x64 .f32) (harg10 : arg10.IsWhole) (arg11 : Memref sig .tc .vmem S8x1024x64 .bf16) (harg11 : arg11.IsWhole)
    (q : Vec F S1x1024x8x64 .f32) (k v : Vec F S1x128x8x64 .f32) (o : Vec F S1x1024x8x64 .f32) (s : St F) (K : PUnit → sProp 𝕄) :
    iprop(owns (c : Thread nD τ) arg4 fullShare q ∗ owns (c : Thread nD τ) arg5 fullShare k ∗ owns (c : Thread nD τ) arg6 fullShare v ∗ owns (c : Thread nD τ) arg7 fullShare o
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg4 fullShare q ∗ owns (c : Thread nD τ) arg5 fullShare k ∗ owns (c : Thread nD τ) arg6 fullShare v ∗ owns (c : Thread nD τ) arg7 fullShare o
            ∗ owns (c : Thread nD τ) arg8 fullShare (advance k v s).1 ∗ owns (c : Thread nD τ) arg9 fullShare (advance k v s).2.1
            ∗ owns (c : Thread nD τ) arg10 fullShare (advance k v s).2.2.1 ∗ owns (c : Thread nD τ) arg11 fullShare (advance k v s).2.2.2) -∗ K ⟨⟩))
      ⊢ wp frame (wpE (defs₀ (F := F)) Variants.none c none) E
          (cc1__flash_attn_kernel i arg4 harg4 arg5 harg5 arg6 harg6 arg7 harg7 arg8 harg8 arg9 harg9 arg10 harg10 arg11 harg11) K := by
  simp only [cc1__flash_attn_kernel_eq_skeleton]; unfold cc1__flash_attn_kernel_skel
  simp only [k1_part1_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf4; subst hf5; subst hf6; subst hf7
  obtain ⟨s1, s2, s3, s4⟩ := s
  dsimp only at hf8 hf9 hf10 hf11
  subst hf8; subst hf9; subst hf10; subst hf11
  sl_exec (disch := first | exact hc1 | exact hc2)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H9]
  · iexists _; isplitr
    swap; · iexact H9
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H10]
  · iexists _; isplitr
    swap; · iexact H10
    ipureintro
    sl_unfold_words
    refine (read_writes_head _ _ hz3 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  iexists f11; isplitr; · ipureintro; rfl
  iexact H11

set_option maxHeartbeats 4000000 in
/-- The FIRST key block of a query tile: whatever the kept arrays held, they become the update of the reset
    arrays; the blocks and the output buffer are left as found. -/
theorem run_first (c : Dev nD) (E : Set ℕ) (i : grid1.Coords) (hc1 : cond1_0 i) (hc2 : ¬cond1_1 i)
    (arg4 : Memref sig .tc .vmem S1x1024x8x64 .f32) (harg4 : arg4.IsWhole) (arg5 : Memref sig .tc .vmem S1x128x8x64 .f32) (harg5 : arg5.IsWhole)
    (arg6 : Memref sig .tc .vmem S1x128x8x64 .f32) (harg6 : arg6.IsWhole) (arg7 : Memref sig .tc .vmem S1x1024x8x64 .f32) (harg7 : arg7.IsWhole)
    (arg8 : Memref sig .tc .vmem S8x1024 .f32) (harg8 : arg8.IsWhole) (arg9 : Memref sig .tc .vmem S8x1024 .f32) (harg9 : arg9.IsWhole)
    (arg10 : Memref sig .tc .vmem S8x1024x64 .f32) (harg10 : arg10.IsWhole) (arg11 : Memref sig .tc .vmem S8x1024x64 .bf16) (harg11 : arg11.IsWhole)
    (q : Vec F S1x1024x8x64 .f32) (k v : Vec F S1x128x8x64 .f32) (o : Vec F S1x1024x8x64 .f32) (K : PUnit → sProp 𝕄) :
    iprop(owns (c : Thread nD τ) arg4 fullShare q ∗ owns (c : Thread nD τ) arg5 fullShare k ∗ owns (c : Thread nD τ) arg6 fullShare v ∗ owns (c : Thread nD τ) arg7 fullShare o
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg4 fullShare q ∗ owns (c : Thread nD τ) arg5 fullShare k ∗ owns (c : Thread nD τ) arg6 fullShare v ∗ owns (c : Thread nD τ) arg7 fullShare o
            ∗ owns (c : Thread nD τ) arg8 fullShare (advance k v (resetSt q)).1 ∗ owns (c : Thread nD τ) arg9 fullShare (advance k v (resetSt q)).2.1
            ∗ owns (c : Thread nD τ) arg10 fullShare (advance k v (resetSt q)).2.2.1 ∗ owns (c : Thread nD τ) arg11 fullShare (advance k v (resetSt q)).2.2.2) -∗ K ⟨⟩))
      ⊢ wp frame (wpE (defs₀ (F := F)) Variants.none c none) E
          (cc1__flash_attn_kernel i arg4 harg4 arg5 harg5 arg6 harg6 arg7 harg7 arg8 harg8 arg9 harg9 arg10 harg10 arg11 harg11) K := by
  simp only [cc1__flash_attn_kernel_eq_skeleton]; unfold cc1__flash_attn_kernel_skel
  simp only [k1_part1_eq_skeleton]
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf4; subst hf5; subst hf6; subst hf7
  sl_exec (disch := first | exact hc1 | exact hc2)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H9]
  · iexists _; isplitr
    swap; · iexact H9
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H10]
  · iexists _; isplitr
    swap; · iexact H10
    ipureintro
    sl_unfold_words
    refine (read_writes_head _ _ hz3 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  iexists _; isplitr
  swap; · iexact H11
  ipureintro
  sl_unfold_words
  refine (read_writes_head _ _ hz3 _ _ _).trans ?_
  simp only [View.readAt_eq_ld, View.ld_unit_zero (S := S1x1024x8x64) hz4]
  try rfl

set_option maxHeartbeats 4000000 in
/-- The LAST key block of a query tile: the kept arrays at s become advance k v s, and the output buffer, whatever
    it held, takes the quotient of the new numerator by the new denominator. -/
theorem run_last (c : Dev nD) (E : Set ℕ) (i : grid1.Coords) (hc1 : ¬cond1_0 i) (hc2 : cond1_1 i)
    (arg4 : Memref sig .tc .vmem S1x1024x8x64 .f32) (harg4 : arg4.IsWhole) (arg5 : Memref sig .tc .vmem S1x128x8x64 .f32) (harg5 : arg5.IsWhole)
    (arg6 : Memref sig .tc .vmem S1x128x8x64 .f32) (harg6 : arg6.IsWhole) (arg7 : Memref sig .tc .vmem S1x1024x8x64 .f32) (harg7 : arg7.IsWhole)
    (arg8 : Memref sig .tc .vmem S8x1024 .f32) (harg8 : arg8.IsWhole) (arg9 : Memref sig .tc .vmem S8x1024 .f32) (harg9 : arg9.IsWhole)
    (arg10 : Memref sig .tc .vmem S8x1024x64 .f32) (harg10 : arg10.IsWhole) (arg11 : Memref sig .tc .vmem S8x1024x64 .bf16) (harg11 : arg11.IsWhole)
    (q : Vec F S1x1024x8x64 .f32) (k v : Vec F S1x128x8x64 .f32) (s : St F) (K : PUnit → sProp 𝕄) :
    iprop(owns (c : Thread nD τ) arg4 fullShare q ∗ owns (c : Thread nD τ) arg5 fullShare k ∗ owns (c : Thread nD τ) arg6 fullShare v ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg4 fullShare q ∗ owns (c : Thread nD τ) arg5 fullShare k ∗ owns (c : Thread nD τ) arg6 fullShare v ∗ owns (c : Thread nD τ) arg7 fullShare (outOf (advance k v s))
            ∗ owns (c : Thread nD τ) arg8 fullShare (advance k v s).1 ∗ owns (c : Thread nD τ) arg9 fullShare (advance k v s).2.1
            ∗ owns (c : Thread nD τ) arg10 fullShare (advance k v s).2.2.1 ∗ owns (c : Thread nD τ) arg11 fullShare (advance k v s).2.2.2) -∗ K ⟨⟩))
      ⊢ wp frame (wpE (defs₀ (F := F)) Variants.none c none) E
          (cc1__flash_attn_kernel i arg4 harg4 arg5 harg5 arg6 harg6 arg7 harg7 arg8 harg8 arg9 harg9 arg10 harg10 arg11 harg11) K := by
  simp only [cc1__flash_attn_kernel_eq_skeleton]; unfold cc1__flash_attn_kernel_skel
  simp only [k1_part1_eq_skeleton]
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf4; subst hf5; subst hf6
  obtain ⟨s1, s2, s3, s4⟩ := s
  dsimp only at hf8 hf9 hf10 hf11
  subst hf8; subst hf9; subst hf10; subst hf11
  sl_exec (disch := first | exact hc1 | exact hc2)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_head _ _ hz4 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H8]
  · iexists _; isplitr
    swap; · iexact H8
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H9]
  · iexists _; isplitr
    swap; · iexact H9
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H10]
  · iexists _; isplitr
    swap; · iexact H10
    ipureintro
    sl_unfold_words
    refine (read_writes_head _ _ hz3 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  iexists f11; isplitr; · ipureintro; rfl
  iexact H11

end Cert.Kernel.Hand

end
-- ==== Proof.K.Reg1.lean ====
/-
  The second pallas_call over its whole grid: what the four kept arrays hold after every point, and the contents
  the pipeline rule asks for.

  The grid is 2 batches x 2 head groups x 2 query tiles x 16 key blocks, the key block innermost: point t has key
  block t mod 16, and each run of 16 consecutive points is one query tile of one head group.  The kept arrays after
  point t are the fold of the body's update over the points of t's run up to t, restarted from the reset at the
  run's first point; between points they are the only scoped buffers whose contents matter, so the rule's
  invariant names them and leaves the other scoped buffers at anything.  The output block is written at the last
  point of each run, from the kept arrays as that point leaves them, and is written back to its array there.
-/
import proofs.«414835_j10436770529900_3_alg».proof.Proof.K.Reg1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds the tile's rows at every point: staged at the first key block of a
    tile, left in place through the other fifteen. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block's staging buffer holds the block's rows at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value block's staging buffer holds the block's rows at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kept arrays after each point -/

/-- After point n: at the first key block of a run the update of the reset arrays, else the update of what the
    point before left. -/
def scAt (c : Dev nD) : (n : ℕ) → n < cfg1.N → St F
  | 0, hn => advance (iblk1 V c 1 ⟨0, hn⟩) (iblk1 V c 2 ⟨0, hn⟩) (resetSt (iblk1 V c 0 ⟨0, hn⟩))
  | n + 1, hn =>
    if (n + 1) % 16 = 0 then advance (iblk1 V c 1 ⟨n + 1, hn⟩) (iblk1 V c 2 ⟨n + 1, hn⟩) (resetSt (iblk1 V c 0 ⟨n + 1, hn⟩))
    else advance (iblk1 V c 1 ⟨n + 1, hn⟩) (iblk1 V c 2 ⟨n + 1, hn⟩) (scAt c n (Nat.lt_of_succ_lt hn))

/-- At the first key block of a run. -/
theorem scAt_first (c : Dev nD) (t : Fin cfg1.N) (h : t.val % 16 = 0) :
    scAt V c t.val t.isLt = advance (iblk1 V c 1 t) (iblk1 V c 2 t) (resetSt (iblk1 V c 0 t)) := by
  obtain ⟨n, hn⟩ := t
  cases n with
  | zero => rfl
  | succ n => exact if_pos h

/-- At a later key block. -/
theorem scAt_next (c : Dev nD) (t : Fin cfg1.N) (h : ¬t.val % 16 = 0) :
    scAt V c t.val t.isLt = advance (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

abbrev scM1_0 : Memref sig .tc .vmem S8x1024 .f32 := Memref.whole cc1_scratch0
abbrev scM1_1 : Memref sig .tc .vmem S8x1024 .f32 := Memref.whole cc1_scratch1
abbrev scM1_2 : Memref sig .tc .vmem S8x1024x64 .f32 := Memref.whole cc1_scratch2
abbrev scM1_3 : Memref sig .tc .vmem S8x1024x64 .bf16 := Memref.whole cc1_scratch3

/-- The scoped buffers of the other two calls, each at anything: they ride through this call untouched. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- What the call is entered with: the kept arrays at anything, the other scoped buffers, the generator register. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ others1 (F := F) c ∗ (∃ r, prngReg c r)) := by
  unfold Pipeline.ΦA; rw [scopedRest1_eq]; unfold others1
  simp only [owns_whole]
  iintro ⟨⟨A0, A1, A2, A3, A4, A5, S0, S1, S2, S3, B0, B1, B2, B3, B4, B5⟩, Hg⟩
  isplitl [S0]; · iexact S0
  isplitl [S1]; · iexact S1
  isplitl [S2]; · iexact S2
  isplitl [S3]; · iexact S3
  isplitl [A0 A1 A2 A3 A4 A5 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [B0]; · iexact B0
    isplitl [B1]; · iexact B1
    isplitl [B2]; · iexact B2
    isplitl [B3]; · iexact B3
    isplitl [B4]; · iexact B4
    iexact B5
  iexact Hg

/-- And back: naming nothing of the kept arrays gives the entry form again. -/
theorem PhiA1_join (c : Dev nD) :
    iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ others1 (F := F) c ∗ (∃ r, prngReg c r))
      ⊢ (Pipeline.ΦA spec1 c : sProp 𝕄) := by
  unfold Pipeline.ΦA; rw [scopedRest1_eq]; unfold others1
  simp only [owns_whole]
  iintro ⟨S0, S1, S2, S3, ⟨A0, A1, A2, A3, A4, A5, B0, B1, B2, B3, B4, B5⟩, Hg⟩
  isplitl [A0 A1 A2 A3 A4 A5 S0 S1 S2 S3 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [S0]; · iexact S0
    isplitl [S1]; · iexact S1
    isplitl [S2]; · iexact S2
    isplitl [S3]; · iexact S3
    isplitl [B0]; · iexact B0
    isplitl [B1]; · iexact B1
    isplitl [B2]; · iexact B2
    isplitl [B3]; · iexact B3
    isplitl [B4]; · iexact B4
    iexact B5
  iexact Hg

/-- Before point n: at the call's entry the entry form; afterwards the kept arrays at what the point before left. -/
def PhiS (c : Dev nD) : (n : ℕ) → n ≤ cfg1.N → sProp 𝕄
  | 0, _ => Pipeline.ΦA spec1 c
  | n + 1, hn => iprop(owns (c : Thread nD τ) scM1_0 fullShare (scAt V c n hn).1 ∗ owns (c : Thread nD τ) scM1_1 fullShare (scAt V c n hn).2.1
      ∗ owns (c : Thread nD τ) scM1_2 fullShare (scAt V c n hn).2.2.1 ∗ owns (c : Thread nD τ) scM1_3 fullShare (scAt V c n hn).2.2.2
      ∗ others1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare (scAt V c n hn).1 ∗ owns (c : Thread nD τ) scM1_1 fullShare (scAt V c n hn).2.1
      ∗ owns (c : Thread nD τ) scM1_2 fullShare (scAt V c n hn).2.2.1 ∗ owns (c : Thread nD τ) scM1_3 fullShare (scAt V c n hn).2.2.2
      ∗ others1 (F := F) c ∗ (∃ r, prngReg c r)) := rfl

theorem PhiS_pos (c : Dev nD) (n : ℕ) (h : n ≤ cfg1.N) (hz : n ≠ 0) :
    PhiS V c n h = iprop(owns (c : Thread nD τ) scM1_0 fullShare (scAt V c (n - 1) (by omega)).1 ∗ owns (c : Thread nD τ) scM1_1 fullShare (scAt V c (n - 1) (by omega)).2.1
      ∗ owns (c : Thread nD τ) scM1_2 fullShare (scAt V c (n - 1) (by omega)).2.2.1 ∗ owns (c : Thread nD τ) scM1_3 fullShare (scAt V c (n - 1) (by omega)).2.2.2
      ∗ others1 (F := F) c ∗ (∃ r, prngReg c r)) := by
  cases n with
  | zero => exact absurd rfl hz
  | succ n => rfl

/-! ## The per-point contents -/

/-- The call's data: the arrays as found; after the body at point t each input's buffer at its block, the output's
    at the quotient of the kept arrays as the point leaves them (stored at the last key block of a run only: at the
    other points the output buffer is handed back as found and this entry is not consulted); the invariant above;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (scAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key block it is live. -/
theorem liveAt1_3 : ∀ t : Fin cfg1.N, cond1_1 (grid1.coords t) → cfg1.idle 3 (grid1.coords t) = false := by decide +kernel

/-! ## The obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- At any point: the input buffers hold their blocks; the point's key-block coordinate says which of the three
    cases it is in; the invariant hands the body the kept arrays at what the point before left (at anything at the
    call's first point, and at a run's first point their contents are overwritten anyway) and takes them back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  by_cases h1 : t.val % 16 = 15
  · -- the last key block of a run
    have h0 : ¬t.val % 16 = 0 := by omega
    have hz : t.val ≠ 0 := by omega
    rw [show (dat1 V c).leavesExact 3 t = owns (c : Thread nD τ) (st1_3 t) fullShare ((dat1 V c).after 3 t) from by
        unfold Dat.leavesExact; rw [liveAt1_3 t ((hcond1_1 t).mpr h1)], after1_3]
    rw [scAt_next V c t h0]
    rw [PhiS_castSucc V c t, PhiS_pos V c _ _ hz]
    iintro ⟨⟨HS0, HS1, HS2, HS3, Hoth, Hg⟩, Ho, ⟨%d0, H0⟩, ⟨%d1, H1⟩, ⟨%d2, H2⟩, ⟨%d3, H3⟩⟩
    iapply (run_last c Set.univ (grid1.coords t) (fun h => h0 ((hcond1_0 t).mp h)) ((hcond1_1 t).mpr h1) _ _ _ _ _ _ _ _ _ _ _ _ _ _ _ _
      (iblk1 V c 0 t) (iblk1 V c 1 t) (iblk1 V c 2 t) (scAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hoth Hg]
    · isplitl [HS0]; · iexact HS0
      isplitl [HS1]; · iexact HS1
      isplitl [HS2]; · iexact HS2
      isplitl [HS3]; · iexact HS3
      isplitl [Hoth]; · iexact Hoth
      iexact Hg
    isplitl [Ho]; · iexact Ho
    isplitl [H0]; · iexact H0
    isplitl [H1]; · iexact H1
    isplitl [H2]; · iexact H2
    iexact H3
  · have hnl : ¬cond1_1 (grid1.coords t) := fun h => h1 ((hcond1_1 t).mp h)
    rw [Dat.leavesExact_idle (dat1 V c) 3 t (idleAt1_3 t hnl) (noFlush1_3 t hnl)]
    by_cases h0 : t.val % 16 = 0
    · -- the first key block of a run: whatever the kept arrays hold is overwritten
      rw [scAt_first V c t h0]
      have hpre : (dat1 V c).Φ t.castSucc ⊢ iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ others1 (F := F) c ∗ (∃ r, prngReg c r)) := by
        rw [PhiS_castSucc V c t]
        by_cases hz : t.val = 0
        · rw [PhiS_zero V c _ _ hz]; exact PhiA1_split c
        · rw [PhiS_pos V c _ _ hz]
          iintro ⟨HS0, HS1, HS2, HS3, Hoth, Hg⟩
          isplitl [HS0]; · iexists _; iexact HS0
          isplitl [HS1]; · iexists _; iexact HS1
          isplitl [HS2]; · iexists _; iexact HS2
          isplitl [HS3]; · iexists _; iexact HS3
          isplitl [Hoth]; · iexact Hoth
          iexact Hg
      iintro ⟨HΦ, Ho, ⟨%d0, H0⟩, ⟨%d1, H1⟩, ⟨%d2, H2⟩, ⟨%d3, H3⟩⟩
      ihave HΦ' := hpre $$ HΦ
      icases HΦ' with ⟨HS0, HS1, HS2, HS3, Hoth, Hg⟩
      iapply (run_first c Set.univ (grid1.coords t) ((hcond1_0 t).mpr h0) hnl _ _ _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hoth Hg]
      · isplitl [HS0]; · iexact HS0
        isplitl [HS1]; · iexact HS1
        isplitl [HS2]; · iexact HS2
        isplitl [HS3]; · iexact HS3
        isplitl [Hoth]; · iexact Hoth
        iexact Hg
      isplitl [Ho]; · iexact Ho
      isplitl [H0]; · iexact H0
      isplitl [H1]; · iexact H1
      isplitl [H2]; · iexact H2
      iexists _; iexact H3
    · -- a middle key block
      have hz : t.val ≠ 0 := fun e => h0 (by rw [e])
      rw [scAt_next V c t h0]
      rw [PhiS_castSucc V c t, PhiS_pos V c _ _ hz]
      iintro ⟨⟨HS0, HS1, HS2, HS3, Hoth, Hg⟩, Ho, ⟨%d0, H0⟩, ⟨%d1, H1⟩, ⟨%d2, H2⟩, ⟨%d3, H3⟩⟩
      iapply (run_mid c Set.univ (grid1.coords t) (fun h => h0 ((hcond1_0 t).mp h)) hnl _ _ _ _ _ _ _ _ _ _ _ _ _ _ _ _
        (iblk1 V c 0 t) (iblk1 V c 1 t) (iblk1 V c 2 t) ((dat1 V c).before 3 t d3) (scAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hoth Hg]
      · isplitl [HS0]; · iexact HS0
        isplitl [HS1]; · iexact HS1
        isplitl [HS2]; · iexact HS2
        isplitl [HS3]; · iexact HS3
        isplitl [Hoth]; · iexact Hoth
        iexact Hg
      isplitl [Ho]; · iexact Ho
      isplitl [H0]; · iexact H0
      isplitl [H1]; · iexact H1
      isplitl [H2]; · iexact H2
      iexists _; iexact H3

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

/-- The entry form is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry form back: the kept arrays' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine BIBase.Entails.trans ?_ (PhiA1_join c)
  iintro ⟨H0, H1, H2, H3, Ho, Hg⟩
  isplitl [H0]; · iexists _; iexact H0
  isplitl [H1]; · iexists _; iexact H1
  isplitl [H2]; · iexists _; iexact H2
  isplitl [H3]; · iexists _; iexact H3
  isplitl [Ho]; · iexact Ho
  iexact Hg

end Cert.Kernel.Hand

end
-- ==== Proof.K.Reg2.lean ====
/-
  The third pallas_call: the output projection  out[r, :] = a[r, :] · w + bias  over row blocks of 512.

  Its grid has 8 points; point t stages rows 512 t … 512 t + 511 of the activations, the whole weight matrix and
  the whole bias row (both staged once and found again at every later point), and writes rows 512 t … of the
  result.  The body loads its three input blocks whole, forms the product into a zero accumulator, adds the bias
  row to every row and stores the block whole: what the output buffer holds afterwards is that one value, as a
  function of the three input blocks.  This module states that function, the body's run on any staging buffers,
  the per-point contents the pipeline rule asks for, and the rule's obligation at every point, for whatever the
  arrays hold when the call is entered.
-/
import proofs.«414835_j10436770529900_3_alg».proof.Proof.Gen.Kernel.Launch
import proofs.«414835_j10436770529900_3_alg».proof.Proof.Gen.Kernel.Skeleton
import proofs.«414835_j10436770529900_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The windows' blocks -/

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds rows 512 t … at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole matrix at every point: staged at the first, left in place after. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point, likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output buffer -/

abbrev rA2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0
abbrev rO2 : Rect S512x1024 := Rect.unit (s := S512x1024) ![0, 0] S512x1024.size inb_S512x1024_S512x1024_0_0

/-- The output buffer after the body: its one whole-block store of product plus bias, over the three input blocks. -/
def out2_3 (a : Vec F S512x1024 .f32) (w : Vec F S1024x1024 .bf16) (b : Vec F S1x1024 .f32) : Vec F S512x1024 .f32 :=
  View.canon [⟨rO2, k2_pay1 (View.ld a rA2) (View.ld w rW2) (View.ld b rB2)⟩]

/-- The one store fills the buffer. -/
theorem cover2_3 (p0 : Vec F S512x1024 .f32) (y : S512x1024.Idx) :
    ∃ pc ∈ ([⟨rO2, p0⟩] : List (View.Piece (Elt F) S512x1024 .f32)), y ∈ pc.1.set :=
  View.cover_of_tiled [⟨rO2, p0⟩] S512x1024.size (by rfl) y

/-! ## The body's run -/

set_option maxHeartbeats 1000000 in
/-- On whole staging buffers, the inputs' at contents a, w, b and the output's at anything, the body runs to the end
    with the inputs as they were and the output at out2_3 a w b. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (a : Vec F S512x1024 .f32) (w : Vec F S1024x1024 .bf16) (b : Vec F S1x1024 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (out2_3 a w b)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

/-! ## The per-point contents -/

/-- The call's data: the arrays as found; after the body at point t each input's buffer at its block and the
    output's at out2_3 of the three input blocks; nothing else kept between points; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The obligation at a point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body's run applies; what is kept between points and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/-
  What the core's buffers hold at each boundary of @main, as a fold from the launch memory.

  @main is four stretches of host operations around three pallas_calls.  A host stretch leaves the buffers at the
  composition of its operations; a call leaves each of its windows' arrays at what the write-backs of its grid
  points leave (the inputs as entered, the result block by block) and every other buffer as entered.  W0 is the
  launch memory, W1 … W7 the contents after each of the seven items in order, and V1, V3, V5 are the contents the
  three calls are entered with, read at the core's own references.
-/
import proofs.«414835_j10436770529900_3_alg».proof.Proof.K.Reg0
import proofs.«414835_j10436770529900_3_alg».proof.Proof.K.Reg1
import proofs.«414835_j10436770529900_3_alg».proof.Proof.K.Reg2

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The core's buffers at launch. -/
abbrev W0 : Dev nD → Valuation τ sig (Elt F) := fun c b => m ((c : Dev nD), b)
/-- After the first host stretch: the first call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what its write-backs leave. -/
def W2 (c : Dev nD) : Valuation τ sig (Elt F) :=
  Pipeline.withArrays spec0 c (W1 m c) fun w => (dat0 (V1 m) c).arrAt w cfg0.N
/-- After the second host stretch: the second call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (dat1 (V3 m) c).arrAt w cfg1.N
/-- After the third host stretch: the third call's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third call. -/
def W6 (c : Dev nD) : Valuation τ sig (Elt F) :=
  Pipeline.withArrays spec2 c (W5 m c) fun w => (dat2 (V5 m) c).arrAt w cfg2.N
/-- After the last host stretch: what @main returns with. -/
abbrev W7 : Dev nD → Valuation τ sig (Elt F) := fun c => StableHlo.after hostOps3 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

end Cert.Kernel.Hand

end
-- ==== Proof.K.Run.lean ====
/-
  The run of @main: from any launch memory with every counter at zero, every weakly fair execution on the
  cores terminates without a fault, and the final memory holds, at every buffer that is not scoped to a call,
  the last boundary's contents of the fold (W7).

  @main is seven items: four stretches of host operations around three pallas_calls.  Between two items a core
  holds every unscoped buffer whole at that boundary's contents, beside its generator register at some state and
  the record that it owes nothing.  A host stretch takes the buffers from a boundary's contents to the
  composition of its operations on them.  A call splits its windows' arrays out of the unscoped buffers, runs
  its pipeline from the entry form of its invariant (the scoped buffers no window stages, the generator
  register), and puts the arrays back at what the write-backs leave.  The second call keeps arrays between its
  grid points, so its invariant varies with the point: it is entered from the entry form and gives the entry
  form back after the last point.  No item writes an argument of @main, so each argument ends as launched.
-/
import proofs.«414835_j10436770529900_3_alg».proof.Proof.K.Fold
import proofs.«414835_j10436770529900_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched

No host stretch writes an argument and no call has one among its windows' arrays, so the fold read at an
argument's buffer walks back, item by item, to the launch memory. -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## What a call leaves: its arrays at the write-backs' result, every other buffer as entered -/

theorem left0 (c : Dev nD) (w : Fin cfg0.W) :
    (dat0 (V1 m) c).arrAt w cfg0.N = (fun b : Ref sig .tc => W2 m c b) (Pipeline.arrRef spec0 w) :=
  (W2_arr m c w).symm
theorem kept0 (c : Dev nD) : ∀ b, b ∉ Finset.univ.image (Pipeline.arrRef spec0) →
    (fun b : Ref sig .tc => W2 m c b) b = V1 m c b :=
  fun b hb => W2_of_ne m c b fun w e => hb (Finset.mem_image.mpr ⟨w, Finset.mem_univ _, e⟩)
theorem left1 (c : Dev nD) (w : Fin cfg1.W) :
    (dat1 (V3 m) c).arrAt w cfg1.N = (fun b : Ref sig .tc => W4 m c b) (Pipeline.arrRef spec1 w) :=
  (W4_arr m c w).symm
theorem kept1 (c : Dev nD) : ∀ b, b ∉ Finset.univ.image (Pipeline.arrRef spec1) →
    (fun b : Ref sig .tc => W4 m c b) b = V3 m c b :=
  fun b hb => W4_of_ne m c b fun w e => hb (Finset.mem_image.mpr ⟨w, Finset.mem_univ _, e⟩)
theorem left2 (c : Dev nD) (w : Fin cfg2.W) :
    (dat2 (V5 m) c).arrAt w cfg2.N = (fun b : Ref sig .tc => W6 m c b) (Pipeline.arrRef spec2 w) :=
  (W6_arr m c w).symm
theorem kept2 (c : Dev nD) : ∀ b, b ∉ Finset.univ.image (Pipeline.arrRef spec2) →
    (fun b : Ref sig .tc => W6 m c b) b = V5 m c b :=
  fun b hb => W6_of_ne m c b fun w e => hb (Finset.mem_image.mpr ⟨w, Finset.mem_univ _, e⟩)

/-! ## The calls' data and the thread state -/

/-- Every call's data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside the buffers through every item: its generator register at some state, and that it
    owes nothing. -/
abbrev beside (c : Dev nD) : sProp 𝕄 := iprop((∃ r, prngReg c r) ∗ ∃ W, owes (c : Thread nD τ) (0 : CellTallies nD τ sig Unit) W)
/-- A host stretch over the unscoped buffers from the contents W: it leaves them at the composition of its
    operations on W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the record of owing nothing: every unscoped buffer at W7, the generator
    register at some state. -/
abbrev atReturn (c : Dev nD) : sProp 𝕄 := iprop(StableHlo.held (c : Thread nD τ) (Pipeline.ucRefs τ sig) (W7 m c) ∗ ∃ r, prngReg c r)

/-! ## The calls as items -/

set_option backward.isDefEq.respectTransparency.types false in
/-- The fused projection: entered from every unscoped buffer at W1, left at W2.  Its invariant is the entry form at every point. -/
def callProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at W3, left at W4.  Its invariant before the first point is the entry form; after the last point it gives the entry form back, the kept arrays' contents forgotten. -/
def callAttn : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection: entered from every unscoped buffer at W5, left at W6.  Its invariant is the entry form at every point. -/
def callOut : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ beside c)
  post c := iprop(StableHlo.held (c : Thread nD τ) (Pipeline.ucRefs τ sig) (W6 m c) ∗ beside c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (fun b => W6 m c b) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- The seven items in order. -/
abbrev segs : List (Pipeline.Seg (pcfgs (F := F)) adm (pdats m) () defs₀ 𝒱₀ L lv) :=
  [ .host (stretch hostOps0 hostOps0_sub hostOps0_fresh (W0 m)),
    .region (callProj m),
    .host (stretch hostOps1 hostOps1_sub hostOps1_fresh (W2 m)),
    .region (callAttn m),
    .host (stretch hostOps2 hostOps2_sub hostOps2_fresh (W4 m)),
    .region (callOut m),
    .host (stretch hostOps3 hostOps3_sub hostOps3_fresh (W6 m)) ]
/-- @main is the run of its items. -/
theorem main_run (c : Dev nD) : main (F := F) c = Pipeline.Seg.run (segs m) := (main_chain c).trans (by chain_rfl)

set_option backward.isDefEq.respectTransparency.types false in
/-- From any memory with zero counters every weakly fair execution of @main terminates, nothing faulting, and
    every final memory holds each unscoped buffer at W7. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atReturn m)
    (hch := ⟨fun _ => .rfl, fun _ => .rfl, fun _ => .rfl, fun _ => .rfl, fun _ => .rfl, fun _ => .rfl, fun _ => .rfl,
      fun c => show iprop(StableHlo.held (c : Thread nD τ) (Pipeline.ucRefs τ sig) (W7 m c) ∗ beside c)
          ⊢ iprop(atReturn m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- Every argument of @main ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c)⟩) (run_main m ρ)

end Cert.Kernel.Hand

end
-- ==== Proof.KI.Reg0.lean ====
/-
  The first pallas_call: the fused projection  out[r, :] = a[r, :] · w + bias  over row blocks of 512.

  Its grid has 8 points; point t stages rows 512 t … 512 t + 511 of the activations, the whole weight matrix and
  the whole bias row (both staged once and found again at every later point), and writes rows 512 t … of the
  result.  The body loads its three input blocks whole, forms the product into a zero accumulator, adds the bias
  row to every row and stores the block whole: what the output buffer holds afterwards is that one value, as a
  function of the three input blocks.  This module states that function, the body's run on any staging buffers,
  the per-point contents the pipeline rule asks for, and the rule's obligation at every point, for whatever the
  arrays hold when the call is entered.
-/
import proofs.«414835_j10436770529900_3_alg».proof.Proof.Gen.KernelIdeal.Launch
import proofs.«414835_j10436770529900_3_alg».proof.Proof.Gen.KernelIdeal.Skeleton
import proofs.«414835_j10436770529900_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds rows 512 t … at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point: staged at the first, left in place after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the row at every point, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output buffer -/

abbrev rA0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0
abbrev rO0 : Rect S512x3072 := Rect.unit (s := S512x3072) ![0, 0] S512x3072.size inb_S512x3072_S512x3072_0_0

/-- The output buffer after the body: its one whole-block store of product plus bias, over the three input blocks. -/
def out0_3 (a : Vec F S512x1024 .bf16) (w : Vec F S1024x3072 .bf16) (b : Vec F S1x3072 .f32) : Vec F S512x3072 .f32 :=
  View.canon [⟨rO0, k0_pay1 (View.ld a rA0) (View.ld w rW0) (View.ld b rB0)⟩]

/-- The one store fills the buffer. -/
theorem cover0_3 (p0 : Vec F S512x3072 .f32) (y : S512x3072.Idx) :
    ∃ pc ∈ ([⟨rO0, p0⟩] : List (View.Piece (Elt F) S512x3072 .f32)), y ∈ pc.1.set :=
  View.cover_of_tiled [⟨rO0, p0⟩] S512x3072.size (by rfl) y

/-! ## The body's run -/

set_option maxHeartbeats 1000000 in
/-- On whole staging buffers, the inputs' at contents a, w, b and the output's at anything, the body runs to the end
    with the inputs as they were and the output at out0_3 a w b. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .f32) (harg4 : arg4.IsWhole)
    (a : Vec F S512x1024 .bf16) (w : Vec F S1024x3072 .bf16) (b : Vec F S1x3072 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (out0_3 a w b)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The per-point contents -/

/-- The call's data: the arrays as found; after the body at point t each input's buffer at its block and the
    output's at out0_3 of the three input blocks; nothing else kept between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's run applies; what is kept between points and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Run.lean ====
/-
  The second pallas_call, one grid point at a time: attention for 8 heads and 1024 query rows against one block of
  128 key rows, accumulated over the 16 key blocks of the sequence.

  Between the key blocks of one query tile the body keeps four arrays of its own: the running row maximum m, the
  running denominator l, the running numerator acc, and the scaled, transposed queries qT.  At the FIRST key block
  it resets them (m to -inf, l and acc to zero, qT from the query block); at EVERY block it forms the scores of the
  kept queries against the block's keys, raises the maximum, rescales l and acc by exp (old maximum - new maximum)
  and adds the block's exponentials and their products with the values; at the LAST block it also divides acc by l
  and stores the result, transposed back, into the output block.  The output buffer is touched at no other block.

  This module states the new contents of the four kept arrays and of the output block as compositions of the
  body's named values, and proves the body's run in each of the three cases (first block, a middle block, last
  block) on any staging buffers.
-/
import proofs.«414835_j10436770529900_3_alg».proof.Proof.Gen.KernelIdeal.Launch
import proofs.«414835_j10436770529900_3_alg».proof.Proof.Gen.KernelIdeal.Skeleton
import proofs.«414835_j10436770529900_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kept arrays and their update -/

/-- The four arrays kept between key blocks: running maximum, running denominator, running numerator, scaled queries. -/
abbrev St (F : FTy → Type) [FloatOps F] : Type :=
  Vec F S8x1024 .f32 × Vec F S8x1024 .f32 × Vec F S8x1024x64 .f32 × Vec F S8x1024x64 .bf16

/-- What the first key block resets them to, from the query block. -/
def resetSt (q : Vec F S1x1024x8x64 .f32) : St F := (k1_pay4, k1_pay5, k1_pay6, k1_pay7 q)

/-- One key block folded in: from the block's keys k and values v and the arrays s as the block finds them. -/
def advance (k v : Vec F S1x128x8x64 .f32) (s : St F) : St F :=
  (k1_pay2 (k1_pay9 k s.2.2.2 s.1), k1_pay12 k s.2.2.2 s.1 s.2.1,
    k1_pay1 (k1_pay10 k s.2.2.2 s.1) (k1_pay13 k v s.2.2.2 s.1) s.2.2.1, s.2.2.2)

/-- What the last key block stores into the output block: numerator over denominator, transposed back. -/
def outOf (s : St F) : Vec F S1x1024x8x64 .f32 := k1_pay3 s.2.2.1 s.2.1

/-! ## The branch conditions, from the grid coordinates -/

/-- The body's first branch is taken: the key-block coordinate is 0. -/
abbrev cond1_0 (i : grid1.Coords) : Prop :=
  (Scalar.cmpi .ne (Scalar.extui (Scalar.cmpi .eq (BitVec.ofNat 32 (i 3).val) 0#32)) 0#32) = 1#1
/-- The body's last branch is taken: the key-block coordinate is 15. -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-! ## Whole-block accesses -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A buffer whose LAST store was a whole-block store reads back as that store's value, whatever was stored before. -/
theorem read_writes_head {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.Mem.head _, View.mem_set_unit_zero h inb y⟩)).trans
    (View.canon_cons_unit_zero h inb w L)

/-! ## The body's run, case by case -/

set_option maxHeartbeats 4000000 in
/-- A MIDDLE key block: the kept arrays at s become advance k v s; the query block, the key and value blocks and
    the output buffer are left as found. -/
theorem run_mid (c : Dev nD) (E : Set ℕ) (i : grid1.Coords) (hc1 : ¬cond1_0 i) (hc2 : ¬cond1_1 i)
    (arg4 : Memref sig .tc .vmem S1x1024x8x64 .f32) (harg4 : arg4.IsWhole) (arg5 : Memref sig .tc .vmem S1x128x8x64 .f32) (harg5 : arg5.IsWhole)
    (arg6 : Memref sig .tc .vmem S1x128x8x64 .f32) (harg6 : arg6.IsWhole) (arg7 : Memref sig .tc .vmem S1x1024x8x64 .f32) (harg7 : arg7.IsWhole)
    (arg8 : Memref sig .tc .vmem S8x1024 .f32) (harg8 : arg8.IsWhole) (arg9 : Memref sig .tc .vmem S8x1024 .f32) (harg9 : arg9.IsWhole)
    (arg10 : Memref sig .tc .vmem S8x1024x64 .f32) (harg10 : arg10.IsWhole) (arg11 : Memref sig .tc .vmem S8x1024x64 .bf16) (harg11 : arg11.IsWhole)
    (q : Vec F S1x1024x8x64 .f32) (k v : Vec F S1x128x8x64 .f32) (o : Vec F S1x1024x8x64 .f32) (s : St F) (K : PUnit → sProp 𝕄) :
    iprop(owns (c : Thread nD τ) arg4 fullShare q ∗ owns (c : Thread nD τ) arg5 fullShare k ∗ owns (c : Thread nD τ) arg6 fullShare v ∗ owns (c : Thread nD τ) arg7 fullShare o
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg4 fullShare q ∗ owns (c : Thread nD τ) arg5 fullShare k ∗ owns (c : Thread nD τ) arg6 fullShare v ∗ owns (c : Thread nD τ) arg7 fullShare o
            ∗ owns (c : Thread nD τ) arg8 fullShare (advance k v s).1 ∗ owns (c : Thread nD τ) arg9 fullShare (advance k v s).2.1
            ∗ owns (c : Thread nD τ) arg10 fullShare (advance k v s).2.2.1 ∗ owns (c : Thread nD τ) arg11 fullShare (advance k v s).2.2.2) -∗ K ⟨⟩))
      ⊢ wp frame (wpE (defs₀ (F := F)) Variants.none c none) E
          (cc1__flash_attn_kernel i arg4 harg4 arg5 harg5 arg6 harg6 arg7 harg7 arg8 harg8 arg9 harg9 arg10 harg10 arg11 harg11) K := by
  simp only [cc1__flash_attn_kernel_eq_skeleton]; unfold cc1__flash_attn_kernel_skel
  simp only [k1_part1_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf4; subst hf5; subst hf6; subst hf7
  obtain ⟨s1, s2, s3, s4⟩ := s
  dsimp only at hf8 hf9 hf10 hf11
  subst hf8; subst hf9; subst hf10; subst hf11
  sl_exec (disch := first | exact hc1 | exact hc2)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H9]
  · iexists _; isplitr
    swap; · iexact H9
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H10]
  · iexists _; isplitr
    swap; · iexact H10
    ipureintro
    sl_unfold_words
    refine (read_writes_head _ _ hz3 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  iexists f11; isplitr; · ipureintro; rfl
  iexact H11

set_option maxHeartbeats 4000000 in
/-- The FIRST key block of a query tile: whatever the kept arrays held, they become the update of the reset
    arrays; the blocks and the output buffer are left as found. -/
theorem run_first (c : Dev nD) (E : Set ℕ) (i : grid1.Coords) (hc1 : cond1_0 i) (hc2 : ¬cond1_1 i)
    (arg4 : Memref sig .tc .vmem S1x1024x8x64 .f32) (harg4 : arg4.IsWhole) (arg5 : Memref sig .tc .vmem S1x128x8x64 .f32) (harg5 : arg5.IsWhole)
    (arg6 : Memref sig .tc .vmem S1x128x8x64 .f32) (harg6 : arg6.IsWhole) (arg7 : Memref sig .tc .vmem S1x1024x8x64 .f32) (harg7 : arg7.IsWhole)
    (arg8 : Memref sig .tc .vmem S8x1024 .f32) (harg8 : arg8.IsWhole) (arg9 : Memref sig .tc .vmem S8x1024 .f32) (harg9 : arg9.IsWhole)
    (arg10 : Memref sig .tc .vmem S8x1024x64 .f32) (harg10 : arg10.IsWhole) (arg11 : Memref sig .tc .vmem S8x1024x64 .bf16) (harg11 : arg11.IsWhole)
    (q : Vec F S1x1024x8x64 .f32) (k v : Vec F S1x128x8x64 .f32) (o : Vec F S1x1024x8x64 .f32) (K : PUnit → sProp 𝕄) :
    iprop(owns (c : Thread nD τ) arg4 fullShare q ∗ owns (c : Thread nD τ) arg5 fullShare k ∗ owns (c : Thread nD τ) arg6 fullShare v ∗ owns (c : Thread nD τ) arg7 fullShare o
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg4 fullShare q ∗ owns (c : Thread nD τ) arg5 fullShare k ∗ owns (c : Thread nD τ) arg6 fullShare v ∗ owns (c : Thread nD τ) arg7 fullShare o
            ∗ owns (c : Thread nD τ) arg8 fullShare (advance k v (resetSt q)).1 ∗ owns (c : Thread nD τ) arg9 fullShare (advance k v (resetSt q)).2.1
            ∗ owns (c : Thread nD τ) arg10 fullShare (advance k v (resetSt q)).2.2.1 ∗ owns (c : Thread nD τ) arg11 fullShare (advance k v (resetSt q)).2.2.2) -∗ K ⟨⟩))
      ⊢ wp frame (wpE (defs₀ (F := F)) Variants.none c none) E
          (cc1__flash_attn_kernel i arg4 harg4 arg5 harg5 arg6 harg6 arg7 harg7 arg8 harg8 arg9 harg9 arg10 harg10 arg11 harg11) K := by
  simp only [cc1__flash_attn_kernel_eq_skeleton]; unfold cc1__flash_attn_kernel_skel
  simp only [k1_part1_eq_skeleton]
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf4; subst hf5; subst hf6; subst hf7
  sl_exec (disch := first | exact hc1 | exact hc2)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H9]
  · iexists _; isplitr
    swap; · iexact H9
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H10]
  · iexists _; isplitr
    swap; · iexact H10
    ipureintro
    sl_unfold_words
    refine (read_writes_head _ _ hz3 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  iexists _; isplitr
  swap; · iexact H11
  ipureintro
  sl_unfold_words
  refine (read_writes_head _ _ hz3 _ _ _).trans ?_
  simp only [View.readAt_eq_ld, View.ld_unit_zero (S := S1x1024x8x64) hz4]
  try rfl

set_option maxHeartbeats 4000000 in
/-- The LAST key block of a query tile: the kept arrays at s become advance k v s, and the output buffer, whatever
    it held, takes the quotient of the new numerator by the new denominator. -/
theorem run_last (c : Dev nD) (E : Set ℕ) (i : grid1.Coords) (hc1 : ¬cond1_0 i) (hc2 : cond1_1 i)
    (arg4 : Memref sig .tc .vmem S1x1024x8x64 .f32) (harg4 : arg4.IsWhole) (arg5 : Memref sig .tc .vmem S1x128x8x64 .f32) (harg5 : arg5.IsWhole)
    (arg6 : Memref sig .tc .vmem S1x128x8x64 .f32) (harg6 : arg6.IsWhole) (arg7 : Memref sig .tc .vmem S1x1024x8x64 .f32) (harg7 : arg7.IsWhole)
    (arg8 : Memref sig .tc .vmem S8x1024 .f32) (harg8 : arg8.IsWhole) (arg9 : Memref sig .tc .vmem S8x1024 .f32) (harg9 : arg9.IsWhole)
    (arg10 : Memref sig .tc .vmem S8x1024x64 .f32) (harg10 : arg10.IsWhole) (arg11 : Memref sig .tc .vmem S8x1024x64 .bf16) (harg11 : arg11.IsWhole)
    (q : Vec F S1x1024x8x64 .f32) (k v : Vec F S1x128x8x64 .f32) (s : St F) (K : PUnit → sProp 𝕄) :
    iprop(owns (c : Thread nD τ) arg4 fullShare q ∗ owns (c : Thread nD τ) arg5 fullShare k ∗ owns (c : Thread nD τ) arg6 fullShare v ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg4 fullShare q ∗ owns (c : Thread nD τ) arg5 fullShare k ∗ owns (c : Thread nD τ) arg6 fullShare v ∗ owns (c : Thread nD τ) arg7 fullShare (outOf (advance k v s))
            ∗ owns (c : Thread nD τ) arg8 fullShare (advance k v s).1 ∗ owns (c : Thread nD τ) arg9 fullShare (advance k v s).2.1
            ∗ owns (c : Thread nD τ) arg10 fullShare (advance k v s).2.2.1 ∗ owns (c : Thread nD τ) arg11 fullShare (advance k v s).2.2.2) -∗ K ⟨⟩))
      ⊢ wp frame (wpE (defs₀ (F := F)) Variants.none c none) E
          (cc1__flash_attn_kernel i arg4 harg4 arg5 harg5 arg6 harg6 arg7 harg7 arg8 harg8 arg9 harg9 arg10 harg10 arg11 harg11) K := by
  simp only [cc1__flash_attn_kernel_eq_skeleton]; unfold cc1__flash_attn_kernel_skel
  simp only [k1_part1_eq_skeleton]
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf4; subst hf5; subst hf6
  obtain ⟨s1, s2, s3, s4⟩ := s
  dsimp only at hf8 hf9 hf10 hf11
  subst hf8; subst hf9; subst hf10; subst hf11
  sl_exec (disch := first | exact hc1 | exact hc2)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_head _ _ hz4 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H8]
  · iexists _; isplitr
    swap; · iexact H8
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H9]
  · iexists _; isplitr
    swap; · iexact H9
    ipureintro
    sl_unfold_words
    refine (read_writes_head _ _ hz2 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  isplitl [H10]
  · iexists _; isplitr
    swap; · iexact H10
    ipureintro
    sl_unfold_words
    refine (read_writes_head _ _ hz3 _ _ _).trans ?_
    simp only [View.readAt_eq_ld, View.ld_unit_zero (S := S8x1024) hz2, View.ld_unit_zero (S := S8x1024x64) hz3,
      View.ld_unit_zero (S := S1x128x8x64) hz4, View.ld_unit_zero (S := S1x1024x8x64) hz4,
      View.readCov_unit_zero (S := S8x1024) _ hz2, View.readCov_unit_zero (S := S8x1024x64) _ hz3]
    try rfl
  iexists f11; isplitr; · ipureintro; rfl
  iexact H11

end Cert.KernelIdeal.Hand

end
-- ==== Proof.KI.Reg1.lean ====
/-
  The second pallas_call over its whole grid: what the four kept arrays hold after every point, and the contents
  the pipeline rule asks for.

  The grid is 2 batches x 2 head groups x 2 query tiles x 16 key blocks, the key block innermost: point t has key
  block t mod 16, and each run of 16 consecutive points is one query tile of one head group.  The kept arrays after
  point t are the fold of the body's update over the points of t's run up to t, restarted from the reset at the
  run's first point; between points they are the only scoped buffers whose contents matter, so the rule's
  invariant names them and leaves the other scoped buffers at anything.  The output block is written at the last
  point of each run, from the kept arrays as that point leaves them, and is written back to its array there.
-/
import proofs.«414835_j10436770529900_3_alg».proof.Proof.KI.Reg1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds the tile's rows at every point: staged at the first key block of a
    tile, left in place through the other fifteen. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block's staging buffer holds the block's rows at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value block's staging buffer holds the block's rows at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kept arrays after each point -/

/-- After point n: at the first key block of a run the update of the reset arrays, else the update of what the
    point before left. -/
def scAt (c : Dev nD) : (n : ℕ) → n < cfg1.N → St F
  | 0, hn => advance (iblk1 V c 1 ⟨0, hn⟩) (iblk1 V c 2 ⟨0, hn⟩) (resetSt (iblk1 V c 0 ⟨0, hn⟩))
  | n + 1, hn =>
    if (n + 1) % 16 = 0 then advance (iblk1 V c 1 ⟨n + 1, hn⟩) (iblk1 V c 2 ⟨n + 1, hn⟩) (resetSt (iblk1 V c 0 ⟨n + 1, hn⟩))
    else advance (iblk1 V c 1 ⟨n + 1, hn⟩) (iblk1 V c 2 ⟨n + 1, hn⟩) (scAt c n (Nat.lt_of_succ_lt hn))

/-- At the first key block of a run. -/
theorem scAt_first (c : Dev nD) (t : Fin cfg1.N) (h : t.val % 16 = 0) :
    scAt V c t.val t.isLt = advance (iblk1 V c 1 t) (iblk1 V c 2 t) (resetSt (iblk1 V c 0 t)) := by
  obtain ⟨n, hn⟩ := t
  cases n with
  | zero => rfl
  | succ n => exact if_pos h

/-- At a later key block. -/
theorem scAt_next (c : Dev nD) (t : Fin cfg1.N) (h : ¬t.val % 16 = 0) :
    scAt V c t.val t.isLt = advance (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

abbrev scM1_0 : Memref sig .tc .vmem S8x1024 .f32 := Memref.whole cc1_scratch0
abbrev scM1_1 : Memref sig .tc .vmem S8x1024 .f32 := Memref.whole cc1_scratch1
abbrev scM1_2 : Memref sig .tc .vmem S8x1024x64 .f32 := Memref.whole cc1_scratch2
abbrev scM1_3 : Memref sig .tc .vmem S8x1024x64 .bf16 := Memref.whole cc1_scratch3

/-- The scoped buffers of the other two calls, each at anything: they ride through this call untouched. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- What the call is entered with: the kept arrays at anything, the other scoped buffers, the generator register. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ others1 (F := F) c ∗ (∃ r, prngReg c r)) := by
  unfold Pipeline.ΦA; rw [scopedRest1_eq]; unfold others1
  simp only [owns_whole]
  iintro ⟨⟨A0, A1, A2, A3, A4, A5, S0, S1, S2, S3, B0, B1, B2, B3, B4, B5⟩, Hg⟩
  isplitl [S0]; · iexact S0
  isplitl [S1]; · iexact S1
  isplitl [S2]; · iexact S2
  isplitl [S3]; · iexact S3
  isplitl [A0 A1 A2 A3 A4 A5 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [B0]; · iexact B0
    isplitl [B1]; · iexact B1
    isplitl [B2]; · iexact B2
    isplitl [B3]; · iexact B3
    isplitl [B4]; · iexact B4
    iexact B5
  iexact Hg

/-- And back: naming nothing of the kept arrays gives the entry form again. -/
theorem PhiA1_join (c : Dev nD) :
    iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ others1 (F := F) c ∗ (∃ r, prngReg c r))
      ⊢ (Pipeline.ΦA spec1 c : sProp 𝕄) := by
  unfold Pipeline.ΦA; rw [scopedRest1_eq]; unfold others1
  simp only [owns_whole]
  iintro ⟨S0, S1, S2, S3, ⟨A0, A1, A2, A3, A4, A5, B0, B1, B2, B3, B4, B5⟩, Hg⟩
  isplitl [A0 A1 A2 A3 A4 A5 S0 S1 S2 S3 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [S0]; · iexact S0
    isplitl [S1]; · iexact S1
    isplitl [S2]; · iexact S2
    isplitl [S3]; · iexact S3
    isplitl [B0]; · iexact B0
    isplitl [B1]; · iexact B1
    isplitl [B2]; · iexact B2
    isplitl [B3]; · iexact B3
    isplitl [B4]; · iexact B4
    iexact B5
  iexact Hg

/-- Before point n: at the call's entry the entry form; afterwards the kept arrays at what the point before left. -/
def PhiS (c : Dev nD) : (n : ℕ) → n ≤ cfg1.N → sProp 𝕄
  | 0, _ => Pipeline.ΦA spec1 c
  | n + 1, hn => iprop(owns (c : Thread nD τ) scM1_0 fullShare (scAt V c n hn).1 ∗ owns (c : Thread nD τ) scM1_1 fullShare (scAt V c n hn).2.1
      ∗ owns (c : Thread nD τ) scM1_2 fullShare (scAt V c n hn).2.2.1 ∗ owns (c : Thread nD τ) scM1_3 fullShare (scAt V c n hn).2.2.2
      ∗ others1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare (scAt V c n hn).1 ∗ owns (c : Thread nD τ) scM1_1 fullShare (scAt V c n hn).2.1
      ∗ owns (c : Thread nD τ) scM1_2 fullShare (scAt V c n hn).2.2.1 ∗ owns (c : Thread nD τ) scM1_3 fullShare (scAt V c n hn).2.2.2
      ∗ others1 (F := F) c ∗ (∃ r, prngReg c r)) := rfl

theorem PhiS_pos (c : Dev nD) (n : ℕ) (h : n ≤ cfg1.N) (hz : n ≠ 0) :
    PhiS V c n h = iprop(owns (c : Thread nD τ) scM1_0 fullShare (scAt V c (n - 1) (by omega)).1 ∗ owns (c : Thread nD τ) scM1_1 fullShare (scAt V c (n - 1) (by omega)).2.1
      ∗ owns (c : Thread nD τ) scM1_2 fullShare (scAt V c (n - 1) (by omega)).2.2.1 ∗ owns (c : Thread nD τ) scM1_3 fullShare (scAt V c (n - 1) (by omega)).2.2.2
      ∗ others1 (F := F) c ∗ (∃ r, prngReg c r)) := by
  cases n with
  | zero => exact absurd rfl hz
  | succ n => rfl

/-! ## The per-point contents -/

/-- The call's data: the arrays as found; after the body at point t each input's buffer at its block, the output's
    at the quotient of the kept arrays as the point leaves them (stored at the last key block of a run only: at the
    other points the output buffer is handed back as found and this entry is not consulted); the invariant above;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (scAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key block it is live. -/
theorem liveAt1_3 : ∀ t : Fin cfg1.N, cond1_1 (grid1.coords t) → cfg1.idle 3 (grid1.coords t) = false := by decide +kernel

/-! ## The obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- At any point: the input buffers hold their blocks; the point's key-block coordinate says which of the three
    cases it is in; the invariant hands the body the kept arrays at what the point before left (at anything at the
    call's first point, and at a run's first point their contents are overwritten anyway) and takes them back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  by_cases h1 : t.val % 16 = 15
  · -- the last key block of a run
    have h0 : ¬t.val % 16 = 0 := by omega
    have hz : t.val ≠ 0 := by omega
    rw [show (dat1 V c).leavesExact 3 t = owns (c : Thread nD τ) (st1_3 t) fullShare ((dat1 V c).after 3 t) from by
        unfold Dat.leavesExact; rw [liveAt1_3 t ((hcond1_1 t).mpr h1)], after1_3]
    rw [scAt_next V c t h0]
    rw [PhiS_castSucc V c t, PhiS_pos V c _ _ hz]
    iintro ⟨⟨HS0, HS1, HS2, HS3, Hoth, Hg⟩, Ho, ⟨%d0, H0⟩, ⟨%d1, H1⟩, ⟨%d2, H2⟩, ⟨%d3, H3⟩⟩
    iapply (run_last c Set.univ (grid1.coords t) (fun h => h0 ((hcond1_0 t).mp h)) ((hcond1_1 t).mpr h1) _ _ _ _ _ _ _ _ _ _ _ _ _ _ _ _
      (iblk1 V c 0 t) (iblk1 V c 1 t) (iblk1 V c 2 t) (scAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hoth Hg]
    · isplitl [HS0]; · iexact HS0
      isplitl [HS1]; · iexact HS1
      isplitl [HS2]; · iexact HS2
      isplitl [HS3]; · iexact HS3
      isplitl [Hoth]; · iexact Hoth
      iexact Hg
    isplitl [Ho]; · iexact Ho
    isplitl [H0]; · iexact H0
    isplitl [H1]; · iexact H1
    isplitl [H2]; · iexact H2
    iexact H3
  · have hnl : ¬cond1_1 (grid1.coords t) := fun h => h1 ((hcond1_1 t).mp h)
    rw [Dat.leavesExact_idle (dat1 V c) 3 t (idleAt1_3 t hnl) (noFlush1_3 t hnl)]
    by_cases h0 : t.val % 16 = 0
    · -- the first key block of a run: whatever the kept arrays hold is overwritten
      rw [scAt_first V c t h0]
      have hpre : (dat1 V c).Φ t.castSucc ⊢ iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ others1 (F := F) c ∗ (∃ r, prngReg c r)) := by
        rw [PhiS_castSucc V c t]
        by_cases hz : t.val = 0
        · rw [PhiS_zero V c _ _ hz]; exact PhiA1_split c
        · rw [PhiS_pos V c _ _ hz]
          iintro ⟨HS0, HS1, HS2, HS3, Hoth, Hg⟩
          isplitl [HS0]; · iexists _; iexact HS0
          isplitl [HS1]; · iexists _; iexact HS1
          isplitl [HS2]; · iexists _; iexact HS2
          isplitl [HS3]; · iexists _; iexact HS3
          isplitl [Hoth]; · iexact Hoth
          iexact Hg
      iintro ⟨HΦ, Ho, ⟨%d0, H0⟩, ⟨%d1, H1⟩, ⟨%d2, H2⟩, ⟨%d3, H3⟩⟩
      ihave HΦ' := hpre $$ HΦ
      icases HΦ' with ⟨HS0, HS1, HS2, HS3, Hoth, Hg⟩
      iapply (run_first c Set.univ (grid1.coords t) ((hcond1_0 t).mpr h0) hnl _ _ _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hoth Hg]
      · isplitl [HS0]; · iexact HS0
        isplitl [HS1]; · iexact HS1
        isplitl [HS2]; · iexact HS2
        isplitl [HS3]; · iexact HS3
        isplitl [Hoth]; · iexact Hoth
        iexact Hg
      isplitl [Ho]; · iexact Ho
      isplitl [H0]; · iexact H0
      isplitl [H1]; · iexact H1
      isplitl [H2]; · iexact H2
      iexists _; iexact H3
    · -- a middle key block
      have hz : t.val ≠ 0 := fun e => h0 (by rw [e])
      rw [scAt_next V c t h0]
      rw [PhiS_castSucc V c t, PhiS_pos V c _ _ hz]
      iintro ⟨⟨HS0, HS1, HS2, HS3, Hoth, Hg⟩, Ho, ⟨%d0, H0⟩, ⟨%d1, H1⟩, ⟨%d2, H2⟩, ⟨%d3, H3⟩⟩
      iapply (run_mid c Set.univ (grid1.coords t) (fun h => h0 ((hcond1_0 t).mp h)) hnl _ _ _ _ _ _ _ _ _ _ _ _ _ _ _ _
        (iblk1 V c 0 t) (iblk1 V c 1 t) (iblk1 V c 2 t) ((dat1 V c).before 3 t d3) (scAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hoth Hg]
      · isplitl [HS0]; · iexact HS0
        isplitl [HS1]; · iexact HS1
        isplitl [HS2]; · iexact HS2
        isplitl [HS3]; · iexact HS3
        isplitl [Hoth]; · iexact Hoth
        iexact Hg
      isplitl [Ho]; · iexact Ho
      isplitl [H0]; · iexact H0
      isplitl [H1]; · iexact H1
      isplitl [H2]; · iexact H2
      iexists _; iexact H3

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

/-- The entry form is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry form back: the kept arrays' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine BIBase.Entails.trans ?_ (PhiA1_join c)
  iintro ⟨H0, H1, H2, H3, Ho, Hg⟩
  isplitl [H0]; · iexists _; iexact H0
  isplitl [H1]; · iexists _; iexact H1
  isplitl [H2]; · iexists _; iexact H2
  isplitl [H3]; · iexists _; iexact H3
  isplitl [Ho]; · iexact Ho
  iexact Hg

end Cert.KernelIdeal.Hand

end
-- ==== Proof.KI.Reg2.lean ====
/-
  The third pallas_call: the output projection  out[r, :] = a[r, :] · w + bias  over row blocks of 512.

  Its grid has 8 points; point t stages rows 512 t … 512 t + 511 of the activations, the whole weight matrix and
  the whole bias row (both staged once and found again at every later point), and writes rows 512 t … of the
  result.  The body loads its three input blocks whole, forms the product into a zero accumulator, adds the bias
  row to every row and stores the block whole: what the output buffer holds afterwards is that one value, as a
  function of the three input blocks.  This module states that function, the body's run on any staging buffers,
  the per-point contents the pipeline rule asks for, and the rule's obligation at every point, for whatever the
  arrays hold when the call is entered.
-/
import proofs.«414835_j10436770529900_3_alg».proof.Proof.Gen.KernelIdeal.Launch
import proofs.«414835_j10436770529900_3_alg».proof.Proof.Gen.KernelIdeal.Skeleton
import proofs.«414835_j10436770529900_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The windows' blocks -/

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds rows 512 t … at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole matrix at every point: staged at the first, left in place after. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point, likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output buffer -/

abbrev rA2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0
abbrev rO2 : Rect S512x1024 := Rect.unit (s := S512x1024) ![0, 0] S512x1024.size inb_S512x1024_S512x1024_0_0

/-- The output buffer after the body: its one whole-block store of product plus bias, over the three input blocks. -/
def out2_3 (a : Vec F S512x1024 .f32) (w : Vec F S1024x1024 .bf16) (b : Vec F S1x1024 .f32) : Vec F S512x1024 .f32 :=
  View.canon [⟨rO2, k2_pay1 (View.ld a rA2) (View.ld w rW2) (View.ld b rB2)⟩]

/-- The one store fills the buffer. -/
theorem cover2_3 (p0 : Vec F S512x1024 .f32) (y : S512x1024.Idx) :
    ∃ pc ∈ ([⟨rO2, p0⟩] : List (View.Piece (Elt F) S512x1024 .f32)), y ∈ pc.1.set :=
  View.cover_of_tiled [⟨rO2, p0⟩] S512x1024.size (by rfl) y

/-! ## The body's run -/

set_option maxHeartbeats 1000000 in
/-- On whole staging buffers, the inputs' at contents a, w, b and the output's at anything, the body runs to the end
    with the inputs as they were and the output at out2_3 a w b. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (a : Vec F S512x1024 .f32) (w : Vec F S1024x1024 .bf16) (b : Vec F S1x1024 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (out2_3 a w b)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

/-! ## The per-point contents -/

/-- The call's data: the arrays as found; after the body at point t each input's buffer at its block and the
    output's at out2_3 of the three input blocks; nothing else kept between points; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The obligation at a point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body's run applies; what is kept between points and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/-
  What the core's buffers hold at each boundary of @main, as a fold from the launch memory.

  @main is four stretches of host operations around three pallas_calls.  A host stretch leaves the buffers at the
  composition of its operations; a call leaves each of its windows' arrays at what the write-backs of its grid
  points leave (the inputs as entered, the result block by block) and every other buffer as entered.  W0 is the
  launch memory, W1 … W7 the contents after each of the seven items in order, and V1, V3, V5 are the contents the
  three calls are entered with, read at the core's own references.
-/
import proofs.«414835_j10436770529900_3_alg».proof.Proof.KI.Reg0
import proofs.«414835_j10436770529900_3_alg».proof.Proof.KI.Reg1
import proofs.«414835_j10436770529900_3_alg».proof.Proof.KI.Reg2

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- The core's buffers at launch. -/
abbrev W0 : Dev nD → Valuation τ sig (Elt F) := fun c b => m ((c : Dev nD), b)
/-- After the first host stretch: the first call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what its write-backs leave. -/
def W2 (c : Dev nD) : Valuation τ sig (Elt F) :=
  Pipeline.withArrays spec0 c (W1 m c) fun w => (dat0 (V1 m) c).arrAt w cfg0.N
/-- After the second host stretch: the second call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (dat1 (V3 m) c).arrAt w cfg1.N
/-- After the third host stretch: the third call's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third call. -/
def W6 (c : Dev nD) : Valuation τ sig (Elt F) :=
  Pipeline.withArrays spec2 c (W5 m c) fun w => (dat2 (V5 m) c).arrAt w cfg2.N
/-- After the last host stretch: what @main returns with. -/
abbrev W7 : Dev nD → Valuation τ sig (Elt F) := fun c => StableHlo.after hostOps3 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

end Cert.KernelIdeal.Hand

end
-- ==== Proof.KI.Run.lean ====
/-
  The run of @main: from any launch memory with every counter at zero, every weakly fair execution on the
  cores terminates without a fault, and the final memory holds, at every buffer that is not scoped to a call,
  the last boundary's contents of the fold (W7).

  @main is seven items: four stretches of host operations around three pallas_calls.  Between two items a core
  holds every unscoped buffer whole at that boundary's contents, beside its generator register at some state and
  the record that it owes nothing.  A host stretch takes the buffers from a boundary's contents to the
  composition of its operations on them.  A call splits its windows' arrays out of the unscoped buffers, runs
  its pipeline from the entry form of its invariant (the scoped buffers no window stages, the generator
  register), and puts the arrays back at what the write-backs leave.  The second call keeps arrays between its
  grid points, so its invariant varies with the point: it is entered from the entry form and gives the entry
  form back after the last point.  No item writes an argument of @main, so each argument ends as launched.
-/
import proofs.«414835_j10436770529900_3_alg».proof.Proof.KI.Fold
import proofs.«414835_j10436770529900_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched

No host stretch writes an argument and no call has one among its windows' arrays, so the fold read at an
argument's buffer walks back, item by item, to the launch memory. -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## What a call leaves: its arrays at the write-backs' result, every other buffer as entered -/

theorem left0 (c : Dev nD) (w : Fin cfg0.W) :
    (dat0 (V1 m) c).arrAt w cfg0.N = (fun b : Ref sig .tc => W2 m c b) (Pipeline.arrRef spec0 w) :=
  (W2_arr m c w).symm
theorem kept0 (c : Dev nD) : ∀ b, b ∉ Finset.univ.image (Pipeline.arrRef spec0) →
    (fun b : Ref sig .tc => W2 m c b) b = V1 m c b :=
  fun b hb => W2_of_ne m c b fun w e => hb (Finset.mem_image.mpr ⟨w, Finset.mem_univ _, e⟩)
theorem left1 (c : Dev nD) (w : Fin cfg1.W) :
    (dat1 (V3 m) c).arrAt w cfg1.N = (fun b : Ref sig .tc => W4 m c b) (Pipeline.arrRef spec1 w) :=
  (W4_arr m c w).symm
theorem kept1 (c : Dev nD) : ∀ b, b ∉ Finset.univ.image (Pipeline.arrRef spec1) →
    (fun b : Ref sig .tc => W4 m c b) b = V3 m c b :=
  fun b hb => W4_of_ne m c b fun w e => hb (Finset.mem_image.mpr ⟨w, Finset.mem_univ _, e⟩)
theorem left2 (c : Dev nD) (w : Fin cfg2.W) :
    (dat2 (V5 m) c).arrAt w cfg2.N = (fun b : Ref sig .tc => W6 m c b) (Pipeline.arrRef spec2 w) :=
  (W6_arr m c w).symm
theorem kept2 (c : Dev nD) : ∀ b, b ∉ Finset.univ.image (Pipeline.arrRef spec2) →
    (fun b : Ref sig .tc => W6 m c b) b = V5 m c b :=
  fun b hb => W6_of_ne m c b fun w e => hb (Finset.mem_image.mpr ⟨w, Finset.mem_univ _, e⟩)

/-! ## The calls' data and the thread state -/

/-- Every call's data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside the buffers through every item: its generator register at some state, and that it
    owes nothing. -/
abbrev beside (c : Dev nD) : sProp 𝕄 := iprop((∃ r, prngReg c r) ∗ ∃ W, owes (c : Thread nD τ) (0 : CellTallies nD τ sig Unit) W)
/-- A host stretch over the unscoped buffers from the contents W: it leaves them at the composition of its
    operations on W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, without the record of owing nothing: every unscoped buffer at W7, the generator
    register at some state. -/
abbrev atReturn (c : Dev nD) : sProp 𝕄 := iprop(StableHlo.held (c : Thread nD τ) (Pipeline.ucRefs τ sig) (W7 m c) ∗ ∃ r, prngReg c r)

/-! ## The calls as items -/

set_option backward.isDefEq.respectTransparency.types false in
/-- The fused projection: entered from every unscoped buffer at W1, left at W2.  Its invariant is the entry form at every point. -/
def callProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at W3, left at W4.  Its invariant before the first point is the entry form; after the last point it gives the entry form back, the kept arrays' contents forgotten. -/
def callAttn : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection: entered from every unscoped buffer at W5, left at W6.  Its invariant is the entry form at every point. -/
def callOut : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ beside c)
  post c := iprop(StableHlo.held (c : Thread nD τ) (Pipeline.ucRefs τ sig) (W6 m c) ∗ beside c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (fun b => W6 m c b) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- The seven items in order. -/
abbrev segs : List (Pipeline.Seg (pcfgs (F := F)) adm (pdats m) () defs₀ 𝒱₀ L lv) :=
  [ .host (stretch hostOps0 hostOps0_sub hostOps0_fresh (W0 m)),
    .region (callProj m),
    .host (stretch hostOps1 hostOps1_sub hostOps1_fresh (W2 m)),
    .region (callAttn m),
    .host (stretch hostOps2 hostOps2_sub hostOps2_fresh (W4 m)),
    .region (callOut m),
    .host (stretch hostOps3 hostOps3_sub hostOps3_fresh (W6 m)) ]
/-- @main is the run of its items. -/
theorem main_run (c : Dev nD) : main (F := F) c = Pipeline.Seg.run (segs m) := (main_chain c).trans (by chain_rfl)

set_option backward.isDefEq.respectTransparency.types false in
/-- From any memory with zero counters every weakly fair execution of @main terminates, nothing faulting, and
    every final memory holds each unscoped buffer at W7. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atReturn m)
    (hch := ⟨fun _ => .rfl, fun _ => .rfl, fun _ => .rfl, fun _ => .rfl, fun _ => .rfl, fun _ => .rfl, fun _ => .rfl,
      fun c => show iprop(StableHlo.held (c : Thread nD τ) (Pipeline.ucRefs τ sig) (W7 m c) ∗ beside c)
          ⊢ iprop(atReturn m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- Every argument of @main ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c)⟩) (run_main m ρ)

end Cert.KernelIdeal.Hand

end
-- ==== Proof.Spec.lean ====
/-
  The mathematics both programs compute, stated once over the extended reals, with no program in sight.

  A linear layer sends row (b, s) of the activations to  sum over k of x[b, s, k] * W[e, k]  plus the bias b[e].
  Queries, keys and values are three such layers of the same activations.  The model axis of 1024 features is
  16 heads of 64 lanes: feature h * 64 + d is lane d of head h.  The score of query row q against key row k in
  head h is the sum over the 64 lanes of Q * K, divided by 8.  Each query row's scores are turned into weights
  exp (s_k - M) / sum_i exp (s_i - M), M the largest score of the row, and the context row is the weighted mean
  of the value rows.  A last linear layer of the context rows is the result.

  The same weighted mean can be accumulated block by block over the keys, keeping a running maximum, a running
  denominator and a running numerator that are rescaled by exp (old maximum - new maximum) whenever the maximum
  grows: that is the second definition below, and the two agree on real scores and values.
-/
import Idealize.ShloMosaic.PureOps.Ideal
import Idealize.ShloMosaic.Lib.ValueIdx

noncomputable section

namespace Cert.Att

open Idealize.ShloMosaic Idealize.ShloMosaic.ValueIdx

/-! ## Arrays as functions of their coordinates -/

/-- A vector read by its one coordinate. -/
def cur1 {n : Nat} (f : (⟨1, ![n]⟩ : Shape).Idx → EReal) : Fin n → EReal := fun a => f (ix1 a)
/-- A matrix read by its two coordinates. -/
def cur2 {n0 n1 : Nat} (f : (⟨2, ![n0, n1]⟩ : Shape).Idx → EReal) : Fin n0 → Fin n1 → EReal := fun a b => f (ix2 a b)
/-- A rank-3 array read by its three coordinates. -/
def cur3 {n0 n1 n2 : Nat} (f : (⟨3, ![n0, n1, n2]⟩ : Shape).Idx → EReal) : Fin n0 → Fin n1 → Fin n2 → EReal :=
  fun a b c => f (ix3 a b c)

/-! ## The model -/

/-- A linear layer: row (b, s) of x against row e of W, plus the bias. -/
def proj (x : Fin 2 → Fin 2048 → Fin 1024 → EReal) (W : Fin 1024 → Fin 1024 → EReal) (b : Fin 1024 → EReal)
    (bi : Fin 2) (s : Fin 2048) (e : Fin 1024) : EReal :=
  (∑ k : Fin 1024, x bi s k * W e k) + b e

/-- Lane d of head h in the model axis. -/
def col (h : Fin 16) (d : Fin 64) : Fin 1024 := ⟨h.val * 64 + d.val, by have := h.isLt; have := d.isLt; omega⟩

/-- The head of a feature. -/
def headOf (e : Fin 1024) : Fin 16 := ⟨e.val / 64, by have := e.isLt; omega⟩
/-- The lane of a feature within its head. -/
def laneOf (e : Fin 1024) : Fin 64 := ⟨e.val % 64, Nat.mod_lt _ (by decide)⟩

theorem col_head_lane (e : Fin 1024) : col (headOf e) (laneOf e) = e :=
  Fin.ext (by show e.val / 64 * 64 + e.val % 64 = e.val; omega)

/-- The divisor of the scores: the float 8.0 as the reference spells it. -/
def eight : EReal := Ideal.ofBits .f32 0x41000000#32

/-- The scaled score of query row q against key row k in head h. -/
def score (Q K : Fin 2 → Fin 2048 → Fin 1024 → EReal) (bi : Fin 2) (h : Fin 16) (q k : Fin 2048) : EReal :=
  Ideal.div (∑ d : Fin 64, Q bi q (col h d) * K bi k (col h d)) eight

/-- The softmax-weighted mean of v under the scores s: weight j is exp (s j - M) over the sum of all of them, M the
    largest score. -/
def softAvg {ι : Type} [Fintype ι] (s v : ι → EReal) : EReal :=
  ∑ j, Ideal.div (Ideal.exp (s j - Finset.univ.sup s)) (∑ i, Ideal.exp (s i - Finset.univ.sup s)) * v j

/-- The context rows: per head, each query row's weighted mean of the value rows. -/
def ctx (Q K V : Fin 2 → Fin 2048 → Fin 1024 → EReal) (bi : Fin 2) (q : Fin 2048) (e : Fin 1024) : EReal :=
  softAvg (fun k : Fin 2048 => score Q K bi (headOf e) q k) (fun k => V bi k e)

/-- The whole model: three projections, attention, the output projection. -/
def model (x : Fin 2 → Fin 2048 → Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo : Fin 1024 → EReal) :
    Fin 2 → Fin 2048 → Fin 1024 → EReal :=
  proj (ctx (proj x Wq bq) (proj x Wk bk) (proj x Wv bv)) Wo bo

/-! ## The same mean, accumulated block by block -/

/-- One block of keys folded into the running (maximum, denominator, numerator): the maximum grows to cover the
    block's scores, the old denominator and numerator are rescaled by exp (old maximum - new maximum), and the
    block's exponentials and their products with the values are added. -/
def blockStep {n : Nat} (s v : Fin n → EReal) (st : EReal × EReal × EReal) : EReal × EReal × EReal :=
  let m' := max st.1 (Finset.univ.sup s)
  (m', Ideal.exp (st.1 - m') * st.2.1 + ∑ j, Ideal.exp (s j - m'),
    Ideal.exp (st.1 - m') * st.2.2 + ∑ j, Ideal.exp (s j - m') * v j)

/-- The running triple after the first k of nb blocks, from (-∞, 0, 0). -/
def blocksUpTo {nb n : Nat} (s v : Fin nb → Fin n → EReal) : Nat → EReal × EReal × EReal
  | 0 => (⊥, 0, 0)
  | k + 1 => if h : k < nb then blockStep (s ⟨k, h⟩) (v ⟨k, h⟩) (blocksUpTo s v k) else blocksUpTo s v k

/-- The blockwise mean: numerator over denominator after the last block. -/
def blockAvg {nb n : Nat} (s v : Fin nb → Fin n → EReal) : EReal :=
  Ideal.div (blocksUpTo s v nb).2.2 (blocksUpTo s v nb).2.1

end Cert.Att

end
-- ==== Proof.KI.BridgePre.lean ====
/-
  Preliminaries of the kernel's value: the argument arrays by name, the buffers a later host stretch reads walked
  back to the launch memory, and the arithmetic of flattened rows (row b * 2048 + s of a [4096, ...] array is batch
  b, position s).
-/
import proofs.«414835_j10436770529900_3_alg».proof.Proof.KI.Run
import proofs.«414835_j10436770529900_3_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The argument arrays -/

abbrev aX (c : Dev nD) : S2x2048x1024.Idx → EReal := m ((c.tc : Thread nD τ).loc main_arg0)
abbrev aWq (c : Dev nD) : S1024x1024.Idx → EReal := m ((c.tc : Thread nD τ).loc main_arg1)
abbrev aBq (c : Dev nD) : S1024.Idx → EReal := m ((c.tc : Thread nD τ).loc main_arg2)
abbrev aWk (c : Dev nD) : S1024x1024.Idx → EReal := m ((c.tc : Thread nD τ).loc main_arg3)
abbrev aBk (c : Dev nD) : S1024.Idx → EReal := m ((c.tc : Thread nD τ).loc main_arg4)
abbrev aWv (c : Dev nD) : S1024x1024.Idx → EReal := m ((c.tc : Thread nD τ).loc main_arg5)
abbrev aBv (c : Dev nD) : S1024.Idx → EReal := m ((c.tc : Thread nD τ).loc main_arg6)
abbrev aWo (c : Dev nD) : S1024x1024.Idx → EReal := m ((c.tc : Thread nD τ).loc main_arg7)
abbrev aBo (c : Dev nD) : S1024.Idx → EReal := m ((c.tc : Thread nD τ).loc main_arg8)

/-! ## The output weights and bias reach the third host stretch as launched -/

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## Rows and features -/

/-- Row b * 2048 + s of a flattened [4096, …] array. -/
def rowOf (b : Fin 2) (s : Fin 2048) : Fin 4096 := ⟨b.val * 2048 + s.val, by have := b.isLt; have := s.isLt; omega⟩

theorem rowOf_div (b : Fin 2) (s : Fin 2048) : (rowOf b s).val / 2048 = b.val := by
  have := s.isLt; show (b.val * 2048 + s.val) / 2048 = b.val; omega
theorem rowOf_mod (b : Fin 2) (s : Fin 2048) : (rowOf b s).val % 2048 = s.val := by
  have := s.isLt; show (b.val * 2048 + s.val) % 2048 = s.val; omega

end Cert.KernelIdeal.Hand

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.KI.MatVal.lean ====
/-
  The two plain projections, read entry by entry.

  The first and the third call of the program both compute  out[r, :] = a[r, :] · w + bias  over 8 row blocks of 512 rows:
  point t of the grid stages rows 512 t … 512 t + 511 of the activations, the whole weight matrix and the whole bias
  row, and writes rows 512 t … 512 t + 511 of the result.  What the body stores is the product of its activation
  block with the weights, formed into a zero accumulator, plus the bias row repeated on every row; at the ideal
  instance a change of float format is the identity, so entry (p, q) of the stored block is
  (∑ k, a[p, k] · w[k, q]) + bias[0, q].  Block t of that is block t of one function of the whole arrays, the 8 blocks
  tile the result (row r lies in block r / 512), and so the result array ends holding
  (∑ k, A[r, k] · W[k, j]) + B[0, j] at every entry (r, j).
-/
import proofs.«414835_j10436770529900_3_alg».proof.Proof.KI.Reg0
import proofs.«414835_j10436770529900_3_alg».proof.Proof.KI.Reg2
import proofs.«414835_j10436770529900_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibPlainDot

/-- The zero offsets of a whole-block load or store, however they are spelt. -/
theorem zero_offsets2 : (![0, 0] : Fin 2 → Nat) = fun _ => 0 := funext fun a => by fin_cases a <;> rfl

/-! ## The first call's payload at an entry -/

/-- Entry (p, q) of what the first call's body stores: row p of the activation block against column q of the
    weights, plus the bias at column q. -/
theorem pay0_apply (a : Vec Ideal S512x1024 .bf16) (w : Vec Ideal S1024x3072 .bf16) (b : Vec Ideal S1x3072 .f32)
    (p : Fin 512) (q : Fin 3072) :
    k0_pay1 (F := Ideal) a w b (ix2 p q) = (∑ k : Fin 1024, a (ix2 p k) * w (ix2 k q)) + b (ix2 0 q) := by
  unfold k0_pay1
  simp only [shapeCast_self]
  refine (addf_apply _ _ (ix2 p q)).trans ?_
  refine congrArg₂ (· + ·) ?_ ?_
  · exact matmul_zero_apply dot_S512x1024_S1024x3072_S512x3072_1_0_0_1_n_n_wf none a w p q
  · refine broadcastTo_apply b broadcasts_S1x3072_S512x3072 (ix2 p q) (ix2 0 q) fun d => ?_
    match d with
    | ⟨0, _⟩ => rfl
    | ⟨1, _⟩ => rfl

/-- The output buffer after the body is the payload of the three blocks: the loads read whole buffers and the one
    store fills the buffer. -/
theorem out0_eq_pay {F : FTy → Type} [FloatOps F] (a : Vec F S512x1024 .bf16) (w : Vec F S1024x3072 .bf16)
    (b : Vec F S1x3072 .f32) : out0_3 a w b = k0_pay1 a w b := by
  unfold out0_3
  rw [View.canon_unit_zero zero_offsets2]
  rw [View.ld_unit_zero (S := S512x1024) zero_offsets2, View.ld_unit_zero (S := S1024x3072) zero_offsets2,
    View.ld_unit_zero (S := S1x3072) zero_offsets2]

/-! ## The first call's result as one function of the whole arrays -/

/-- Row i₀ of the activations against column i₁ of the weights, plus the bias at column i₁. -/
def proj0 (A : S4096x1024.Idx → EReal) (W : S1024x3072.Idx → EReal) (B : S1x3072.Idx → EReal) : S4096x3072.Idx → EReal :=
  fun i => (∑ k : Fin 1024, A (ix2 (⟨(i 0).val, idx2_lt0 i⟩ : Fin 4096) k) * W (ix2 k (⟨(i 1).val, idx2_lt1 i⟩ : Fin 3072)))
    + B (ix2 (0 : Fin 1) (⟨(i 1).val, idx2_lt1 i⟩ : Fin 3072))

/-- If the activation block is rows 512 n … of A, the weight block is W and the bias block is B, then entry y of the
    stored block is entry (512 n + y₀, y₁) of the projection of the whole arrays. -/
theorem block0_entry (A : S4096x1024.Idx → EReal) (W : S1024x3072.Idx → EReal) (B : S1x3072.Idx → EReal)
    (a : Vec Ideal S512x1024 .bf16) (w : Vec Ideal S1024x3072 .bf16) (b : Vec Ideal S1x3072 .f32) (n : Nat)
    (ha : ∀ (x : S512x1024.Idx) (i : S4096x1024.Idx), (i 0).val = n * 512 + (x 0).val → (i 1).val = (x 1).val → a x = A i)
    (hw : ∀ x, w x = W x) (hb : ∀ x, b x = B x)
    (y : S512x3072.Idx) (i : S4096x3072.Idx) (h0 : (i 0).val = n * 512 + (y 0).val) (h1 : (i 1).val = (y 1).val) :
    out0_3 (F := Ideal) a w b y = proj0 A W B i := by
  rw [out0_eq_pay]
  obtain ⟨p, q, rfl⟩ : ∃ (p : Fin 512) (q : Fin 3072), y = ix2 p q := ⟨y 0, y 1, eq_ix2 y⟩
  rw [pay0_apply]
  unfold proj0
  have hq : (⟨(i 1).val, idx2_lt1 i⟩ : Fin 3072) = q := Fin.ext h1
  rw [hq]
  refine congrArg₂ (· + ·) (Finset.sum_congr rfl fun k _ => congrArg₂ (· * ·) ?_ (hw _)) (hb _)
  exact ha _ _ h0 rfl

-- what the core's buffers hold when a call is entered
variable (V : (c : Dev nD) → (b : Ref sig .tc) → Buf (Elt Ideal) ((c : Thread nD τ).loc b))

/-! ## The first call: from the blocks to the array -/

/-- The block indices at point t: the activations' and the result's blocks move down one row block per point, the
    weights' and the bias row's one block stays. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point t is rows 512 t … 512 t + 511 of the array. -/
theorem iblk0_0_apply (c : Dev nD) (t : Fin cfg0.N) (x : S512x1024.Idx) (i : S4096x1024.Idx)
    (h0 : (i 0).val = t.val * 512 + (x 0).val) (h1 : (i 1).val = (x 1).val) :
    (iblk0 (F := Ideal) V c 0 t : Vec Ideal S512x1024 .bf16) x = (V c main_v10 : S4096x1024.Idx → EReal) i := by
  obtain ⟨e0, e1, -⟩ := blockIdx0 t
  unfold iblk0
  rw [View.read_apply]
  show V c main_v10 _ = V c main_v10 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- The weights' block at every point is the whole matrix. -/
theorem iblk0_1_apply (c : Dev nD) (t : Fin cfg0.N) (x : S1024x3072.Idx) :
    (iblk0 (F := Ideal) V c 1 t : Vec Ideal S1024x3072 .bf16) x = (V c main_v6 : S1024x3072.Idx → EReal) x := by
  obtain ⟨-, -, e0, e1, -⟩ := blockIdx0 t
  unfold iblk0
  rw [View.read_apply]
  show V c main_v6 _ = V c main_v6 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 3072 + 1 * (x 1).val = (x 1).val; rw [e1]; omega

/-- The bias row's block at every point is the whole row. -/
theorem iblk0_2_apply (c : Dev nD) (t : Fin cfg0.N) (x : S1x3072.Idx) :
    (iblk0 (F := Ideal) V c 2 t : Vec Ideal S1x3072 .f32) x = (V c main_v8 : S1x3072.Idx → EReal) x := by
  obtain ⟨-, -, -, -, e0, e1, -⟩ := blockIdx0 t
  unfold iblk0
  rw [View.read_apply]
  show V c main_v8 _ = V c main_v8 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-- What point t writes back is block t of the projection of the arrays as the call finds them. -/
theorem flushed0_eq (c : Dev nD) (t : Fin cfg0.N) :
    (dat0 (F := Ideal) V c).flushed 3 t
      = ((cfg0.win 3).blk t).view.read (Elt Ideal) (proj0 (V c main_v10) (V c main_v6) (V c main_v8)) := by
  show (cfg0.win 3).cut (grid0.coords t) ((dat0 V c).after 3 t) = _
  rw [after0_3]
  obtain ⟨-, -, -, -, -, -, e0, e1⟩ := blockIdx0 t
  funext j
  show out0_3 (iblk0 V c 0 t) (iblk0 V c 1 t) (iblk0 V c 2 t) ((cfg0.win 3).xinj (grid0.coords t) j)
    = proj0 (V c main_v10) (V c main_v6) (V c main_v8) (((cfg0.win 3).blk t).view.emb j)
  refine block0_entry (V c main_v10) (V c main_v6) (V c main_v8) (iblk0 V c 0 t) (iblk0 V c 1 t) (iblk0 V c 2 t) t.val
    (iblk0_0_apply V c t) (iblk0_1_apply V c t) (iblk0_2_apply V c t)
    ((cfg0.win 3).xinj (grid0.coords t) j) (((cfg0.win 3).blk t).view.emb j) ?_ ?_
  · show win0_3.index t (0 : Fin 2) * 512 + 1 * (j 0).val = t.val * 512 + (j 0).val; rw [e0]; omega
  · show win0_3.index t (1 : Fin 2) * 3072 + 1 * (j 1).val = (j 1).val; rw [e1]; omega

/-- An entry of the result is in point t's block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v11).slice (win0_3.rect t)).set ↔ _
  rw [View.set_slice_whole, Rect.mem_set_unit]
  exact Iff.rfl

/-- Row r of the result lies in the block of point r / 512: the 8 blocks tile the array. -/
theorem cover0 (i : S4096x3072.Idx) :
    ∃ t : Fin cfg0.N, (cfg0.win 3).flush t = true ∧ i ∈ ((cfg0.win 3).blk t).view.set := by
  have hi0 : (i 0).val < 4096 := idx2_lt0 i
  have hi1 : (i 1).val < 3072 := idx2_lt1 i
  have hN : cfg0.N = 8 := N_0
  have ht : (i 0).val / 512 < cfg0.N := by rw [hN]; omega
  obtain ⟨-, -, -, -, -, -, e0, e1⟩ := blockIdx0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]; dsimp only; omega
  | ⟨1, _⟩ =>
    show win0_3.index ⟨(i 0).val / 512, ht⟩ (1 : Fin 2) * 3072 ≤ (i 1).val
      ∧ (i 1).val < win0_3.index ⟨(i 0).val / 512, ht⟩ (1 : Fin 2) * 3072 + 3072
    rw [e1]; omega

/-- The first call's result array ends holding the projection of the arrays as the call finds them. -/
theorem reg0_whole (c : Dev nD) :
    (dat0 (F := Ideal) V c).arrAt 3 cfg0.N = proj0 (V c main_v10) (V c main_v6) (V c main_v8) :=
  (dat0 V c).arrAt_eq_of_cover 3 (proj0 (V c main_v10) (V c main_v6) (V c main_v8)) (fun t _ => flushed0_eq V c t) cover0

/-- The arrays the first call finds — activations, weights, bias row — as functions of an index into the extended reals. -/
abbrev act0 (c : Dev nD) : S4096x1024.Idx → EReal := V c main_v10
abbrev wts0 (c : Dev nD) : S1024x3072.Idx → EReal := V c main_v6
abbrev bias0 (c : Dev nD) : S1x3072.Idx → EReal := V c main_v8

/-- Entry (r, j) of the first call's result: row r of the activations against column j of the weights, plus the
    bias at column j. -/
theorem reg0_array (c : Dev nD) (r : Fin 4096) (j : Fin 3072) :
    ((dat0 (F := Ideal) V c).arrAt 3 cfg0.N : S4096x3072.Idx → EReal) (ix2 r j)
      = (∑ k : Fin 1024, act0 V c (ix2 r k) * wts0 V c (ix2 k j)) + bias0 V c (ix2 0 j) := by
  rw [reg0_whole]
  rfl

/-! ## The third call's payload at an entry -/

/-- Entry (p, q) of what the third call's body stores: row p of the activation block against column q of the
    weights, plus the bias at column q. The body first narrows the activations' float format, which changes no
    value at the ideal instance. -/
theorem pay2_apply (a : Vec Ideal S512x1024 .f32) (w : Vec Ideal S1024x1024 .bf16) (b : Vec Ideal S1x1024 .f32)
    (p : Fin 512) (q : Fin 1024) :
    k2_pay1 (F := Ideal) a w b (ix2 p q) = (∑ k : Fin 1024, a (ix2 p k) * w (ix2 k q)) + b (ix2 0 q) := by
  unfold k2_pay1
  simp only [shapeCast_self]
  refine (addf_apply _ _ (ix2 p q)).trans ?_
  refine congrArg₂ (· + ·) ?_ ?_
  · exact matmul_zero_apply dot_S512x1024_S1024x1024_S512x1024_1_0_0_1_n_n_wf none (truncf .bf16 a bitsLt_bf16_f32) w p q
  · refine broadcastTo_apply b broadcasts_S1x1024_S512x1024 (ix2 p q) (ix2 0 q) fun d => ?_
    match d with
    | ⟨0, _⟩ => rfl
    | ⟨1, _⟩ => rfl

/-- The output buffer after the body is the payload of the three blocks: the loads read whole buffers and the one
    store fills the buffer. -/
theorem out2_eq_pay {F : FTy → Type} [FloatOps F] (a : Vec F S512x1024 .f32) (w : Vec F S1024x1024 .bf16)
    (b : Vec F S1x1024 .f32) : out2_3 a w b = k2_pay1 a w b := by
  unfold out2_3
  rw [View.canon_unit_zero zero_offsets2]
  rw [View.ld_unit_zero (S := S512x1024) zero_offsets2, View.ld_unit_zero (S := S1024x1024) zero_offsets2,
    View.ld_unit_zero (S := S1x1024) zero_offsets2]

/-! ## The third call's result as one function of the whole arrays -/

/-- Row i₀ of the activations against column i₁ of the weights, plus the bias at column i₁. -/
def proj2 (A : S4096x1024.Idx → EReal) (W : S1024x1024.Idx → EReal) (B : S1x1024.Idx → EReal) : S4096x1024.Idx → EReal :=
  fun i => (∑ k : Fin 1024, A (ix2 (⟨(i 0).val, idx2_lt0 i⟩ : Fin 4096) k) * W (ix2 k (⟨(i 1).val, idx2_lt1 i⟩ : Fin 1024)))
    + B (ix2 (0 : Fin 1) (⟨(i 1).val, idx2_lt1 i⟩ : Fin 1024))

/-- If the activation block is rows 512 n … of A, the weight block is W and the bias block is B, then entry y of the
    stored block is entry (512 n + y₀, y₁) of the projection of the whole arrays. -/
theorem block2_entry (A : S4096x1024.Idx → EReal) (W : S1024x1024.Idx → EReal) (B : S1x1024.Idx → EReal)
    (a : Vec Ideal S512x1024 .f32) (w : Vec Ideal S1024x1024 .bf16) (b : Vec Ideal S1x1024 .f32) (n : Nat)
    (ha : ∀ (x : S512x1024.Idx) (i : S4096x1024.Idx), (i 0).val = n * 512 + (x 0).val → (i 1).val = (x 1).val → a x = A i)
    (hw : ∀ x, w x = W x) (hb : ∀ x, b x = B x)
    (y : S512x1024.Idx) (i : S4096x1024.Idx) (h0 : (i 0).val = n * 512 + (y 0).val) (h1 : (i 1).val = (y 1).val) :
    out2_3 (F := Ideal) a w b y = proj2 A W B i := by
  rw [out2_eq_pay]
  obtain ⟨p, q, rfl⟩ : ∃ (p : Fin 512) (q : Fin 1024), y = ix2 p q := ⟨y 0, y 1, eq_ix2 y⟩
  rw [pay2_apply]
  unfold proj2
  have hq : (⟨(i 1).val, idx2_lt1 i⟩ : Fin 1024) = q := Fin.ext h1
  rw [hq]
  refine congrArg₂ (· + ·) (Finset.sum_congr rfl fun k _ => congrArg₂ (· * ·) ?_ (hw _)) (hb _)
  exact ha _ _ h0 rfl

/-! ## The third call: from the blocks to the array -/

/-- The block indices at point t: the activations' and the result's blocks move down one row block per point, the
    weights' and the bias row's one block stays. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point t is rows 512 t … 512 t + 511 of the array. -/
theorem iblk2_0_apply (c : Dev nD) (t : Fin cfg2.N) (x : S512x1024.Idx) (i : S4096x1024.Idx)
    (h0 : (i 0).val = t.val * 512 + (x 0).val) (h1 : (i 1).val = (x 1).val) :
    (iblk2 (F := Ideal) V c 0 t : Vec Ideal S512x1024 .f32) x = (V c main_v19 : S4096x1024.Idx → EReal) i := by
  obtain ⟨e0, e1, -⟩ := blockIdx2 t
  unfold iblk2
  rw [View.read_apply]
  show V c main_v19 _ = V c main_v19 _
  congr 1
  funext a
  apply Fin.ext
  match a with
  | ⟨0, _⟩ => show win2_0.index t (0 : Fin 2) * 512 + 1 * (x 0).val = (i 0).val; rw [e0, h0]; omega
  | ⟨1, _⟩ => show win2_0.index t (1 : Fin 2) * 1024 + 1 * (x 1).val = (i 1).val; rw [e1, h1]; omega

/-- The weights' block at every point is the whole matrix. -/
theorem iblk2_1_apply (c : Dev nD) (t : Fin cfg2.N) (x : S1024x1024.Idx) :
    (iblk2 (F := Ideal) V c 1 t : Vec Ideal S1024x1024 .bf16) x = (V c main_v21 : S1024x1024.Idx → EReal) x := by
  obtain ⟨-, -, e0, e1, -⟩ := blockIdx2 t
  unfold iblk2
  rw [View.read_apply]
  show V c main_v21 _ = V c main_v21 _
  congr 1
  funext a
  apply Fin.ext
  match a with
  | ⟨0, _⟩ => show win2_1.index t (0 : Fin 2) * 1024 + 1 * (x 0).val = (x 0).val; rw [e0]; omega
  | ⟨1, _⟩ => show win2_1.index t (1 : Fin 2) * 1024 + 1 * (x 1).val = (x 1).val; rw [e1]; omega

/-- The bias row's block at every point is the whole row. -/
theorem iblk2_2_apply (c : Dev nD) (t : Fin cfg2.N) (x : S1x1024.Idx) :
    (iblk2 (F := Ideal) V c 2 t : Vec Ideal S1x1024 .f32) x = (V c main_v22 : S1x1024.Idx → EReal) x := by
  obtain ⟨-, -, -, -, e0, e1, -⟩ := blockIdx2 t
  unfold iblk2
  rw [View.read_apply]
  show V c main_v22 _ = V c main_v22 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 1024 + 1 * (x 1).val = (x 1).val; rw [e1]; omega

/-- What point t writes back is block t of the projection of the arrays as the call finds them. -/
theorem flushed2_eq (c : Dev nD) (t : Fin cfg2.N) :
    (dat2 (F := Ideal) V c).flushed 3 t
      = ((cfg2.win 3).blk t).view.read (Elt Ideal) (proj2 (V c main_v19) (V c main_v21) (V c main_v22)) := by
  show (cfg2.win 3).cut (grid2.coords t) ((dat2 V c).after 3 t) = _
  rw [after2_3]
  obtain ⟨-, -, -, -, -, -, e0, e1⟩ := blockIdx2 t
  funext j
  show out2_3 (iblk2 V c 0 t) (iblk2 V c 1 t) (iblk2 V c 2 t) ((cfg2.win 3).xinj (grid2.coords t) j)
    = proj2 (V c main_v19) (V c main_v21) (V c main_v22) (((cfg2.win 3).blk t).view.emb j)
  refine block2_entry (V c main_v19) (V c main_v21) (V c main_v22) (iblk2 V c 0 t) (iblk2 V c 1 t) (iblk2 V c 2 t) t.val
    (iblk2_0_apply V c t) (iblk2_1_apply V c t) (iblk2_2_apply V c t)
    ((cfg2.win 3).xinj (grid2.coords t) j) (((cfg2.win 3).blk t).view.emb j) ?_ ?_
  · show win2_3.index t (0 : Fin 2) * 512 + 1 * (j 0).val = t.val * 512 + (j 0).val; rw [e0]; omega
  · show win2_3.index t (1 : Fin 2) * 1024 + 1 * (j 1).val = (j 1).val; rw [e1]; omega

/-- An entry of the result is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v23).slice (win2_3.rect t)).set ↔ _
  rw [View.set_slice_whole, Rect.mem_set_unit]
  exact Iff.rfl

/-- Row r of the result lies in the block of point r / 512: the 8 blocks tile the array. -/
theorem cover2 (i : S4096x1024.Idx) :
    ∃ t : Fin cfg2.N, (cfg2.win 3).flush t = true ∧ i ∈ ((cfg2.win 3).blk t).view.set := by
  have hi0 : (i 0).val < 4096 := idx2_lt0 i
  have hi1 : (i 1).val < 1024 := idx2_lt1 i
  have hN : cfg2.N = 8 := N_2
  have ht : (i 0).val / 512 < cfg2.N := by rw [hN]; omega
  obtain ⟨-, -, -, -, -, -, e0, e1⟩ := blockIdx2 ⟨(i 0).val / 512, ht⟩
  refine ⟨⟨(i 0).val / 512, ht⟩, flush2_3 _, ?_⟩
  rw [mem_blk2]
  intro a
  match a with
  | ⟨0, _⟩ =>
    show win2_3.index ⟨(i 0).val / 512, ht⟩ (0 : Fin 2) * 512 ≤ (i 0).val
      ∧ (i 0).val < win2_3.index ⟨(i 0).val / 512, ht⟩ (0 : Fin 2) * 512 + 512
    rw [e0]; dsimp only; omega
  | ⟨1, _⟩ =>
    show win2_3.index ⟨(i 0).val / 512, ht⟩ (1 : Fin 2) * 1024 ≤ (i 1).val
      ∧ (i 1).val < win2_3.index ⟨(i 0).val / 512, ht⟩ (1 : Fin 2) * 1024 + 1024
    rw [e1]; omega

/-- The third call's result array ends holding the projection of the arrays as the call finds them. -/
theorem reg2_whole (c : Dev nD) :
    (dat2 (F := Ideal) V c).arrAt 3 cfg2.N = proj2 (V c main_v19) (V c main_v21) (V c main_v22) :=
  (dat2 V c).arrAt_eq_of_cover 3 (proj2 (V c main_v19) (V c main_v21) (V c main_v22)) (fun t _ => flushed2_eq V c t) cover2

/-- The arrays the third call finds — activations, weights, bias row — as functions of an index into the extended reals. -/
abbrev act2 (c : Dev nD) : S4096x1024.Idx → EReal := V c main_v19
abbrev wts2 (c : Dev nD) : S1024x1024.Idx → EReal := V c main_v21
abbrev bias2 (c : Dev nD) : S1x1024.Idx → EReal := V c main_v22

/-- Entry (r, j) of the third call's result: row r of the activations against column j of the weights, plus the
    bias at column j. -/
theorem reg2_array (c : Dev nD) (r : Fin 4096) (j : Fin 1024) :
    ((dat2 (F := Ideal) V c).arrAt 3 cfg2.N : S4096x1024.Idx → EReal) (ix2 r j)
      = (∑ k : Fin 1024, act2 V c (ix2 r k) * wts2 V c (ix2 k j)) + bias2 V c (ix2 0 j) := by
  rw [reg2_whole]
  rfl

end Cert.KernelIdeal.Hand

end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.KI.HostVal.lean ====
/-
  The kernel program's host operations between its three kernels, read at an index: the reshapes, transposes,
  format changes, concatenations and slices that carry the arguments to the first kernel, its result to the second,
  the second's to the third and the third's to the program's result, each as the source array at the position the
  layout arithmetic gives, from any contents the stretch starts at.
-/
import proofs.«414835_j10436770529900_3_alg».proof.Proof.Gen.KernelIdeal.Launch
import proofs.«414835_j10436770529900_3_alg».proof.Proof.Spec
import proofs.«414835_j10436770529900_3_alg».proof.Proof.LibSlice
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.StableHlo
open Idealize.ShloMosaic.ValueIdx

/-! ## A three-operand operation's result -/

/-- The contents a three-operand operation writes, each operand read at its own reference. -/
theorem nary3_result {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]
  refine congrArg f (funext fun k => ?_)
  match k with
  | ⟨0, _⟩ => rfl
  | ⟨1, _⟩ => rfl
  | ⟨2, _⟩ => rfl

/-- Unfolds a stretch's operations one at a time, outermost first: the operation that writes the reference asked for
    gives its function of its operands' contents, every other one leaves the reference as it was. -/
local macro "stretch_results" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-! ## Before the first kernel -/

/-- The activations: [2, 2048, 1024] regrouped as [4096, 1024] rows, the format change the identity. -/
theorem host0_x (W : Valuation τ sig (Elt Ideal)) (r : Fin 4096) (k : Fin 1024) :
    (StableHlo.after (hostOps0 (F := Ideal)) W (Proc.devRef .tc main_v10) : S4096x1024.Idx → EReal) (ix2 r k)
      = (W (Proc.devRef .tc main_arg0) : S2x2048x1024.Idx → EReal)
          (ix3 (⟨r.val / 2048, by have := r.isLt; omega⟩ : Fin 2) (⟨r.val % 2048, Nat.mod_lt _ (by decide)⟩ : Fin 2048) k) := by
  have e0 : (StableHlo.after (hostOps0 (F := Ideal)) W (Proc.devRef .tc main_v10) : S4096x1024.Idx → EReal)
      = truncf .bf16 (shapeCast S4096x1024 (W (Proc.devRef .tc main_arg0) : S2x2048x1024.Idx → EReal)
          shapeCasts_S2x2048x1024_S4096x1024 : FVec Ideal S4096x1024 .f32) bitsLt_bf16_f32 := by
    dsimp only [hostOps0]; after_results; rfl
  rw [e0, truncf_apply]
  refine shapeCast_apply _ _ _ _ ?_
  show (S2x2048x1024.rowMajor _).val = (S4096x1024.rowMajor _).val
  rw [Shape.rowMajor_val_two, Shape.rowMajor_val_three]
  show (r.val / 2048 * 2048 + r.val % 2048) * 1024 + k.val = r.val * 1024 + k.val
  have := r.isLt
  omega

/-- A weight matrix transposed, the format change the identity: column k of row j. -/
theorem weightT_apply (M : S1024x1024.Idx → EReal) (k j : Fin 1024) :
    (truncf (F := Ideal) .bf16 (transpose S1024x1024 [1, 0] (M : FVec Ideal S1024x1024 .f32) transposes_S1024x1024_S1024x1024_1_0)
      bitsLt_bf16_f32 : S1024x1024.Idx → EReal) (ix2 k j) = M (ix2 j k) := by
  rw [truncf_apply]
  exact transpose_apply [1, 0] M transposes_S1024x1024_S1024x1024_1_0 (ix2 k j) (ix2 j k) (fun b => match b with
    | ⟨0, _⟩ => rfl
    | ⟨1, _⟩ => rfl)

/-- The three transposed weight matrices side by side along the columns. -/
theorem host0_w_term (W : Valuation τ sig (Elt Ideal)) :
    (StableHlo.after (hostOps0 (F := Ideal)) W (Proc.devRef .tc main_v6) : S1024x3072.Idx → EReal)
      = concatenate S1024x3072 1
          [⟨S1024x1024, (truncf (F := Ideal) .bf16 (transpose S1024x1024 [1, 0] (W (Proc.devRef .tc main_arg1) : FVec Ideal S1024x1024 .f32) transposes_S1024x1024_S1024x1024_1_0) bitsLt_bf16_f32 : S1024x1024.Idx → EReal)⟩,
           ⟨S1024x1024, (truncf (F := Ideal) .bf16 (transpose S1024x1024 [1, 0] (W (Proc.devRef .tc main_arg3) : FVec Ideal S1024x1024 .f32) transposes_S1024x1024_S1024x1024_1_0) bitsLt_bf16_f32 : S1024x1024.Idx → EReal)⟩,
           ⟨S1024x1024, (truncf (F := Ideal) .bf16 (transpose S1024x1024 [1, 0] (W (Proc.devRef .tc main_arg5) : FVec Ideal S1024x1024 .f32) transposes_S1024x1024_S1024x1024_1_0) bitsLt_bf16_f32 : S1024x1024.Idx → EReal)⟩]
          concatenates_S1024x1024_S1024x1024_S1024x1024_S1024x3072_d1 := by
  dsimp only [hostOps0]; stretch_results; rfl

/-- The queries' weights are the first 1024 columns. -/
theorem host0_wq (W : Valuation τ sig (Elt Ideal)) (k j : Fin 1024) :
    (StableHlo.after (hostOps0 (F := Ideal)) W (Proc.devRef .tc main_v6) : S1024x3072.Idx → EReal)
        (ix2 k (⟨j.val, by have := j.isLt; omega⟩ : Fin 3072))
      = (W (Proc.devRef .tc main_arg1) : S1024x1024.Idx → EReal) (ix2 j k) := by
  rw [host0_w_term]
  refine (concatenate_apply_piece (t := S1024x3072) 1 _ _ _ 0 ?hk S1024x1024 _ ?hxk ?hr 0 ?hpre (ix2 k j) ?hi ?ha).trans
    (weightT_apply _ k j)
  case hk => show 0 < 3; decide
  case hxk => rfl
  case hr => rfl
  case hpre => rfl
  case hi =>
    intro b hb
    match b with
    | ⟨0, _⟩ => rfl
    | ⟨1, _⟩ => exact absurd (Fin.ext rfl) hb
  case ha =>
    show 0 + j.val = j.val
    omega

/-- The keys' weights are the next 1024 columns. -/
theorem host0_wk (W : Valuation τ sig (Elt Ideal)) (k j : Fin 1024) :
    (StableHlo.after (hostOps0 (F := Ideal)) W (Proc.devRef .tc main_v6) : S1024x3072.Idx → EReal)
        (ix2 k (⟨1024 + j.val, by have := j.isLt; omega⟩ : Fin 3072))
      = (W (Proc.devRef .tc main_arg3) : S1024x1024.Idx → EReal) (ix2 j k) := by
  rw [host0_w_term]
  refine (concatenate_apply_piece (t := S1024x3072) 1 _ _ _ 1 ?hk S1024x1024 _ ?hxk ?hr 1024 ?hpre (ix2 k j) ?hi ?ha).trans
    (weightT_apply _ k j)
  case hk => show 1 < 3; decide
  case hxk => rfl
  case hr => rfl
  case hpre => rfl
  case hi =>
    intro b hb
    match b with
    | ⟨0, _⟩ => rfl
    | ⟨1, _⟩ => exact absurd (Fin.ext rfl) hb
  case ha =>
    show 1024 + j.val = 1024 + j.val
    omega

/-- The values' weights are the last 1024 columns. -/
theorem host0_wv (W : Valuation τ sig (Elt Ideal)) (k j : Fin 1024) :
    (StableHlo.after (hostOps0 (F := Ideal)) W (Proc.devRef .tc main_v6) : S1024x3072.Idx → EReal)
        (ix2 k (⟨2048 + j.val, by have := j.isLt; omega⟩ : Fin 3072))
      = (W (Proc.devRef .tc main_arg5) : S1024x1024.Idx → EReal) (ix2 j k) := by
  rw [host0_w_term]
  refine (concatenate_apply_piece (t := S1024x3072) 1 _ _ _ 2 ?hk S1024x1024 _ ?hxk ?hr 2048 ?hpre (ix2 k j) ?hi ?ha).trans
    (weightT_apply _ k j)
  case hk => show 2 < 3; decide
  case hxk => rfl
  case hr => rfl
  case hpre => rfl
  case hi =>
    intro b hb
    match b with
    | ⟨0, _⟩ => rfl
    | ⟨1, _⟩ => exact absurd (Fin.ext rfl) hb
  case ha =>
    show 2048 + j.val = 2048 + j.val
    omega

/-- The three bias vectors end to end, as one row. -/
theorem host0_b_term (W : Valuation τ sig (Elt Ideal)) :
    (StableHlo.after (hostOps0 (F := Ideal)) W (Proc.devRef .tc main_v8) : S1x3072.Idx → EReal)
      = shapeCast S1x3072 (concatenate S3072 0
          [⟨S1024, (W (Proc.devRef .tc main_arg2) : S1024.Idx → EReal)⟩,
           ⟨S1024, (W (Proc.devRef .tc main_arg4) : S1024.Idx → EReal)⟩,
           ⟨S1024, (W (Proc.devRef .tc main_arg6) : S1024.Idx → EReal)⟩]
          concatenates_S1024_S1024_S1024_S3072_d0) shapeCasts_S3072_S1x3072 := by
  dsimp only [hostOps0]; stretch_results; rfl

/-- The queries' bias is the first 1024 entries of the row. -/
theorem host0_bq (W : Valuation τ sig (Elt Ideal)) (j : Fin 1024) :
    (StableHlo.after (hostOps0 (F := Ideal)) W (Proc.devRef .tc main_v8) : S1x3072.Idx → EReal)
        (ix2 (0 : Fin 1) (⟨j.val, by have := j.isLt; omega⟩ : Fin 3072))
      = (W (Proc.devRef .tc main_arg2) : S1024.Idx → EReal) (ix1 j) := by
  rw [host0_b_term]
  refine (Cert.LibSlice.row_of_vec_apply _ shapeCasts_S3072_S1x3072 _).trans ?_
  refine concatenate_apply_piece (t := S3072) 0 _ _ _ 0 ?hk S1024 _ ?hxk ?hr 0 ?hpre (ix1 j) ?hi ?ha
  case hk => show 0 < 3; decide
  case hxk => rfl
  case hr => rfl
  case hpre => rfl
  case hi =>
    intro b hb
    match b with
    | ⟨0, _⟩ => exact absurd (Fin.ext rfl) hb
  case ha =>
    show 0 + j.val = j.val
    omega

/-- The keys' bias is the next 1024 entries. -/
theorem host0_bk (W : Valuation τ sig (Elt Ideal)) (j : Fin 1024) :
    (StableHlo.after (hostOps0 (F := Ideal)) W (Proc.devRef .tc main_v8) : S1x3072.Idx → EReal)
        (ix2 (0 : Fin 1) (⟨1024 + j.val, by have := j.isLt; omega⟩ : Fin 3072))
      = (W (Proc.devRef .tc main_arg4) : S1024.Idx → EReal) (ix1 j) := by
  rw [host0_b_term]
  refine (Cert.LibSlice.row_of_vec_apply _ shapeCasts_S3072_S1x3072 _).trans ?_
  refine concatenate_apply_piece (t := S3072) 0 _ _ _ 1 ?hk S1024 _ ?hxk ?hr 1024 ?hpre (ix1 j) ?hi ?ha
  case hk => show 1 < 3; decide
  case hxk => rfl
  case hr => rfl
  case hpre => rfl
  case hi =>
    intro b hb
    match b with
    | ⟨0, _⟩ => exact absurd (Fin.ext rfl) hb
  case ha =>
    show 1024 + j.val = 1024 + j.val
    omega

/-- The values' bias is the last 1024 entries. -/
theorem host0_bv (W : Valuation τ sig (Elt Ideal)) (j : Fin 1024) :
    (StableHlo.after (hostOps0 (F := Ideal)) W (Proc.devRef .tc main_v8) : S1x3072.Idx → EReal)
        (ix2 (0 : Fin 1) (⟨2048 + j.val, by have := j.isLt; omega⟩ : Fin 3072))
      = (W (Proc.devRef .tc main_arg6) : S1024.Idx → EReal) (ix1 j) := by
  rw [host0_b_term]
  refine (Cert.LibSlice.row_of_vec_apply _ shapeCasts_S3072_S1x3072 _).trans ?_
  refine concatenate_apply_piece (t := S3072) 0 _ _ _ 2 ?hk S1024 _ ?hxk ?hr 2048 ?hpre (ix1 j) ?hi ?ha
  case hk => show 2 < 3; decide
  case hxk => rfl
  case hr => rfl
  case hpre => rfl
  case hi =>
    intro b hb
    match b with
    | ⟨0, _⟩ => exact absurd (Fin.ext rfl) hb
  case ha =>
    show 2048 + j.val = 2048 + j.val
    omega

/-! ## Between the first and the second kernel -/

/-- A block of 1024 columns of the [4096, 3072] array, from column off on, regrouped as [2, 2048, 16, 64]: entry
    (b, s, h, d) is row b * 2048 + s, column off + h * 64 + d. -/
theorem cols_heads_apply (X : S4096x3072.Idx → EReal) (off : Nat) (hs : S4096x3072.Slices ![0, off] S4096x1024)
    (b : Fin 2) (s : Fin 2048) (h : Fin 16) (d : Fin 64) (c : Fin 3072) (hc : c.val = off + (h.val * 64 + d.val)) :
    shapeCast S2x2048x16x64 (extractStridedSlice S4096x1024 ![0, off] X hs) shapeCasts_S4096x1024_S2x2048x16x64 (ix4 b s h d)
      = X (ix2 (⟨b.val * 2048 + s.val, by have := b.isLt; have := s.isLt; omega⟩ : Fin 4096) c) := by
  have hb := b.isLt; have hs' := s.isLt; have hh := h.isLt; have hd := d.isLt
  refine (shapeCast_apply _ shapeCasts_S4096x1024_S2x2048x16x64 (ix4 b s h d)
    (ix2 (⟨b.val * 2048 + s.val, by omega⟩ : Fin 4096) (⟨h.val * 64 + d.val, by omega⟩ : Fin 1024)) ?_).trans ?_
  · rw [Shape.rowMajor_val_two, Shape.rowMajor_val_four]
    show (b.val * 2048 + s.val) * 1024 + (h.val * 64 + d.val) = ((b.val * 2048 + s.val) * 16 + h.val) * 64 + d.val
    omega
  · exact extractStridedSlice_apply _ X hs _ _ (fun a => match a with
      | ⟨0, _⟩ => by show b.val * 2048 + s.val = 0 + (b.val * 2048 + s.val); omega
      | ⟨1, _⟩ => by show c.val = off + (h.val * 64 + d.val); exact hc)

/-- The queries: columns 0 to 1023 of the first kernel's result, by heads. -/
theorem host1_q (W : Valuation τ sig (Elt Ideal)) (b : Fin 2) (s : Fin 2048) (h : Fin 16) (d : Fin 64) :
    (StableHlo.after (hostOps1 (F := Ideal)) W (Proc.devRef .tc main_v15) : S2x2048x16x64.Idx → EReal) (ix4 b s h d)
      = (W (Proc.devRef .tc main_v11) : S4096x3072.Idx → EReal)
          (ix2 (⟨b.val * 2048 + s.val, by have := b.isLt; have := s.isLt; omega⟩ : Fin 4096)
            (⟨h.val * 64 + d.val, by have := h.isLt; have := d.isLt; omega⟩ : Fin 3072)) := by
  have e0 : (StableHlo.after (hostOps1 (F := Ideal)) W (Proc.devRef .tc main_v15) : S2x2048x16x64.Idx → EReal)
      = shapeCast S2x2048x16x64 (extractStridedSlice S4096x1024 ![0, 0] (W (Proc.devRef .tc main_v11) : S4096x3072.Idx → EReal)
          slices_S4096x3072_S4096x1024_0_0) shapeCasts_S4096x1024_S2x2048x16x64 := by
    dsimp only [hostOps1]; after_results; rfl
  rw [e0]
  exact cols_heads_apply _ 0 _ b s h d _ (by show h.val * 64 + d.val = 0 + (h.val * 64 + d.val); omega)

/-- The keys: columns 1024 to 2047. -/
theorem host1_k (W : Valuation τ sig (Elt Ideal)) (b : Fin 2) (s : Fin 2048) (h : Fin 16) (d : Fin 64) :
    (StableHlo.after (hostOps1 (F := Ideal)) W (Proc.devRef .tc main_v16) : S2x2048x16x64.Idx → EReal) (ix4 b s h d)
      = (W (Proc.devRef .tc main_v11) : S4096x3072.Idx → EReal)
          (ix2 (⟨b.val * 2048 + s.val, by have := b.isLt; have := s.isLt; omega⟩ : Fin 4096)
            (⟨1024 + (h.val * 64 + d.val), by have := h.isLt; have := d.isLt; omega⟩ : Fin 3072)) := by
  have e0 : (StableHlo.after (hostOps1 (F := Ideal)) W (Proc.devRef .tc main_v16) : S2x2048x16x64.Idx → EReal)
      = shapeCast S2x2048x16x64 (extractStridedSlice S4096x1024 ![0, 1024] (W (Proc.devRef .tc main_v11) : S4096x3072.Idx → EReal)
          slices_S4096x3072_S4096x1024_0_1024) shapeCasts_S4096x1024_S2x2048x16x64 := by
    dsimp only [hostOps1]; after_results; rfl
  rw [e0]
  exact cols_heads_apply _ 1024 _ b s h d _ rfl

/-- The values: columns 2048 to 3071. -/
theorem host1_v (W : Valuation τ sig (Elt Ideal)) (b : Fin 2) (s : Fin 2048) (h : Fin 16) (d : Fin 64) :
    (StableHlo.after (hostOps1 (F := Ideal)) W (Proc.devRef .tc main_v17) : S2x2048x16x64.Idx → EReal) (ix4 b s h d)
      = (W (Proc.devRef .tc main_v11) : S4096x3072.Idx → EReal)
          (ix2 (⟨b.val * 2048 + s.val, by have := b.isLt; have := s.isLt; omega⟩ : Fin 4096)
            (⟨2048 + (h.val * 64 + d.val), by have := h.isLt; have := d.isLt; omega⟩ : Fin 3072)) := by
  have e0 : (StableHlo.after (hostOps1 (F := Ideal)) W (Proc.devRef .tc main_v17) : S2x2048x16x64.Idx → EReal)
      = shapeCast S2x2048x16x64 (extractStridedSlice S4096x1024 ![0, 2048] (W (Proc.devRef .tc main_v11) : S4096x3072.Idx → EReal)
          slices_S4096x3072_S4096x1024_0_2048) shapeCasts_S4096x1024_S2x2048x16x64 := by
    dsimp only [hostOps1]; after_results; rfl
  rw [e0]
  exact cols_heads_apply _ 2048 _ b s h d _ rfl

/-! ## Between the second and the third kernel -/

/-- The context rows: [2, 2048, 16, 64] regrouped as [4096, 1024], feature e at head e / 64, lane e % 64. -/
theorem host2_ctx (W : Valuation τ sig (Elt Ideal)) (r : Fin 4096) (e : Fin 1024) :
    (StableHlo.after (hostOps2 (F := Ideal)) W (Proc.devRef .tc main_v19) : S4096x1024.Idx → EReal) (ix2 r e)
      = (W (Proc.devRef .tc main_v18) : S2x2048x16x64.Idx → EReal)
          (ix4 (⟨r.val / 2048, by have := r.isLt; omega⟩ : Fin 2) (⟨r.val % 2048, Nat.mod_lt _ (by decide)⟩ : Fin 2048)
            (Cert.Att.headOf e) (Cert.Att.laneOf e)) := by
  have e0 : (StableHlo.after (hostOps2 (F := Ideal)) W (Proc.devRef .tc main_v19) : S4096x1024.Idx → EReal)
      = shapeCast S4096x1024 (W (Proc.devRef .tc main_v18) : S2x2048x16x64.Idx → EReal) shapeCasts_S2x2048x16x64_S4096x1024 := by
    dsimp only [hostOps2]; after_results; rfl
  rw [e0]
  refine shapeCast_apply _ _ _ _ ?_
  show (S2x2048x16x64.rowMajor _).val = (S4096x1024.rowMajor _).val
  rw [Shape.rowMajor_val_two, Shape.rowMajor_val_four]
  show ((r.val / 2048 * 2048 + r.val % 2048) * 16 + e.val / 64) * 64 + e.val % 64 = r.val * 1024 + e.val
  have := r.isLt; have := e.isLt
  omega

/-- The output layer's weights transposed, the format change the identity. -/
theorem host2_wo (W : Valuation τ sig (Elt Ideal)) (k j : Fin 1024) :
    (StableHlo.after (hostOps2 (F := Ideal)) W (Proc.devRef .tc main_v21) : S1024x1024.Idx → EReal) (ix2 k j)
      = (W (Proc.devRef .tc main_arg7) : S1024x1024.Idx → EReal) (ix2 j k) := by
  have e0 : (StableHlo.after (hostOps2 (F := Ideal)) W (Proc.devRef .tc main_v21) : S1024x1024.Idx → EReal)
      = (truncf (F := Ideal) .bf16 (transpose S1024x1024 [1, 0] (W (Proc.devRef .tc main_arg7) : FVec Ideal S1024x1024 .f32)
          transposes_S1024x1024_S1024x1024_1_0) bitsLt_bf16_f32 : S1024x1024.Idx → EReal) := by
    dsimp only [hostOps2]; after_results
  rw [e0]
  exact weightT_apply _ k j

/-- The output layer's bias as one row. -/
theorem host2_bo (W : Valuation τ sig (Elt Ideal)) (j : Fin 1024) :
    (StableHlo.after (hostOps2 (F := Ideal)) W (Proc.devRef .tc main_v22) : S1x1024.Idx → EReal) (ix2 (0 : Fin 1) j)
      = (W (Proc.devRef .tc main_arg8) : S1024.Idx → EReal) (ix1 j) := by
  have e0 : (StableHlo.after (hostOps2 (F := Ideal)) W (Proc.devRef .tc main_v22) : S1x1024.Idx → EReal)
      = shapeCast S1x1024 (W (Proc.devRef .tc main_arg8) : S1024.Idx → EReal) shapeCasts_S1024_S1x1024 := by
    dsimp only [hostOps2]; after_results; rfl
  rw [e0]
  exact Cert.LibSlice.row_of_vec_apply _ shapeCasts_S1024_S1x1024 j

/-! ## After the last kernel -/

/-- The result: the last kernel's [4096, 1024] rows regrouped as [2, 2048, 1024]. -/
theorem host3_out (W : Valuation τ sig (Elt Ideal)) (b : Fin 2) (s : Fin 2048) (e : Fin 1024) :
    (StableHlo.after (hostOps3 (F := Ideal)) W (Proc.devRef .tc main_v24) : S2x2048x1024.Idx → EReal) (ix3 b s e)
      = (W (Proc.devRef .tc main_v23) : S4096x1024.Idx → EReal)
          (ix2 (⟨b.val * 2048 + s.val, by have := b.isLt; have := s.isLt; omega⟩ : Fin 4096) e) := by
  have e0 : (StableHlo.after (hostOps3 (F := Ideal)) W (Proc.devRef .tc main_v24) : S2x2048x1024.Idx → EReal)
      = shapeCast S2x2048x1024 (W (Proc.devRef .tc main_v23) : S4096x1024.Idx → EReal) shapeCasts_S4096x1024_S2x2048x1024 := by
    dsimp only [hostOps3]; after_results; rfl
  rw [e0]
  refine shapeCast_apply _ _ _ _ ?_
  show (S4096x1024.rowMajor _).val = (S2x2048x1024.rowMajor _).val
  rw [Shape.rowMajor_val_two, Shape.rowMajor_val_three]
  rfl

end Cert.KernelIdeal.Hand

end
-- ==== Proof.KI.Reg1Pay.lean ====
/-
  The flash-attention body's named values read at an index, over the extended reals.

  For one head h, one query row r and one lane d, the body's update of the kept arrays is exactly one block step of
  the running (maximum, denominator, numerator): the block's scores are the sums over the 64 lanes of the kept,
  scaled query row against each of the block's 128 key rows, the block's values are lane d of its 128 value rows.
  The reset leaves maximum -inf, denominator and numerator zero, and the kept queries at the query row times 1/8;
  the final quotient is numerator over denominator, read back in the output block's (row, head, lane) order.
-/
import proofs.«414835_j10436770529900_3_alg».proof.Proof.KI.Reg1Run
import proofs.«414835_j10436770529900_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-- The scores of the kept query row r of head h against the block's 128 key rows. -/
def blkScore (k : Vec Ideal S1x128x8x64 .f32) (qT : Vec Ideal S8x1024x64 .bf16) (h : Fin 8) (r : Fin 1024) (j : Fin 128) : EReal :=
  ∑ d : Fin 64, qT (ix3 h r d) * k (ix4 0 j h d)

/-! ## Layout operations of the body, read at coordinates -/

section Layout
variable {α : Type}

/-- Two leading axes exchanged: the result at (j, i, c) is the operand at (i, j, c). -/
private theorem transpose_102_apply {a b m : ℕ} (x : (⟨3, ![a, b, m]⟩ : Shape).Idx → α)
    (h : (⟨3, ![a, b, m]⟩ : Shape).Transposes [1, 0, 2] ⟨3, ![b, a, m]⟩) (j : Fin b) (i : Fin a) (c : Fin m) :
    transpose ⟨3, ![b, a, m]⟩ [1, 0, 2] x h (ix3 j i c) = x (ix3 i j c) :=
  transpose_apply _ x h _ _ fun e => match e with | ⟨0, _⟩ => rfl | ⟨1, _⟩ => rfl | ⟨2, _⟩ => rfl

/-- A trailing unit axis added: the result at (i, j, u) is the operand at (i, j). -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A trailing unit axis spread over m lanes: the result at (i, j, c) is the operand at (i, j, 0). -/
private theorem broadcastTo_ab1_abm_apply {a b m : ℕ} (x : (⟨3, ![a, b, 1]⟩ : Shape).Idx → α)
    (h : (⟨3, ![a, b, 1]⟩ : Shape).Broadcasts ⟨3, ![a, b, m]⟩) (i : Fin a) (j : Fin b) (c : Fin m) :
    broadcastTo ⟨3, ![a, b, m]⟩ x h (ix3 i j c) = x (ix3 i j (0 : Fin 1)) := by
  refine broadcastTo_apply x h (ix3 i j c) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The keepdims spread of a per-row value over the lanes: at (i, j, c) it is the value of row (i, j). -/
private theorem keep_apply {a b m : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, m]⟩)
    (i : Fin a) (j : Fin b) (c : Fin m) :
    broadcastTo ⟨3, ![a, b, m]⟩ (shapeCast ⟨3, ![a, b, 1]⟩ x h1) h2 (ix3 i j c) = x (ix2 i j) := by
  rw [broadcastTo_ab1_abm_apply, shapeCast_ab_ab1_apply]

end Layout

/-! ## The reset values and the stored quotient -/

private theorem ofBits_neg_inf : Ideal.ofBits .f32 0xFF800000#32 = (⊥ : EReal) := by simp [Ideal.ofBits, Ideal.ieee]

theorem resetSt_m (q : Vec Ideal S1x1024x8x64 .f32) (h : Fin 8) (r : Fin 1024) :
    (resetSt (F := Ideal) q).1 (ix2 h r) = (⊥ : EReal) := by
  show k1_pay4 (F := Ideal) (ix2 h r) = ⊥
  unfold k1_pay4
  rw [shapeCast_self]
  exact ofBits_neg_inf

theorem resetSt_l (q : Vec Ideal S1x1024x8x64 .f32) (h : Fin 8) (r : Fin 1024) :
    (resetSt (F := Ideal) q).2.1 (ix2 h r) = (0 : EReal) := by
  show k1_pay5 (F := Ideal) (ix2 h r) = 0
  unfold k1_pay5
  rw [shapeCast_self]
  exact Ideal.ofBits_zero_f32

theorem resetSt_acc (q : Vec Ideal S1x1024x8x64 .f32) (h : Fin 8) (r : Fin 1024) (d : Fin 64) :
    (resetSt (F := Ideal) q).2.2.1 (ix3 h r d) = (0 : EReal) := by
  show k1_pay6 (F := Ideal) (ix3 h r d) = 0
  unfold k1_pay6
  rw [shapeCast_self]
  exact Ideal.ofBits_zero_f32

theorem resetSt_qT (q : Vec Ideal S1x1024x8x64 .f32) (h : Fin 8) (r : Fin 1024) (d : Fin 64) :
    (resetSt (F := Ideal) q).2.2.2 (ix3 h r d) = q (ix4 0 r h d) * Ideal.ofBits .f32 0x3E000000#32 := by
  show k1_pay7 q (ix3 h r d) = _
  unfold k1_pay7
  rw [shapeCast_self]
  show transpose S8x1024x64 [1, 0, 2] (shapeCast S1024x8x64 q shapeCasts_S1x1024x8x64_S1024x8x64) transposes_S1024x8x64_p1_0_2_S8x1024x64 (ix3 h r d)
      * Ideal.ofBits .f32 0x3E000000#32 = _
  rw [transpose_102_apply, shapeCast_1abc_abc_apply]

/-! ## The two batched products, read at an index

The first product contracts the 64 lanes of the kept queries against the block's keys, head by head; the second
contracts the block's 128 key positions of the weights against the block's values, head by head. Each operand index
is read axis by axis: the head from the result's head, the row or the lane from the result, the contracted axis
from the contraction position. -/

private theorem lhs_qk_0 (i : S8x1024x128.Idx) (q : dot_S8x1024x64_S8x128x64_S8x1024x128_2_2_1_1_0_0.contr.Idx) :
    (dot_S8x1024x64_S8x128x64_S8x1024x128_2_2_1_1_0_0.lhsIdx i q 0).val = (i 0).val := by
  unfold DotDims.lhsIdx
  rw [dif_pos (show (0 : Fin S8x1024x64.rank) ∈ dot_S8x1024x64_S8x128x64_S8x1024x128_2_2_1_1_0_0.lhsBatch by decide)]
  rfl
private theorem lhs_qk_1 (i : S8x1024x128.Idx) (q : dot_S8x1024x64_S8x128x64_S8x1024x128_2_2_1_1_0_0.contr.Idx) :
    (dot_S8x1024x64_S8x128x64_S8x1024x128_2_2_1_1_0_0.lhsIdx i q 1).val = (i 1).val := by
  unfold DotDims.lhsIdx
  rw [dif_neg (show ¬(1 : Fin S8x1024x64.rank) ∈ dot_S8x1024x64_S8x128x64_S8x1024x128_2_2_1_1_0_0.lhsBatch by decide), dif_pos (show (1 : Fin S8x1024x64.rank) ∈ dot_S8x1024x64_S8x128x64_S8x1024x128_2_2_1_1_0_0.lhsNonContracting by decide)]
  rfl
private theorem lhs_qk_2 (i : S8x1024x128.Idx) (q : dot_S8x1024x64_S8x128x64_S8x1024x128_2_2_1_1_0_0.contr.Idx) :
    (dot_S8x1024x64_S8x128x64_S8x1024x128_2_2_1_1_0_0.lhsIdx i q 2).val = (q ⟨0, by decide⟩).val :=
  dot_S8x1024x64_S8x128x64_S8x1024x128_2_2_1_1_0_0.lhsIdx_val_of_single rfl i q
private theorem rhs_qk_0 (i : S8x1024x128.Idx) (q : dot_S8x1024x64_S8x128x64_S8x1024x128_2_2_1_1_0_0.contr.Idx) :
    (dot_S8x1024x64_S8x128x64_S8x1024x128_2_2_1_1_0_0.rhsIdx i q 0).val = (i 0).val := by
  unfold DotDims.rhsIdx
  rw [dif_pos (show (0 : Fin S8x128x64.rank) ∈ dot_S8x1024x64_S8x128x64_S8x1024x128_2_2_1_1_0_0.rhsBatch by decide)]
  rfl
private theorem rhs_qk_1 (i : S8x1024x128.Idx) (q : dot_S8x1024x64_S8x128x64_S8x1024x128_2_2_1_1_0_0.contr.Idx) :
    (dot_S8x1024x64_S8x128x64_S8x1024x128_2_2_1_1_0_0.rhsIdx i q 1).val = (i 2).val := by
  unfold DotDims.rhsIdx
  rw [dif_neg (show ¬(1 : Fin S8x128x64.rank) ∈ dot_S8x1024x64_S8x128x64_S8x1024x128_2_2_1_1_0_0.rhsBatch by decide), dif_pos (show (1 : Fin S8x128x64.rank) ∈ dot_S8x1024x64_S8x128x64_S8x1024x128_2_2_1_1_0_0.rhsNonContracting by decide)]
  rfl
private theorem rhs_qk_2 (i : S8x1024x128.Idx) (q : dot_S8x1024x64_S8x128x64_S8x1024x128_2_2_1_1_0_0.contr.Idx) :
    (dot_S8x1024x64_S8x128x64_S8x1024x128_2_2_1_1_0_0.rhsIdx i q 2).val = (q ⟨0, by decide⟩).val :=
  dot_S8x1024x64_S8x128x64_S8x1024x128_2_2_1_1_0_0.rhsIdx_val_of_single rfl i q

/-- The block's scores: at (h, r, j), the 64 lanes of the kept query row (h, r) against key row j of head h. -/
private theorem pay8_apply (k : Vec Ideal S1x128x8x64 .f32) (qT : Vec Ideal S8x1024x64 .bf16) (h : Fin 8) (r : Fin 1024) (j : Fin 128) :
    k1_pay8 k qT (ix3 h r j) = blkScore k qT h r j := by
  unfold k1_pay8 blkScore
  simp only [matmul]
  rw [Ideal.matmul_constant_zero_apply, ← Equiv.sum_comp (contrEquiv1 dot_S8x1024x64_S8x128x64_S8x1024x128_2_2_1_1_0_0 64 rfl rfl).symm]
  refine Finset.sum_congr rfl fun c _ => ?_
  have hk := contrEquiv1_symm_val dot_S8x1024x64_S8x128x64_S8x1024x128_2_2_1_1_0_0 64 rfl rfl c
  have el : dot_S8x1024x64_S8x128x64_S8x1024x128_2_2_1_1_0_0.lhsIdx (ix3 h r j) ((contrEquiv1 dot_S8x1024x64_S8x128x64_S8x1024x128_2_2_1_1_0_0 64 rfl rfl).symm c) = ix3 h r c := funext fun a => Fin.ext (by
    match a with
    | ⟨0, _⟩ => exact lhs_qk_0 _ _
    | ⟨1, _⟩ => exact lhs_qk_1 _ _
    | ⟨2, _⟩ => exact (lhs_qk_2 _ _).trans hk)
  have er : dot_S8x1024x64_S8x128x64_S8x1024x128_2_2_1_1_0_0.rhsIdx (ix3 h r j) ((contrEquiv1 dot_S8x1024x64_S8x128x64_S8x1024x128_2_2_1_1_0_0 64 rfl rfl).symm c) = ix3 h j c := funext fun a => Fin.ext (by
    match a with
    | ⟨0, _⟩ => exact rhs_qk_0 _ _
    | ⟨1, _⟩ => exact rhs_qk_1 _ _
    | ⟨2, _⟩ => exact (rhs_qk_2 _ _).trans hk)
  rw [el, er, truncf_apply, transpose_102_apply, shapeCast_1abc_abc_apply]
private theorem lhs_pv_0 (i : S8x1024x64.Idx) (q : dot_S8x1024x128_S8x128x64_S8x1024x64_2_1_1_2_0_0.contr.Idx) :
    (dot_S8x1024x128_S8x128x64_S8x1024x64_2_1_1_2_0_0.lhsIdx i q 0).val = (i 0).val := by
  unfold DotDims.lhsIdx
  rw [dif_pos (show (0 : Fin S8x1024x128.rank) ∈ dot_S8x1024x128_S8x128x64_S8x1024x64_2_1_1_2_0_0.lhsBatch by decide)]
  rfl
private theorem lhs_pv_1 (i : S8x1024x64.Idx) (q : dot_S8x1024x128_S8x128x64_S8x1024x64_2_1_1_2_0_0.contr.Idx) :
    (dot_S8x1024x128_S8x128x64_S8x1024x64_2_1_1_2_0_0.lhsIdx i q 1).val = (i 1).val := by
  unfold DotDims.lhsIdx
  rw [dif_neg (show ¬(1 : Fin S8x1024x128.rank) ∈ dot_S8x1024x128_S8x128x64_S8x1024x64_2_1_1_2_0_0.lhsBatch by decide), dif_pos (show (1 : Fin S8x1024x128.rank) ∈ dot_S8x1024x128_S8x128x64_S8x1024x64_2_1_1_2_0_0.lhsNonContracting by decide)]
  rfl
private theorem lhs_pv_2 (i : S8x1024x64.Idx) (q : dot_S8x1024x128_S8x128x64_S8x1024x64_2_1_1_2_0_0.contr.Idx) :
    (dot_S8x1024x128_S8x128x64_S8x1024x64_2_1_1_2_0_0.lhsIdx i q 2).val = (q ⟨0, by decide⟩).val :=
  dot_S8x1024x128_S8x128x64_S8x1024x64_2_1_1_2_0_0.lhsIdx_val_of_single rfl i q
private theorem rhs_pv_0 (i : S8x1024x64.Idx) (q : dot_S8x1024x128_S8x128x64_S8x1024x64_2_1_1_2_0_0.contr.Idx) :
    (dot_S8x1024x128_S8x128x64_S8x1024x64_2_1_1_2_0_0.rhsIdx i q 0).val = (i 0).val := by
  unfold DotDims.rhsIdx
  rw [dif_pos (show (0 : Fin S8x128x64.rank) ∈ dot_S8x1024x128_S8x128x64_S8x1024x64_2_1_1_2_0_0.rhsBatch by decide)]
  rfl
private theorem rhs_pv_1 (i : S8x1024x64.Idx) (q : dot_S8x1024x128_S8x128x64_S8x1024x64_2_1_1_2_0_0.contr.Idx) :
    (dot_S8x1024x128_S8x128x64_S8x1024x64_2_1_1_2_0_0.rhsIdx i q 1).val = (q ⟨0, by decide⟩).val :=
  dot_S8x1024x128_S8x128x64_S8x1024x64_2_1_1_2_0_0.rhsIdx_val_of_single rfl i q
private theorem rhs_pv_2 (i : S8x1024x64.Idx) (q : dot_S8x1024x128_S8x128x64_S8x1024x64_2_1_1_2_0_0.contr.Idx) :
    (dot_S8x1024x128_S8x128x64_S8x1024x64_2_1_1_2_0_0.rhsIdx i q 2).val = (i 2).val := by
  unfold DotDims.rhsIdx
  rw [dif_neg (show ¬(2 : Fin S8x128x64.rank) ∈ dot_S8x1024x128_S8x128x64_S8x1024x64_2_1_1_2_0_0.rhsBatch by decide), dif_pos (show (2 : Fin S8x128x64.rank) ∈ dot_S8x1024x128_S8x128x64_S8x1024x64_2_1_1_2_0_0.rhsNonContracting by decide)]
  rfl

/-! ## The row maximum, the weights, and the two sums -/

/-- The index over row (h, r) with lane j put back on the reduced axis is (h, r, j). -/
private theorem lift_row (h : Fin 8) (r : Fin 1024) (j : Fin 128) :
    reduces_S8x1024x128_S8x1024.lift (ix2 h r) j = ix3 h r j :=
  funext fun a => Fin.ext (by
    match a with
    | ⟨0, _⟩ => rfl
    | ⟨1, _⟩ => rfl
    | ⟨2, _⟩ => rfl)

/-- A fold of max from -inf over the 128 lanes is their supremum. -/
private theorem fold_neg_inf (f : Fin 128 → EReal) :
    Finset.fold max (FloatOps.ofBits (F := Ideal) .f32 0xFF800000#32) f Finset.univ = Finset.univ.sup f := by
  rw [Ideal.ofBits_def, ofBits_neg_inf]; rfl

/-- The lane maximum of an array of scores at row (h, r): the supremum of the row's 128 entries. -/
private theorem rowMax_apply (sc : FVec Ideal S8x1024x128 .f32) (h : Fin 8) (r : Fin 1024) :
    multiReduction (F := Ideal) .maximumf [2] S8x1024 sc 0xFF800000#32 reduces_S8x1024x128_S8x1024 (.inl rfl) rfl (ix2 h r)
      = Finset.univ.sup fun j : Fin 128 => sc (ix3 h r j) := by
  refine (Ideal.multiReduction_maximumf_single sc 0xFF800000#32 reduces_S8x1024x128_S8x1024 (.inl rfl) rfl (ix2 h r)).trans ?_
  have hf : (sc ∘ reduces_S8x1024x128_S8x1024.lift (ix2 h r)) = fun j : Fin 128 => sc (ix3 h r j) :=
    funext fun j => congrArg sc (lift_row h r j)
  exact (congrArg (fun f => Finset.fold max (FloatOps.ofBits (F := Ideal) .f32 0xFF800000#32) f (Finset.univ : Finset (Fin 128))) hf).trans
    (fold_neg_inf _)

/-- The raised maximum of row (h, r): the old one against the largest of the block's scores. -/
private theorem pay9_apply (k : Vec Ideal S1x128x8x64 .f32) (qT : Vec Ideal S8x1024x64 .bf16) (m : FVec Ideal S8x1024 .f32)
    (h : Fin 8) (r : Fin 1024) :
    k1_pay9 k qT m (ix2 h r) = max (m (ix2 h r)) (Finset.univ.sup fun j : Fin 128 => blkScore k qT h r j) := by
  have hsc : ∀ j : Fin 128, k1_pay8 k qT (ix3 h r j) = blkScore k qT h r j := pay8_apply k qT h r
  unfold k1_pay9
  generalize k1_pay8 k qT = sc at hsc ⊢
  refine (maximumf_apply m _ (ix2 h r)).trans ?_
  rw [rowMax_apply sc h r, funext hsc]

/-- The weight of key j for row (h, r): the exponential of its score less the raised maximum. -/
private theorem pay11_apply (k : Vec Ideal S1x128x8x64 .f32) (qT : Vec Ideal S8x1024x64 .bf16) (m : Vec Ideal S8x1024 .f32)
    (h : Fin 8) (r : Fin 1024) (j : Fin 128) :
    k1_pay11 k qT m (ix3 h r j) = Ideal.exp (blkScore k qT h r j - k1_pay9 k qT m (ix2 h r)) := by
  unfold k1_pay11
  show Ideal.exp (k1_pay8 k qT (ix3 h r j) - broadcastTo S8x1024x128 (shapeCast S8x1024x1 (k1_pay9 k qT m) shapeCasts_S8x1024_S8x1024x1)
      broadcasts_S8x1024x1_S8x1024x128 (ix3 h r j)) = _
  rw [keep_apply, pay8_apply]

/-- The rescaling factor of row (h, r): the exponential of the old maximum less the raised one. -/
private theorem pay10_apply (k : Vec Ideal S1x128x8x64 .f32) (qT : Vec Ideal S8x1024x64 .bf16) (m : Vec Ideal S8x1024 .f32)
    (h : Fin 8) (r : Fin 1024) :
    k1_pay10 k qT m (ix2 h r) = Ideal.exp (m (ix2 h r) - k1_pay9 k qT m (ix2 h r)) := rfl

/-- The lane sum of an array at row (h, r): the sum of the row's 128 entries. -/
private theorem rowSum_apply (p : FVec Ideal S8x1024x128 .f32) (h : Fin 8) (r : Fin 1024) :
    multiReduction (F := Ideal) .add [2] S8x1024 p 0x00000000#32 reduces_S8x1024x128_S8x1024 (.inl rfl) rfl (ix2 h r)
      = ∑ j : Fin 128, p (ix3 h r j) := by
  refine (Ideal.multiReduction_add_single p 0x00000000#32 reduces_S8x1024x128_S8x1024 (.inl rfl) rfl (ix2 h r)).trans ?_
  exact Finset.sum_congr rfl fun j _ => congrArg p (lift_row h r j)

/-- The new denominator of row (h, r). -/
private theorem pay12_apply (k : Vec Ideal S1x128x8x64 .f32) (qT : Vec Ideal S8x1024x64 .bf16) (m l : Vec Ideal S8x1024 .f32)
    (h : Fin 8) (r : Fin 1024) :
    k1_pay12 k qT m l (ix2 h r) = Ideal.exp (m (ix2 h r) - k1_pay9 k qT m (ix2 h r)) * l (ix2 h r)
      + ∑ j : Fin 128, Ideal.exp (blkScore k qT h r j - k1_pay9 k qT m (ix2 h r)) := by
  have hp : ∀ j : Fin 128, k1_pay11 k qT m (ix3 h r j) = Ideal.exp (blkScore k qT h r j - k1_pay9 k qT m (ix2 h r)) :=
    pay11_apply k qT m h r
  unfold k1_pay12
  rw [shapeCast_self]
  generalize k1_pay11 k qT m = p at hp ⊢
  refine (addf_apply _ _ (ix2 h r)).trans ?_
  rw [rowSum_apply p h r, funext hp]
  rfl

/-- The block's weighted values at (h, r, d): the weights of row (h, r) against lane d of the block's value rows. -/
private theorem pay13_apply (k v : Vec Ideal S1x128x8x64 .f32) (qT : Vec Ideal S8x1024x64 .bf16) (m : Vec Ideal S8x1024 .f32)
    (h : Fin 8) (r : Fin 1024) (d : Fin 64) :
    k1_pay13 k v qT m (ix3 h r d)
      = ∑ j : Fin 128, Ideal.exp (blkScore k qT h r j - k1_pay9 k qT m (ix2 h r)) * v (ix4 0 j h d) := by
  unfold k1_pay13
  simp only [matmul]
  rw [Ideal.matmul_constant_zero_apply, ← Equiv.sum_comp (contrEquiv1 dot_S8x1024x128_S8x128x64_S8x1024x64_2_1_1_2_0_0 128 rfl rfl).symm]
  refine Finset.sum_congr rfl fun c _ => ?_
  have hk := contrEquiv1_symm_val dot_S8x1024x128_S8x128x64_S8x1024x64_2_1_1_2_0_0 128 rfl rfl c
  have el : dot_S8x1024x128_S8x128x64_S8x1024x64_2_1_1_2_0_0.lhsIdx (ix3 h r d) ((contrEquiv1 dot_S8x1024x128_S8x128x64_S8x1024x64_2_1_1_2_0_0 128 rfl rfl).symm c) = ix3 h r c := funext fun a => Fin.ext (by
    match a with
    | ⟨0, _⟩ => exact lhs_pv_0 _ _
    | ⟨1, _⟩ => exact lhs_pv_1 _ _
    | ⟨2, _⟩ => exact (lhs_pv_2 _ _).trans hk)
  have er : dot_S8x1024x128_S8x128x64_S8x1024x64_2_1_1_2_0_0.rhsIdx (ix3 h r d) ((contrEquiv1 dot_S8x1024x128_S8x128x64_S8x1024x64_2_1_1_2_0_0 128 rfl rfl).symm c) = ix3 h c d := funext fun a => Fin.ext (by
    match a with
    | ⟨0, _⟩ => exact rhs_pv_0 _ _
    | ⟨1, _⟩ => exact (rhs_pv_1 _ _).trans hk
    | ⟨2, _⟩ => exact rhs_pv_2 _ _)
  rw [el, er, truncf_apply, truncf_apply, transpose_102_apply, shapeCast_1abc_abc_apply, pay11_apply]

/-- The new numerator at (h, r, d). -/
private theorem pay1_apply (e : Vec Ideal S8x1024 .f32) (pv acc : Vec Ideal S8x1024x64 .f32) (h : Fin 8) (r : Fin 1024) (d : Fin 64) :
    k1_pay1 e pv acc (ix3 h r d) = e (ix2 h r) * acc (ix3 h r d) + pv (ix3 h r d) := by
  unfold k1_pay1
  rw [shapeCast_self]
  show broadcastTo S8x1024x64 (shapeCast S8x1024x1 e shapeCasts_S8x1024_S8x1024x1) broadcasts_S8x1024x1_S8x1024x64 (ix3 h r d)
      * acc (ix3 h r d) + pv (ix3 h r d) = _
  rw [keep_apply]

/-- One key block folded in, at head h, row r, lane d: a block step of the running triple. -/
theorem advance_apply (k v : Vec Ideal S1x128x8x64 .f32) (s : St Ideal) (h : Fin 8) (r : Fin 1024) (d : Fin 64) :
    ((advance k v s).1 (ix2 h r), (advance k v s).2.1 (ix2 h r), (advance k v s).2.2.1 (ix3 h r d))
      = Cert.Att.blockStep (fun j => blkScore k s.2.2.2 h r j) (fun j => v (ix4 0 j h d))
          (s.1 (ix2 h r), s.2.1 (ix2 h r), s.2.2.1 (ix3 h r d)) := by
  have hm : (advance k v s).1 (ix2 h r) = max (s.1 (ix2 h r)) (Finset.univ.sup fun j : Fin 128 => blkScore k s.2.2.2 h r j) := by
    show k1_pay2 (k1_pay9 k s.2.2.2 s.1) (ix2 h r) = _
    unfold k1_pay2
    rw [shapeCast_self, pay9_apply]
  have hl : (advance k v s).2.1 (ix2 h r) = _ := pay12_apply k s.2.2.2 s.1 s.2.1 h r
  have ha : (advance k v s).2.2.1 (ix3 h r d) = _ :=
    (pay1_apply (k1_pay10 k s.2.2.2 s.1) (k1_pay13 k v s.2.2.2 s.1) s.2.2.1 h r d).trans
      (by rw [pay10_apply, pay13_apply])
  rw [hm, hl, ha, pay9_apply]
  rfl

theorem advance_qT (k v : Vec Ideal S1x128x8x64 .f32) (s : St Ideal) : (advance k v s).2.2.2 = s.2.2.2 := rfl

/-- The stored quotient at row r, head h, lane d of the output block. -/
theorem outOf_apply (s : St Ideal) (r : Fin 1024) (h : Fin 8) (d : Fin 64) :
    outOf s (ix4 0 r h d) = Ideal.div (s.2.2.1 (ix3 h r d)) (s.2.1 (ix2 h r)) := by
  show k1_pay3 s.2.2.1 s.2.1 (ix4 0 r h d) = _
  unfold k1_pay3
  rw [shapeCast_abc_1abc_apply, transpose_102_apply, divf_apply, keep_apply]

end Cert.KernelIdeal.Hand

end
-- ==== Proof.Online.lean ====
/-
  The blockwise (running maximum, running denominator, running numerator) accumulation of a softmax-weighted
  mean equals the plain softmax-weighted mean, on real scores and real values.

  After k >= 1 blocks the running triple is (M, sum of exp (s - M), sum of exp (s - M) * v), the sums taken over
  the first k blocks and M the largest score among them: all three are real.  Folding one more block in
  rescales both sums by exp (M - M'), M' the new maximum, and exp (M - M') * exp (s - M) = exp (s - M').
  The first block is folded into (-∞, 0, 0): -∞ minus a real is -∞, its exponential is 0 and 0 * 0 = 0.
  After the last block the denominator is a sum of positive reals, so the division is the real one, and a sum
  divided by a real is the sum of the quotients.
-/
import proofs.«414835_j10436770529900_3_alg».proof.Proof.Spec
import Mathlib.Data.Fintype.BigOperators
import Mathlib.Logic.Equiv.Fin.Basic
import Mathlib.Algebra.Order.BigOperators.Group.Finset

noncomputable section

namespace Cert.Att

open Idealize.ShloMosaic

/-! ## Coercions of finite sums and of maxima -/

/-- The coercion of a finite sum of reals is the sum of the coercions. -/
theorem coe_sum {ι : Type} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- A real that bounds a finite real family from above and is one of its members is its supremum in the
    extended reals. -/
theorem sup_eq_coe {ι : Type} [Fintype ι] (s : ι → ℝ) (M : ℝ) (hub : ∀ i, s i ≤ M) (hat : ∃ i, s i = M) :
    Finset.univ.sup (fun i => ((s i : ℝ) : EReal)) = (M : EReal) := by
  obtain ⟨i0, hi0⟩ := hat
  refine le_antisymm (Finset.sup_le fun i _ => EReal.coe_le_coe_iff.mpr (hub i)) ?_
  have h := Finset.le_sup (f := fun i => ((s i : ℝ) : EReal)) (Finset.mem_univ i0)
  simpa [hi0] using h

/-- A nonempty finite real family has a largest member, and that is its supremum in the extended reals. -/
theorem sup_coe {n : Nat} (hn : 0 < n) (s : Fin n → ℝ) :
    ∃ m : ℝ, (∀ j, s j ≤ m) ∧ (∃ j, s j = m) ∧
      Finset.univ.sup (fun j => ((s j : ℝ) : EReal)) = (m : EReal) := by
  obtain ⟨x, -, hx⟩ := Finset.exists_max_image Finset.univ s ⟨⟨0, hn⟩, Finset.mem_univ _⟩
  exact ⟨s x, fun j => hx j (Finset.mem_univ j), ⟨x, rfl⟩,
    sup_eq_coe s (s x) (fun j => hx j (Finset.mem_univ j)) ⟨x, rfl⟩⟩

/-! ## One step, in the reals -/

/-- Moving the reference point of a sum of exponentials from M to M'. -/
theorem rescale_sum {n : Nat} (s : Fin n → ℝ) (M M' : ℝ) :
    Real.exp (M - M') * ∑ j, Real.exp (s j - M) = ∑ j, Real.exp (s j - M') := by
  rw [Finset.mul_sum]
  refine Finset.sum_congr rfl fun j _ => ?_
  rw [← Real.exp_add]; congr 1; ring

/-- The same for the sum weighted by the values. -/
theorem rescale_sum_mul {n : Nat} (s v : Fin n → ℝ) (M M' : ℝ) :
    Real.exp (M - M') * ∑ j, Real.exp (s j - M) * v j = ∑ j, Real.exp (s j - M') * v j := by
  rw [Finset.mul_sum]
  refine Finset.sum_congr rfl fun j _ => ?_
  rw [← mul_assoc, ← Real.exp_add]; congr 2; ring

/-- A block of real scores, with largest member m, folded into a real triple. -/
theorem blockStep_coe {n : Nat} (s v : Fin n → ℝ) (m M D N : ℝ)
    (hm : Finset.univ.sup (fun j => ((s j : ℝ) : EReal)) = (m : EReal)) :
    blockStep (fun j => ((s j : ℝ) : EReal)) (fun j => ((v j : ℝ) : EReal)) ((M : EReal), (D : EReal), (N : EReal))
      = (((max M m : ℝ) : EReal),
         ((Real.exp (M - max M m) * D + ∑ j, Real.exp (s j - max M m) : ℝ) : EReal),
         ((Real.exp (M - max M m) * N + ∑ j, Real.exp (s j - max M m) * v j : ℝ) : EReal)) := by
  simp only [blockStep, hm, ← coe_max, ← EReal.coe_sub, Ideal.exp_coe, ← EReal.coe_mul, ← coe_sum,
    ← EReal.coe_add]

/-- The first block, folded into (-∞, 0, 0). -/
theorem blockStep_bot {n : Nat} (s v : Fin n → ℝ) (m : ℝ)
    (hm : Finset.univ.sup (fun j => ((s j : ℝ) : EReal)) = (m : EReal)) :
    blockStep (fun j => ((s j : ℝ) : EReal)) (fun j => ((v j : ℝ) : EReal)) (⊥, 0, 0)
      = ((m : EReal), ((∑ j, Real.exp (s j - m) : ℝ) : EReal), ((∑ j, Real.exp (s j - m) * v j : ℝ) : EReal)) := by
  simp only [blockStep, hm, bot_le, max_eq_right, EReal.bot_sub, Ideal.exp_bot, mul_zero, zero_add,
    ← EReal.coe_sub, Ideal.exp_coe, ← EReal.coe_mul, ← coe_sum]

/-! ## Sums over the first k blocks -/

/-- The sum of g over the blocks of index below k. -/
def partSum {nb : Nat} (k : Nat) (g : Fin nb → ℝ) : ℝ := ∑ b : Fin nb, if b.val < k then g b else 0

theorem partSum_zero {nb : Nat} (g : Fin nb → ℝ) : partSum 0 g = 0 := by
  simp [partSum]

theorem partSum_succ {nb : Nat} {k : Nat} (h : k < nb) (g : Fin nb → ℝ) :
    partSum (k + 1) g = partSum k g + g ⟨k, h⟩ := by
  unfold partSum
  have hsplit : ∀ b : Fin nb, (if b.val < k + 1 then g b else 0)
      = (if b.val < k then g b else 0) + (if b = ⟨k, h⟩ then g b else 0) := by
    intro b
    by_cases h1 : b.val < k
    · have h2 : b ≠ ⟨k, h⟩ := fun e => by rw [e] at h1; exact lt_irrefl _ h1
      rw [if_pos (Nat.lt_succ_of_lt h1), if_pos h1, if_neg h2, add_zero]
    · by_cases h2 : b = ⟨k, h⟩
      · rw [if_pos (by rw [h2]; exact Nat.lt_succ_self k), if_neg h1, if_pos h2, zero_add]
      · have h3 : ¬ b.val < k + 1 := fun h3 =>
          h2 (Fin.ext (le_antisymm (Nat.lt_succ_iff.mp h3) (not_lt.mp h1)))
        rw [if_neg h3, if_neg h1, if_neg h2, add_zero]
  rw [Finset.sum_congr rfl fun b _ => hsplit b, Finset.sum_add_distrib, Finset.sum_ite_eq' Finset.univ ⟨k, h⟩ g,
    if_pos (Finset.mem_univ _)]

theorem partSum_one {nb : Nat} (h : 0 < nb) (g : Fin nb → ℝ) : partSum 1 g = g ⟨0, h⟩ := by
  rw [partSum_succ h, partSum_zero, zero_add]

theorem partSum_full {nb : Nat} (g : Fin nb → ℝ) : partSum nb g = ∑ b, g b := by
  unfold partSum
  exact Finset.sum_congr rfl fun b _ => if_pos b.isLt

theorem mul_partSum {nb : Nat} (k : Nat) (c : ℝ) (g : Fin nb → ℝ) :
    c * partSum k g = partSum k (fun b => c * g b) := by
  unfold partSum
  rw [Finset.mul_sum]
  refine Finset.sum_congr rfl fun b _ => ?_
  split_ifs <;> simp

/-! ## The running triple after k blocks -/

/-- After k >= 1 blocks the running triple is real: the largest score so far, and the two sums of
    exponentials taken against it. -/
theorem blocksUpTo_coe {nb n : Nat} (hn : 0 < n) (s v : Fin nb → Fin n → ℝ) :
    ∀ k, 1 ≤ k → k ≤ nb → ∃ M : ℝ, (∀ b j, b.val < k → s b j ≤ M) ∧ (∃ b j, b.val < k ∧ s b j = M) ∧
      blocksUpTo (fun b j => ((s b j : ℝ) : EReal)) (fun b j => ((v b j : ℝ) : EReal)) k
        = ((M : EReal), ((partSum k fun b => ∑ j, Real.exp (s b j - M) : ℝ) : EReal),
            ((partSum k fun b => ∑ j, Real.exp (s b j - M) * v b j : ℝ) : EReal)) := by
  intro k hk1
  induction k, hk1 using Nat.le_induction with
  | base =>
    intro h1
    have h0 : 0 < nb := h1
    obtain ⟨m, hub, ⟨j0, hj0⟩, hsup⟩ := sup_coe hn (s ⟨0, h0⟩)
    refine ⟨m, ?_, ⟨⟨0, h0⟩, j0, Nat.zero_lt_one, hj0⟩, ?_⟩
    · intro b j hb
      have hb0 : b = ⟨0, h0⟩ := Fin.ext (Nat.lt_one_iff.mp hb)
      subst hb0; exact hub j
    · show blocksUpTo _ _ (0 + 1) = _
      rw [blocksUpTo, dif_pos h0, blocksUpTo, blockStep_bot _ _ m hsup, partSum_one h0, partSum_one h0]
  | succ k hk1 ih =>
    intro hk
    have hlt : k < nb := hk
    obtain ⟨M, hub, ⟨b0, j0, hb0, hj0⟩, hst⟩ := ih (le_of_lt hlt)
    obtain ⟨m, hubm, ⟨j1, hj1⟩, hsup⟩ := sup_coe hn (s ⟨k, hlt⟩)
    refine ⟨max M m, ?_, ?_, ?_⟩
    · intro b j hb
      rcases Nat.lt_succ_iff_lt_or_eq.mp hb with h | h
      · exact le_trans (hub b j h) (le_max_left _ _)
      · have hbk : b = ⟨k, hlt⟩ := Fin.ext h
        subst hbk; exact le_trans (hubm j) (le_max_right _ _)
    · rcases le_total M m with h | h
      · exact ⟨⟨k, hlt⟩, j1, Nat.lt_succ_self k, by rw [hj1, max_eq_right h]⟩
      · exact ⟨b0, j0, Nat.lt_succ_of_lt hb0, by rw [hj0, max_eq_left h]⟩
    · rw [blocksUpTo, dif_pos hlt, hst, blockStep_coe _ _ m M _ _ hsup, partSum_succ hlt, partSum_succ hlt,
        mul_partSum, mul_partSum]
      simp only [rescale_sum, rescale_sum_mul]

/-! ## The two means agree -/

/-- The blockwise mean of real scores and values is their softmax-weighted mean over all (block, key) pairs. -/
theorem blockAvg_eq_softAvg {nb n : Nat} (hnb : 0 < nb) (hn : 0 < n) (s v : Fin nb → Fin n → ℝ) :
    blockAvg (fun b j => ((s b j : ℝ) : EReal)) (fun b j => ((v b j : ℝ) : EReal))
      = softAvg (ι := Fin nb × Fin n) (fun p => ((s p.1 p.2 : ℝ) : EReal)) (fun p => ((v p.1 p.2 : ℝ) : EReal)) := by
  obtain ⟨M, hub, ⟨b0, j0, -, hj0⟩, hst⟩ := blocksUpTo_coe hn s v nb hnb le_rfl
  have hsup : Finset.univ.sup (fun p : Fin nb × Fin n => ((s p.1 p.2 : ℝ) : EReal)) = (M : EReal) :=
    sup_eq_coe (fun p : Fin nb × Fin n => s p.1 p.2) M (fun p => hub p.1 p.2 p.1.isLt) ⟨(b0, j0), hj0⟩
  -- the denominator: a sum of positive reals, one of them exp 0
  have hDpos : 0 < ∑ p : Fin nb × Fin n, Real.exp (s p.1 p.2 - M) :=
    Finset.sum_pos (fun p _ => Real.exp_pos _) ⟨(b0, j0), Finset.mem_univ _⟩
  have hDne : (∑ p : Fin nb × Fin n, Real.exp (s p.1 p.2 - M)) ≠ 0 := hDpos.ne'
  have hden : (∑ i : Fin nb × Fin n, Ideal.exp (((s i.1 i.2 : ℝ) : EReal) - (M : EReal)))
      = ((∑ p : Fin nb × Fin n, Real.exp (s p.1 p.2 - M) : ℝ) : EReal) := by
    rw [coe_sum]
    refine Finset.sum_congr rfl fun p _ => ?_
    rw [← EReal.coe_sub, Ideal.exp_coe]
  have hterm : ∀ p : Fin nb × Fin n,
      Ideal.div (Ideal.exp (((s p.1 p.2 : ℝ) : EReal) - (M : EReal)))
          ((∑ p : Fin nb × Fin n, Real.exp (s p.1 p.2 - M) : ℝ) : EReal) * ((v p.1 p.2 : ℝ) : EReal)
        = ((Real.exp (s p.1 p.2 - M) * (1 / ∑ p : Fin nb × Fin n, Real.exp (s p.1 p.2 - M)) * v p.1 p.2 : ℝ) : EReal) := by
    intro p
    rw [Ideal.div_coe hDne, ← EReal.coe_sub, Ideal.exp_coe, ← EReal.coe_mul, ← EReal.coe_mul]
  unfold blockAvg softAvg
  rw [hst]
  simp only [hsup, hden, hterm, partSum_full]
  rw [Ideal.div_coe (by rw [← Fintype.sum_prod_type (f := fun p : Fin nb × Fin n => Real.exp (s p.1 p.2 - M))]; exact hDne),
    ← EReal.coe_mul, ← coe_sum, ← Fintype.sum_prod_type (f := fun p : Fin nb × Fin n => Real.exp (s p.1 p.2 - M)),
    ← Fintype.sum_prod_type (f := fun p : Fin nb × Fin n => Real.exp (s p.1 p.2 - M) * v p.1 p.2), Finset.sum_mul]
  congr 1
  refine Finset.sum_congr rfl fun p _ => ?_
  ring

/-- The softmax-weighted mean does not depend on how its index set is named. -/
theorem softAvg_equiv {ι κ : Type} [Fintype ι] [Fintype κ] (e : ι ≃ κ) (s v : κ → EReal) :
    softAvg (fun i => s (e i)) (fun i => v (e i)) = softAvg s v := by
  have hsup : Finset.univ.sup (fun i => s (e i)) = Finset.univ.sup s := by
    refine le_antisymm (Finset.sup_le fun i _ => Finset.le_sup (f := s) (Finset.mem_univ (e i))) ?_
    refine Finset.sup_le fun k _ => ?_
    have h := Finset.le_sup (f := fun i => s (e i)) (Finset.mem_univ (e.symm k))
    simpa using h
  unfold softAvg
  rw [hsup, Equiv.sum_comp e (fun k => Ideal.exp (s k - Finset.univ.sup s))]
  exact Equiv.sum_comp e (fun k => Ideal.div (Ideal.exp (s k - Finset.univ.sup s))
    (∑ i, Ideal.exp (s i - Finset.univ.sup s)) * v k)

/-- The same over a flat key axis: key j of block b is key j + n * b of the flat axis. -/
theorem blockAvg_eq_softAvg_flat {nb n : Nat} (hnb : 0 < nb) (hn : 0 < n) (s v : Fin (nb * n) → ℝ) :
    blockAvg (fun (b : Fin nb) (j : Fin n) => ((s (finProdFinEquiv (b, j)) : ℝ) : EReal))
        (fun b j => ((v (finProdFinEquiv (b, j)) : ℝ) : EReal))
      = softAvg (fun k => ((s k : ℝ) : EReal)) (fun k => ((v k : ℝ) : EReal)) := by
  rw [blockAvg_eq_softAvg hnb hn (fun b j => s (finProdFinEquiv (b, j))) (fun b j => v (finProdFinEquiv (b, j)))]
  exact softAvg_equiv finProdFinEquiv (fun k => ((s k : ℝ) : EReal)) (fun k => ((v k : ℝ) : EReal))

/-- The flat key of (block b, key j). -/
theorem finProdFinEquiv_val {nb n : Nat} (b : Fin nb) (j : Fin n) :
    (finProdFinEquiv (b, j)).val = j.val + n * b.val := rfl

/-! ## The scale of the scores -/

/-- The word 0x3E000000 is the float 1/8. -/
theorem ofBits_eighth : Ideal.ofBits .f32 0x3E000000#32 = (((1 / 8 : ℝ)) : EReal) := by
  simp [Ideal.ofBits, Ideal.ieee, -EReal.coe_mul]; norm_num

/-- The word 0x41000000 is the float 8. -/
theorem eight_eq : eight = ((8 : ℝ) : EReal) := by
  simp [eight, Ideal.ofBits, Ideal.ieee, -EReal.coe_mul]; norm_num

/-- Scaling each left factor by 1/8 before the dot product is dividing the dot product by 8. -/
theorem scaled_dot {d : Nat} (q k : Fin d → ℝ) :
    (∑ i, ((q i : ℝ) : EReal) * Ideal.ofBits .f32 0x3E000000#32 * ((k i : ℝ) : EReal))
      = Ideal.div (∑ i, ((q i : ℝ) : EReal) * ((k i : ℝ) : EReal)) eight := by
  rw [ofBits_eighth, eight_eq, Ideal.div_coe (by norm_num : (8 : ℝ) ≠ 0)]
  simp only [← EReal.coe_mul, ← coe_sum]
  congr 1
  rw [Finset.sum_mul]
  refine Finset.sum_congr rfl fun i _ => ?_
  ring

end Cert.Att

end
-- ==== Proof.KI.Reg1Val.lean ====
/-
  The flash-attention call's result array is the softmax-weighted mean of the value rows.

  Within one run of 16 grid points (one batch, one group of 8 heads, one tile of 1024 query rows) the kept arrays
  are the fold of the body's update over the run's key blocks, from the reset.  At one head, one query row and one
  lane the fold is the blockwise (maximum, denominator, numerator) accumulation of Spec, whose blocks are the 16
  key blocks of 128 rows; the kept queries do not change over the run.  With real queries, keys and values the
  block scores are the scaled dot products, the quotient stored at the run's last point is the blockwise mean, and
  that is the plain softmax-weighted mean over the 2048 keys.  The last point of each run writes its block back,
  and those blocks tile the result array.
-/
import proofs.«414835_j10436770529900_3_alg».proof.Proof.KI.Reg1
import proofs.«414835_j10436770529900_3_alg».proof.Proof.KI.Reg1Pay
import proofs.«414835_j10436770529900_3_alg».proof.Proof.Spec
import proofs.«414835_j10436770529900_3_alg».proof.Proof.Online

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## One run, over abstract blocks -/

/-- The kept arrays after the first k key blocks of a run: the reset, then one update per block. -/
def foldSt (q : Vec Ideal S1x1024x8x64 .f32) (kb vb : Fin 16 → Vec Ideal S1x128x8x64 .f32) : Nat → St Ideal
  | 0 => resetSt q
  | k + 1 => if h : k < 16 then advance (kb ⟨k, h⟩) (vb ⟨k, h⟩) (foldSt q kb vb k) else foldSt q kb vb k

/-- The kept queries do not change over a run. -/
theorem foldSt_qT (q : Vec Ideal S1x1024x8x64 .f32) (kb vb : Fin 16 → Vec Ideal S1x128x8x64 .f32) :
    ∀ k, (foldSt q kb vb k).2.2.2 = (resetSt (F := Ideal) q).2.2.2
  | 0 => rfl
  | k + 1 => by
    unfold foldSt
    split
    · rw [advance_qT]; exact foldSt_qT q kb vb k
    · exact foldSt_qT q kb vb k

/-- At one head, row and lane the kept maximum, denominator and numerator after k blocks are the blockwise
    accumulation over the first k blocks. -/
theorem foldSt_triple (q : Vec Ideal S1x1024x8x64 .f32) (kb vb : Fin 16 → Vec Ideal S1x128x8x64 .f32)
    (hh : Fin 8) (r : Fin 1024) (d : Fin 64) :
    ∀ k, ((foldSt q kb vb k).1 (ix2 hh r), (foldSt q kb vb k).2.1 (ix2 hh r), (foldSt q kb vb k).2.2.1 (ix3 hh r d))
      = Cert.Att.blocksUpTo (fun bk j => blkScore (kb bk) (resetSt (F := Ideal) q).2.2.2 hh r j)
          (fun bk j => vb bk (ix4 0 j hh d)) k
  | 0 => by
    show ((resetSt (F := Ideal) q).1 (ix2 hh r), (resetSt (F := Ideal) q).2.1 (ix2 hh r), (resetSt (F := Ideal) q).2.2.1 (ix3 hh r d))
      = ((⊥ : EReal), (0 : EReal), (0 : EReal))
    rw [resetSt_m, resetSt_l, resetSt_acc]
  | k + 1 => by
    unfold foldSt Cert.Att.blocksUpTo
    by_cases h : k < 16
    · rw [dif_pos h, dif_pos h, advance_apply, foldSt_qT, foldSt_triple q kb vb hh r d k]
    · rw [dif_neg h, dif_neg h]; exact foldSt_triple q kb vb hh r d k

/-- A sum of products of reals divided by the float 8 is a real. -/
theorem div_sum_coe {n : Nat} (a b : Fin n → ℝ) :
    Ideal.div (∑ i, ((a i : ℝ) : EReal) * ((b i : ℝ) : EReal)) Cert.Att.eight
      = (((∑ i, a i * b i) * (1 / 8) : ℝ) : EReal) := by
  rw [Cert.Att.eight_eq, Ideal.div_coe (by norm_num : (8 : ℝ) ≠ 0)]
  simp only [← EReal.coe_mul, ← Cert.Att.coe_sum]

/-- With a real query row, real key rows and real value lanes, the quotient stored after the 16 blocks is the
    softmax-weighted mean over the 2048 keys, key j of block bk being key j + 128 * bk. -/
theorem foldSt_out (q : Vec Ideal S1x1024x8x64 .f32) (kb vb : Fin 16 → Vec Ideal S1x128x8x64 .f32)
    (hh : Fin 8) (r : Fin 1024) (d : Fin 64) (Qr : Fin 64 → ℝ) (Kr : Fin (16 * 128) → Fin 64 → ℝ) (Wr : Fin (16 * 128) → ℝ)
    (hq : ∀ d', q (ix4 0 r hh d') = ((Qr d' : ℝ) : EReal))
    (hk : ∀ (bk : Fin 16) (j : Fin 128) d', kb bk (ix4 0 j hh d') = ((Kr (finProdFinEquiv (bk, j)) d' : ℝ) : EReal))
    (hv : ∀ (bk : Fin 16) (j : Fin 128), vb bk (ix4 0 j hh d) = ((Wr (finProdFinEquiv (bk, j)) : ℝ) : EReal)) :
    outOf (foldSt q kb vb 16) (ix4 0 r hh d)
      = Cert.Att.softAvg (fun k : Fin (16 * 128) => Ideal.div (∑ d', ((Qr d' : ℝ) : EReal) * ((Kr k d' : ℝ) : EReal)) Cert.Att.eight)
          (fun k => ((Wr k : ℝ) : EReal)) := by
  have htr := foldSt_triple q kb vb hh r d 16
  have hl : (foldSt q kb vb 16).2.1 (ix2 hh r) = (Cert.Att.blocksUpTo (fun bk j => blkScore (kb bk) (resetSt (F := Ideal) q).2.2.2 hh r j)
      (fun bk j => vb bk (ix4 0 j hh d)) 16).2.1 := congrArg (fun p => p.2.1) htr
  have ha : (foldSt q kb vb 16).2.2.1 (ix3 hh r d) = (Cert.Att.blocksUpTo (fun bk j => blkScore (kb bk) (resetSt (F := Ideal) q).2.2.2 hh r j)
      (fun bk j => vb bk (ix4 0 j hh d)) 16).2.2 := congrArg (fun p => p.2.2) htr
  have hs : (fun (bk : Fin 16) (j : Fin 128) => blkScore (kb bk) (resetSt (F := Ideal) q).2.2.2 hh r j)
      = fun bk j => ((((∑ d', Qr d' * Kr (finProdFinEquiv (bk, j)) d') * (1 / 8) : ℝ)) : EReal) := by
    funext bk j
    unfold blkScore
    rw [← div_sum_coe, ← Cert.Att.scaled_dot]
    refine Finset.sum_congr rfl fun d' _ => ?_
    rw [resetSt_qT, hq, hk]
  have hvv : (fun (bk : Fin 16) (j : Fin 128) => vb bk (ix4 0 j hh d)) = fun bk j => ((Wr (finProdFinEquiv (bk, j)) : ℝ) : EReal) := by
    funext bk j; exact hv bk j
  rw [outOf_apply, hl, ha, hs, hvv]
  have hr : (fun k : Fin (16 * 128) => Ideal.div (∑ d', ((Qr d' : ℝ) : EReal) * ((Kr k d' : ℝ) : EReal)) Cert.Att.eight)
      = fun k => ((((∑ d', Qr d' * Kr k d') * (1 / 8) : ℝ)) : EReal) := funext fun k => div_sum_coe Qr (Kr k)
  rw [hr]
  exact Cert.Att.blockAvg_eq_softAvg_flat (nb := 16) (n := 128) (by norm_num) (by norm_num)
    (fun k => (∑ d', Qr d' * Kr k d') * (1 / 8)) Wr

/-! ## The kept arrays of a run are that fold -/

variable (V : (c : Dev nD) → (b : Ref sig .tc) → Buf (Elt Ideal) ((c : Thread nD τ).loc b))

theorem lt_N1 {run kv : ℕ} (hrun : run < 8) (hkv : kv < 16) : 16 * run + kv < cfg1.N := by
  rw [show cfg1.N = 128 from N_1]; omega

theorem lt_N1' {run : ℕ} (hrun : run < 8) : 16 * run < cfg1.N := by
  rw [show cfg1.N = 128 from N_1]; omega

theorem scAt_congr (c : Dev nD) {n n' : ℕ} (e : n = n') (hn : n < cfg1.N) (hn' : n' < cfg1.N) :
    scAt V c n hn = scAt V c n' hn' := by subst e; rfl

theorem foldSt_succ (q : Vec Ideal S1x1024x8x64 .f32) (kb vb : Fin 16 → Vec Ideal S1x128x8x64 .f32) (k : ℕ) (h : k < 16) :
    foldSt q kb vb (k + 1) = advance (kb ⟨k, h⟩) (vb ⟨k, h⟩) (foldSt q kb vb k) := dif_pos h

/-- After key block kv of run number run the kept arrays are the fold over the run's first kv + 1 blocks. -/
theorem scAt_eq_foldSt (c : Dev nD) (run : ℕ) (hrun : run < 8) :
    ∀ (kv : ℕ) (hkv : kv < 16), scAt V c (16 * run + kv) (lt_N1 hrun hkv)
      = foldSt (iblk1 V c 0 ⟨16 * run, lt_N1' hrun⟩)
          (fun bk => iblk1 V c 1 ⟨16 * run + bk.val, lt_N1 hrun bk.isLt⟩)
          (fun bk => iblk1 V c 2 ⟨16 * run + bk.val, lt_N1 hrun bk.isLt⟩) (kv + 1)
  | 0, hkv => by
    refine (scAt_first V c ⟨16 * run + 0, lt_N1 hrun hkv⟩ (by show (16 * run + 0) % 16 = 0; omega)).trans ?_
    rw [foldSt_succ _ _ _ 0 hkv]
    rfl
  | kv + 1, hkv => by
    have hne : ¬(16 * run + (kv + 1)) % 16 = 0 := by omega
    refine (scAt_next V c ⟨16 * run + (kv + 1), lt_N1 hrun hkv⟩ hne).trans ?_
    rw [foldSt_succ _ _ _ (kv + 1) hkv, ← scAt_eq_foldSt c run hrun kv (Nat.lt_of_succ_lt hkv)]
    exact congrArg (advance (iblk1 V c 1 ⟨16 * run + (kv + 1), lt_N1 hrun hkv⟩) (iblk1 V c 2 ⟨16 * run + (kv + 1), lt_N1 hrun hkv⟩))
      (scAt_congr V c (by show 16 * run + (kv + 1) - 1 = 16 * run + kv; omega) _ _)

/-! ## The blocks, read off the arrays -/

/-- The printed index maps over the grid: point t is batch t / 64, head group t / 32 mod 2, query tile t / 16 mod 2,
    key block t mod 16. -/
theorem idx_facts1 : ∀ t : Fin cfg1.N,
    win1_0.index t (0 : Fin 4) = t.val / 64 ∧ win1_0.index t (1 : Fin 4) = t.val / 16 % 2
    ∧ win1_0.index t (2 : Fin 4) = t.val / 32 % 2 ∧ win1_0.index t (3 : Fin 4) = 0
    ∧ win1_1.index t (0 : Fin 4) = t.val / 64 ∧ win1_1.index t (1 : Fin 4) = t.val % 16
    ∧ win1_1.index t (2 : Fin 4) = t.val / 32 % 2 ∧ win1_1.index t (3 : Fin 4) = 0
    ∧ win1_2.index t (0 : Fin 4) = t.val / 64 ∧ win1_2.index t (1 : Fin 4) = t.val % 16
    ∧ win1_2.index t (2 : Fin 4) = t.val / 32 % 2 ∧ win1_2.index t (3 : Fin 4) = 0
    ∧ win1_3.index t (0 : Fin 4) = t.val / 64 ∧ win1_3.index t (1 : Fin 4) = t.val / 16 % 2
    ∧ win1_3.index t (2 : Fin 4) = t.val / 32 % 2 ∧ win1_3.index t (3 : Fin 4) = 0 :=
  (by decide +kernel : ∀ t : Fin grid1.N, _)

/-- The query block at point t, row r, head hh, lane d is the query array at the tile's row and the group's head. -/
theorem iblk1_0_apply (c : Dev nD) (t : Fin cfg1.N) (r : Fin 1024) (hh : Fin 8) (d : Fin 64) (i : S2x2048x16x64.Idx)
    (h0 : (i 0).val = t.val / 64) (h1 : (i 1).val = t.val / 16 % 2 * 1024 + r.val)
    (h2 : (i 2).val = t.val / 32 % 2 * 8 + hh.val) (h3 : (i 3).val = d.val) :
    (iblk1 V c 0 t : S1x1024x8x64.Idx → EReal) (ix4 0 r hh d) = (V c main_v15 : S2x2048x16x64.Idx → EReal) i := by
  obtain ⟨e0, e1, e2, e3, -⟩ := idx_facts1 t
  show (V c main_v15 : S2x2048x16x64.Idx → EReal) (((cfg1.win 0).blk t).view.emb (ix4 0 r hh d)) = _
  refine congrArg (V c main_v15 : S2x2048x16x64.Idx → EReal) ?_
  funext a; apply Fin.ext
  match a with
  | ⟨0, _⟩ => show win1_0.index t (0 : Fin 4) * 1 + 1 * 0 = (i 0).val; rw [e0, h0]; omega
  | ⟨1, _⟩ => show win1_0.index t (1 : Fin 4) * 1024 + 1 * r.val = (i 1).val; rw [e1, h1]; omega
  | ⟨2, _⟩ => show win1_0.index t (2 : Fin 4) * 8 + 1 * hh.val = (i 2).val; rw [e2, h2]; omega
  | ⟨3, _⟩ => show win1_0.index t (3 : Fin 4) * 64 + 1 * d.val = (i 3).val; rw [e3, h3]; omega

/-- The key block at point t, row j, head hh, lane d is the key array at the block's row and the group's head. -/
theorem iblk1_1_apply (c : Dev nD) (t : Fin cfg1.N) (j : Fin 128) (hh : Fin 8) (d : Fin 64) (i : S2x2048x16x64.Idx)
    (h0 : (i 0).val = t.val / 64) (h1 : (i 1).val = t.val % 16 * 128 + j.val)
    (h2 : (i 2).val = t.val / 32 % 2 * 8 + hh.val) (h3 : (i 3).val = d.val) :
    (iblk1 V c 1 t : S1x128x8x64.Idx → EReal) (ix4 0 j hh d) = (V c main_v16 : S2x2048x16x64.Idx → EReal) i := by
  obtain ⟨-, -, -, -, e0, e1, e2, e3, -⟩ := idx_facts1 t
  show (V c main_v16 : S2x2048x16x64.Idx → EReal) (((cfg1.win 1).blk t).view.emb (ix4 0 j hh d)) = _
  refine congrArg (V c main_v16 : S2x2048x16x64.Idx → EReal) ?_
  funext a; apply Fin.ext
  match a with
  | ⟨0, _⟩ => show win1_1.index t (0 : Fin 4) * 1 + 1 * 0 = (i 0).val; rw [e0, h0]; omega
  | ⟨1, _⟩ => show win1_1.index t (1 : Fin 4) * 128 + 1 * j.val = (i 1).val; rw [e1, h1]; omega
  | ⟨2, _⟩ => show win1_1.index t (2 : Fin 4) * 8 + 1 * hh.val = (i 2).val; rw [e2, h2]; omega
  | ⟨3, _⟩ => show win1_1.index t (3 : Fin 4) * 64 + 1 * d.val = (i 3).val; rw [e3, h3]; omega

/-- The value block likewise. -/
theorem iblk1_2_apply (c : Dev nD) (t : Fin cfg1.N) (j : Fin 128) (hh : Fin 8) (d : Fin 64) (i : S2x2048x16x64.Idx)
    (h0 : (i 0).val = t.val / 64) (h1 : (i 1).val = t.val % 16 * 128 + j.val)
    (h2 : (i 2).val = t.val / 32 % 2 * 8 + hh.val) (h3 : (i 3).val = d.val) :
    (iblk1 V c 2 t : S1x128x8x64.Idx → EReal) (ix4 0 j hh d) = (V c main_v17 : S2x2048x16x64.Idx → EReal) i := by
  obtain ⟨-, -, -, -, -, -, -, -, e0, e1, e2, e3, -⟩ := idx_facts1 t
  show (V c main_v17 : S2x2048x16x64.Idx → EReal) (((cfg1.win 2).blk t).view.emb (ix4 0 j hh d)) = _
  refine congrArg (V c main_v17 : S2x2048x16x64.Idx → EReal) ?_
  funext a; apply Fin.ext
  match a with
  | ⟨0, _⟩ => show win1_2.index t (0 : Fin 4) * 1 + 1 * 0 = (i 0).val; rw [e0, h0]; omega
  | ⟨1, _⟩ => show win1_2.index t (1 : Fin 4) * 128 + 1 * j.val = (i 1).val; rw [e1, h1]; omega
  | ⟨2, _⟩ => show win1_2.index t (2 : Fin 4) * 8 + 1 * hh.val = (i 2).val; rw [e2, h2]; omega
  | ⟨3, _⟩ => show win1_2.index t (3 : Fin 4) * 64 + 1 * d.val = (i 3).val; rw [e3, h3]; omega

/-! ## What the last point of a run stores -/

/-- The softmax-weighted means as an array: batch, query row, head, lane. -/
def attArr (Q K W : Fin 2 → Fin 2048 → Fin 1024 → ℝ) : S2x2048x16x64.Idx → EReal := fun i =>
  Cert.Att.ctx (fun b s e => ((Q b s e : ℝ) : EReal)) (fun b s e => ((K b s e : ℝ) : EReal)) (fun b s e => ((W b s e : ℝ) : EReal))
    (i 0) (i 1) (Cert.Att.col (i 2) (i 3))

/-- The head of lane d of head h is h. -/
theorem headOf_col (h : Fin 16) (d : Fin 64) : Cert.Att.headOf (Cert.Att.col h d) = h :=
  Fin.ext (by show (h.val * 64 + d.val) / 64 = h.val; have := d.isLt; omega)

/-- At the last point of a run, row r, head hh, lane d of the stored block is the mean at the array index that
    block position names. -/
theorem out_at (c : Dev nD) (Q K W : Fin 2 → Fin 2048 → Fin 1024 → ℝ)
    (hQ : ∀ b s h d, (V c main_v15 : S2x2048x16x64.Idx → EReal) (ix4 b s h d) = ((Q b s (Cert.Att.col h d) : ℝ) : EReal))
    (hK : ∀ b s h d, (V c main_v16 : S2x2048x16x64.Idx → EReal) (ix4 b s h d) = ((K b s (Cert.Att.col h d) : ℝ) : EReal))
    (hV : ∀ b s h d, (V c main_v17 : S2x2048x16x64.Idx → EReal) (ix4 b s h d) = ((W b s (Cert.Att.col h d) : ℝ) : EReal))
    (t : Fin cfg1.N) (h15 : t.val % 16 = 15) (r : Fin 1024) (hh : Fin 8) (d : Fin 64) (i : S2x2048x16x64.Idx)
    (h0 : (i 0).val = t.val / 64) (h1 : (i 1).val = t.val / 16 % 2 * 1024 + r.val)
    (h2 : (i 2).val = t.val / 32 % 2 * 8 + hh.val) (h3 : (i 3).val = d.val) :
    outOf (scAt V c t.val t.isLt) (ix4 0 r hh d) = attArr Q K W i := by
  obtain ⟨b, s, h, d2, rfl⟩ : ∃ (b : Fin 2) (s : Fin 2048) (h : Fin 16) (d2 : Fin 64), i = ix4 b s h d2 :=
    ⟨i 0, i 1, i 2, i 3, eq_ix4 i⟩
  have hb : b.val = t.val / 64 := h0
  have hs : s.val = t.val / 16 % 2 * 1024 + r.val := h1
  have hh' : h.val = t.val / 32 % 2 * 8 + hh.val := h2
  obtain rfl : d2 = d := Fin.ext h3
  have hN : t.val < 128 := lt_of_lt_of_eq t.isLt (show cfg1.N = 128 from N_1)
  have hrun : t.val / 16 < 8 := by omega
  have ht : t.val = 16 * (t.val / 16) + 15 := by omega
  rw [scAt_congr V c ht t.isLt (lt_N1 hrun (by norm_num)), scAt_eq_foldSt V c (t.val / 16) hrun 15 (by norm_num)]
  refine (foldSt_out _ _ _ hh r d2 (fun d' => Q b s (Cert.Att.col h d')) (fun k d' => K b k (Cert.Att.col h d'))
    (fun k => W b k (Cert.Att.col h d2)) ?_ ?_ ?_).trans ?_
  · intro d'
    refine (iblk1_0_apply V c ⟨16 * (t.val / 16), lt_N1' hrun⟩ r hh d' (ix4 b s h d') ?_ ?_ ?_ rfl).trans (hQ b s h d')
    · show b.val = 16 * (t.val / 16) / 64; omega
    · show s.val = 16 * (t.val / 16) / 16 % 2 * 1024 + r.val; omega
    · show h.val = 16 * (t.val / 16) / 32 % 2 * 8 + hh.val; omega
  · intro bk j d'
    have hbk := bk.isLt
    have hj := j.isLt
    refine (iblk1_1_apply V c ⟨16 * (t.val / 16) + bk.val, lt_N1 hrun bk.isLt⟩ j hh d'
      (ix4 b (finProdFinEquiv (bk, j)) h d') ?_ ?_ ?_ rfl).trans (hK b _ h d')
    · show b.val = (16 * (t.val / 16) + bk.val) / 64; omega
    · show (finProdFinEquiv (bk, j)).val = (16 * (t.val / 16) + bk.val) % 16 * 128 + j.val
      rw [Cert.Att.finProdFinEquiv_val]; omega
    · show h.val = (16 * (t.val / 16) + bk.val) / 32 % 2 * 8 + hh.val; omega
  · intro bk j
    have hbk := bk.isLt
    have hj := j.isLt
    refine (iblk1_2_apply V c ⟨16 * (t.val / 16) + bk.val, lt_N1 hrun bk.isLt⟩ j hh d2
      (ix4 b (finProdFinEquiv (bk, j)) h d2) ?_ ?_ ?_ rfl).trans (hV b _ h d2)
    · show b.val = (16 * (t.val / 16) + bk.val) / 64; omega
    · show (finProdFinEquiv (bk, j)).val = (16 * (t.val / 16) + bk.val) % 16 * 128 + j.val
      rw [Cert.Att.finProdFinEquiv_val]; omega
    · show h.val = (16 * (t.val / 16) + bk.val) / 32 % 2 * 8 + hh.val; omega
  · show _ = Cert.Att.ctx _ _ _ b s (Cert.Att.col h d2)
    unfold Cert.Att.ctx Cert.Att.score
    rw [headOf_col]

/-- What a flushing point writes back is its block of the array of means. -/
theorem flushed1_3_eq (c : Dev nD) (Q K W : Fin 2 → Fin 2048 → Fin 1024 → ℝ)
    (hQ : ∀ b s h d, (V c main_v15 : S2x2048x16x64.Idx → EReal) (ix4 b s h d) = ((Q b s (Cert.Att.col h d) : ℝ) : EReal))
    (hK : ∀ b s h d, (V c main_v16 : S2x2048x16x64.Idx → EReal) (ix4 b s h d) = ((K b s (Cert.Att.col h d) : ℝ) : EReal))
    (hV : ∀ b s h d, (V c main_v17 : S2x2048x16x64.Idx → EReal) (ix4 b s h d) = ((W b s (Cert.Att.col h d) : ℝ) : EReal))
    (t : Fin cfg1.N) (hf : (cfg1.win 3).flush t = true) :
    (dat1 V c).flushed 3 t = ((cfg1.win 3).blk t).view.read (Elt Ideal) (attArr Q K W) := by
  have h15 : t.val % 16 = 15 := (flush1_3 t).mp hf
  obtain ⟨-, -, -, -, -, -, -, -, -, -, -, -, e0, e1, e2, e3⟩ := idx_facts1 t
  show (cfg1.win 3).cut (grid1.coords t) ((dat1 V c).after 3 t) = _
  rw [after1_3]
  funext y
  obtain ⟨y0, r, hh, d, rfl⟩ : ∃ (y0 : Fin 1) (r : Fin 1024) (hh : Fin 8) (d : Fin 64), y = ix4 y0 r hh d :=
    ⟨y 0, y 1, y 2, y 3, eq_ix4 y⟩
  obtain rfl : y0 = 0 := Subsingleton.elim _ _
  show outOf (scAt V c t.val t.isLt) (ix4 0 r hh d) = attArr Q K W (((cfg1.win 3).blk t).view.emb (ix4 0 r hh d))
  refine out_at V c Q K W hQ hK hV t h15 r hh d _ ?_ ?_ ?_ ?_
  · show win1_3.index t (0 : Fin 4) * 1 + 1 * 0 = t.val / 64; rw [e0]; omega
  · show win1_3.index t (1 : Fin 4) * 1024 + 1 * r.val = t.val / 16 % 2 * 1024 + r.val; rw [e1]; omega
  · show win1_3.index t (2 : Fin 4) * 8 + 1 * hh.val = t.val / 32 % 2 * 8 + hh.val; rw [e2]; omega
  · show win1_3.index t (3 : Fin 4) * 64 + 1 * d.val = d.val; rw [e3]; omega

/-! ## From the blocks to the array -/

/-- An index of the result array is in point t's block iff each coordinate is in the block's range on its axis. -/
theorem mem_blk1_3 (t : Fin cfg1.N) (i : S2x2048x16x64.Idx) :
    i ∈ ((cfg1.win 3).blk t).view.set ↔ ∀ a : Fin 4, win1_3.index t a * S1x1024x8x64.size a ≤ (i a).val
      ∧ (i a).val < win1_3.index t a * S1x1024x8x64.size a + S1x1024x8x64.size a := by
  show i ∈ ((View.whole main_v18).slice (win1_3.rect t)).set ↔ _
  rw [View.set_slice_whole, Rect.mem_set_unit]
  exact Iff.rfl

/-- The flash-attention call's result array holds, at batch b, query row s, head h, lane d, the softmax-weighted
    mean of the value rows: the row is written by the last point of the run of its batch, head group and query tile. -/
theorem flash_array (c : Dev nD) (Q K W : Fin 2 → Fin 2048 → Fin 1024 → ℝ)
    (hQ : ∀ b s h d, (V c main_v15 : S2x2048x16x64.Idx → EReal) (ix4 b s h d) = ((Q b s (Cert.Att.col h d) : ℝ) : EReal))
    (hK : ∀ b s h d, (V c main_v16 : S2x2048x16x64.Idx → EReal) (ix4 b s h d) = ((K b s (Cert.Att.col h d) : ℝ) : EReal))
    (hV : ∀ b s h d, (V c main_v17 : S2x2048x16x64.Idx → EReal) (ix4 b s h d) = ((W b s (Cert.Att.col h d) : ℝ) : EReal))
    (b : Fin 2) (s : Fin 2048) (h : Fin 16) (d : Fin 64) :
    ((dat1 (F := Ideal) V c).arrAt 3 cfg1.N : S2x2048x16x64.Idx → EReal) (ix4 b s h d)
      = Cert.Att.ctx (fun b s e => ((Q b s e : ℝ) : EReal)) (fun b s e => ((K b s e : ℝ) : EReal)) (fun b s e => ((W b s e : ℝ) : EReal)) b s (Cert.Att.col h d) := by
  have hb := b.isLt
  have hs := s.isLt
  have hh := h.isLt
  have hd := d.isLt
  obtain ⟨t, ht⟩ : ∃ t : Fin cfg1.N, t.val = ((b.val * 2 + h.val / 8) * 2 + s.val / 1024) * 16 + 15 :=
    ⟨⟨((b.val * 2 + h.val / 8) * 2 + s.val / 1024) * 16 + 15, by rw [show cfg1.N = 128 from N_1]; omega⟩, rfl⟩
  have h15 : t.val % 16 = 15 := by omega
  have hf : (cfg1.win 3).flush t = true := (flush1_3 t).mpr h15
  obtain ⟨-, -, -, -, -, -, -, -, -, -, -, -, e0, e1, e2, e3⟩ := idx_facts1 t
  have hi : (ix4 b s h d : S2x2048x16x64.Idx) ∈ ((cfg1.win 3).blk t).view.set := by
    rw [mem_blk1_3]
    intro a
    match a with
    | ⟨0, _⟩ => show win1_3.index t (0 : Fin 4) * 1 ≤ b.val ∧ b.val < win1_3.index t (0 : Fin 4) * 1 + 1; rw [e0]; omega
    | ⟨1, _⟩ => show win1_3.index t (1 : Fin 4) * 1024 ≤ s.val ∧ s.val < win1_3.index t (1 : Fin 4) * 1024 + 1024; rw [e1]; omega
    | ⟨2, _⟩ => show win1_3.index t (2 : Fin 4) * 8 ≤ h.val ∧ h.val < win1_3.index t (2 : Fin 4) * 8 + 8; rw [e2]; omega
    | ⟨3, _⟩ => show win1_3.index t (3 : Fin 4) * 64 ≤ d.val ∧ d.val < win1_3.index t (3 : Fin 4) * 64 + 64; rw [e3]; omega
  exact (dat1 V c).arrAt_apply_of_mem 3 (attArr Q K W) (fun t hf => flushed1_3_eq V c Q K W hQ hK hV t hf) cfg1.N t
    (ix4 b s h d) t.isLt hf hi

end Cert.KernelIdeal.Hand

end
-- ==== Proof.ProjReal.lean ====
/-
  A linear layer of real inputs is real: the extended-real projection of coerced reals is the coercion of the same
  sum of products plus bias computed in the reals.
-/
import proofs.«414835_j10436770529900_3_alg».proof.Proof.Spec
import proofs.«414835_j10436770529900_3_alg».proof.Proof.Online

noncomputable section

namespace Cert.Att

/-- The linear layer over the reals. -/
def projR (x : Fin 2 → Fin 2048 → Fin 1024 → ℝ) (W : Fin 1024 → Fin 1024 → ℝ) (b : Fin 1024 → ℝ)
    (bi : Fin 2) (s : Fin 2048) (e : Fin 1024) : ℝ :=
  (∑ k : Fin 1024, x bi s k * W e k) + b e

theorem proj_coe (x : Fin 2 → Fin 2048 → Fin 1024 → ℝ) (W : Fin 1024 → Fin 1024 → ℝ) (b : Fin 1024 → ℝ)
    (bi : Fin 2) (s : Fin 2048) (e : Fin 1024) :
    proj (fun a b c => ((x a b c : ℝ) : EReal)) (fun a b => ((W a b : ℝ) : EReal)) (fun a => ((b a : ℝ) : EReal)) bi s e
      = ((projR x W b bi s e : ℝ) : EReal) := by
  unfold proj projR
  rw [EReal.coe_add, coe_sum]
  simp only [EReal.coe_mul]

end Cert.Att

end
-- ==== Proof.Finite.lean ====
import proofs.«414835_j10436770529900_3_alg».proof.Defs
import proofs.«414835_j10436770529900_3_alg».proof.Proof.Gen.Pre_finite_inputs
import proofs.«414835_j10436770529900_3_alg».proof.Proof.Gen.KernelIdeal
import Idealize.ShloMosaic.Lib.ReduceAll
import Idealize.ShloMosaic.Lib.ValueIdx
import Idealize.ShloMosaic.PureOps.Ideal.Laws

/-!
# The finiteness precondition, read back

The precondition says of each of the nine float arguments that the conjunction over all its
entries of `|a| < +inf` is true. Over the extended reals `|a| = max a (-a)`, and `max a (-a) < ⊤`
fails exactly at `a = ⊥` and `a = ⊤`; so every entry is the image of a real number and each
argument buffer is the pointwise coercion of a real-valued function.
-/

noncomputable section

namespace Cert.Finite

open Idealize.ShloMosaic Idealize.SL.Sem

/-- The shape with no axes has exactly one index: the empty tuple. -/
instance subsingleton_scalarIdx : Subsingleton Cert.Pre_finite_inputs.S_.Idx :=
  ⟨fun _ _ => funext fun d => d.elim0⟩

/-- The f32 pattern of +inf (exponent all ones, mantissa zero, sign clear) denotes `⊤`. -/
theorem ofBits_inf : Ideal.ofBits .f32 0x7F800000#32 = (⊤ : EReal) := by
  simp [Ideal.ofBits, Ideal.ieee]

/-- An extended real whose absolute value `max a (-a)` lies strictly below `⊤` is a real number:
    at `⊥` the maximum is `-⊥ = ⊤`, and at `⊤` it is `⊤` itself. -/
theorem real_of_abs_lt_top (a : EReal) (h : max a (-a) < ⊤) : ∃ r : ℝ, a = (r : EReal) := by
  induction a using EReal.rec with
  | bot => simp at h
  | top => simp at h
  | coe r => exact ⟨r, rfl⟩

/-- The element test of the precondition: when the comparison `|a| < +inf` is true, `a` is real. -/
theorem real_of_test (a : Ideal .f32)
    (h : FloatOps.cmpf .olt (FloatOps.hostAbsf a) (FloatOps.ofBits (F := Ideal) .f32 0x7F800000#32) = 1#1) :
    ∃ r : ℝ, (a : EReal) = (r : EReal) := by
  apply real_of_abs_lt_top
  have h' : Ideal.cmp .olt (max (a : EReal) (-(a : EReal))) (Ideal.ofBits .f32 0x7F800000#32) = 1#1 := h
  rw [ofBits_inf] at h'
  unfold Ideal.cmp at h'
  by_contra hn
  simp [hn] at h'

/-- A buffer of any shape all of whose entries pass the element test is the pointwise coercion of a
    real-valued function (the real at each index chosen from the element fact). -/
theorem exists_real_of_all {S : Shape} (x : FVec Ideal S .f32)
    (h : ∀ i, FloatOps.cmpf .olt (FloatOps.hostAbsf (x i)) (FloatOps.ofBits (F := Ideal) .f32 0x7F800000#32) = 1#1) :
    ∃ r : S.Idx → ℝ, x = fun i => ((r i : ℝ) : EReal) :=
  ⟨fun i => Classical.choose (real_of_test (x i) (h i)),
   funext fun i => Classical.choose_spec (real_of_test (x i) (h i))⟩

/-- One conjunct of the predicate: the conjunction over ALL axes of `|x| < +inf`, the bound being the
    scalar +inf laid out over the whole shape, is true; then `x` is real-valued. A conjunction that is
    true had a true entry at every index, and the laid-out scalar reads +inf at every index. -/
theorem exists_real_of_reduce {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim S ![] hb (constant Cert.Pre_finite_inputs.S_ .f32 0x7F800000#32)))
          (constantI Cert.Pre_finite_inputs.S_ 1 1#1) hr hu j = 1#1) :
    ∃ r : S.Idx → ℝ, x = fun i => ((r i : ℝ) : EReal) :=
  exists_real_of_all x fun i => Host.reduce_andi_all _ _ hr hu j e i

/-- Under the precondition each of the nine argument buffers, on every device, is the pointwise
    coercion of a real-valued function. The predicate is the nine-fold conjunction, nested to the left,
    of the per-argument conjuncts; a conjunction that is true has both sides true. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∃ x : Cert.KernelIdeal.S2x2048x1024.Idx → ℝ, m ((c.tc : Thread _ _).loc Cert.KernelIdeal.main_arg0) = fun i => ((x i : ℝ) : EReal))
    ∧ (∃ w : Cert.KernelIdeal.S1024x1024.Idx → ℝ, m ((c.tc : Thread _ _).loc Cert.KernelIdeal.main_arg1) = fun i => ((w i : ℝ) : EReal))
    ∧ (∃ w : Cert.KernelIdeal.S1024.Idx → ℝ, m ((c.tc : Thread _ _).loc Cert.KernelIdeal.main_arg2) = fun i => ((w i : ℝ) : EReal))
    ∧ (∃ w : Cert.KernelIdeal.S1024x1024.Idx → ℝ, m ((c.tc : Thread _ _).loc Cert.KernelIdeal.main_arg3) = fun i => ((w i : ℝ) : EReal))
    ∧ (∃ w : Cert.KernelIdeal.S1024.Idx → ℝ, m ((c.tc : Thread _ _).loc Cert.KernelIdeal.main_arg4) = fun i => ((w i : ℝ) : EReal))
    ∧ (∃ w : Cert.KernelIdeal.S1024x1024.Idx → ℝ, m ((c.tc : Thread _ _).loc Cert.KernelIdeal.main_arg5) = fun i => ((w i : ℝ) : EReal))
    ∧ (∃ w : Cert.KernelIdeal.S1024.Idx → ℝ, m ((c.tc : Thread _ _).loc Cert.KernelIdeal.main_arg6) = fun i => ((w i : ℝ) : EReal))
    ∧ (∃ w : Cert.KernelIdeal.S1024x1024.Idx → ℝ, m ((c.tc : Thread _ _).loc Cert.KernelIdeal.main_arg7) = fun i => ((w i : ℝ) : EReal))
    ∧ (∃ w : Cert.KernelIdeal.S1024.Idx → ℝ, m ((c.tc : Thread _ _).loc Cert.KernelIdeal.main_arg8) = fun i => ((w i : ℝ) : EReal)) := by
  have h0 := congrFun (h c) ValueIdx.ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨exists_real_of_reduce _ _ _ _ _ e0, exists_real_of_reduce _ _ _ _ _ e1,
    exists_real_of_reduce _ _ _ _ _ e2, exists_real_of_reduce _ _ _ _ _ e3,
    exists_real_of_reduce _ _ _ _ _ e4, exists_real_of_reduce _ _ _ _ _ e5,
    exists_real_of_reduce _ _ _ _ _ e6, exists_real_of_reduce _ _ _ _ _ e7,
    exists_real_of_reduce _ _ _ _ _ e8⟩

end Cert.Finite

end
-- ==== Proof.KI.Bridge.lean ====
/-
  The idealized kernel's result, as a function of its argument arrays: the model.

  Stage by stage through @main.  The first call's result row b * 2048 + s holds, in its three column thirds, the
  query, key and value projections of activation row (b, s); the second host stretch only re-lays them as heads.
  With every argument real, those projections are real, so the second call's result is the softmax-weighted mean of
  the value rows under the scaled scores, feature by feature.  The third host stretch flattens it back to rows; the
  third call projects it through the output weights; the last host stretch restores the batch axis.
-/
import proofs.«414835_j10436770529900_3_alg».proof.Proof.KI.BridgePre
import proofs.«414835_j10436770529900_3_alg».proof.Proof.KI.MatVal
import proofs.«414835_j10436770529900_3_alg».proof.Proof.KI.HostVal
import proofs.«414835_j10436770529900_3_alg».proof.Proof.KI.Reg1Val
import proofs.«414835_j10436770529900_3_alg».proof.Proof.ProjReal
import proofs.«414835_j10436770529900_3_alg».proof.Proof.Finite

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

theorem ix3_congr {n0 n1 n2 : Nat} {a a' : Fin n0} {b b' : Fin n1} (k : Fin n2) (ha : a.val = a'.val) (hb : b.val = b'.val) :
    ix3 a b k = ix3 a' b' k := by
  obtain rfl := Fin.ext ha; obtain rfl := Fin.ext hb; rfl

theorem ix4_congr {n0 n1 n2 n3 : Nat} {a a' : Fin n0} {b b' : Fin n1} (h : Fin n2) (d : Fin n3) (ha : a.val = a'.val) (hb : b.val = b'.val) :
    ix4 a b h d = ix4 a' b' h d := by
  obtain rfl := Fin.ext ha; obtain rfl := Fin.ext hb; rfl

/-! ## The first call's result -/

/-- Row b * 2048 + s, column j of the fused projection: activation row (b, s) against column j of the
    concatenated weights, plus the concatenated bias. -/
theorem proj_entry (c : Dev nD) (b : Fin 2) (s : Fin 2048) (j : Fin 3072) :
    (W2 m c (Proc.devRef .tc main_v11) : S4096x3072.Idx → EReal) (ix2 (rowOf b s) j)
      = (∑ k : Fin 1024, aX m c (ix3 b s k) * wts0 (V1 m) c (ix2 k j)) + bias0 (V1 m) c (ix2 0 j) := by
  have h2 : (W2 m c (Proc.devRef .tc main_v11) : S4096x3072.Idx → EReal)
      = ((dat0 (F := Ideal) (V1 m) c).arrAt 3 cfg0.N : S4096x3072.Idx → EReal) := W2_arr m c 3
  rw [h2, reg0_array (V1 m) c (rowOf b s) j]
  congr 1
  refine Finset.sum_congr rfl fun k _ => ?_
  congr 1
  refine (host0_x (W0 m c) (rowOf b s) k).trans ?_
  exact congrArg (aX m c) (ix3_congr k (rowOf_div b s) (rowOf_mod b s))

/-- The query heads the second call is entered with: the query projection. -/
theorem stageQ (c : Dev nD) (b : Fin 2) (s : Fin 2048) (h : Fin 16) (d : Fin 64) :
    (V3 m c main_v15 : S2x2048x16x64.Idx → EReal) (ix4 b s h d)
      = Cert.Att.proj (Cert.Att.cur3 (aX m c)) (Cert.Att.cur2 (aWq m c)) (Cert.Att.cur1 (aBq m c)) b s (Cert.Att.col h d) := by
  refine (host1_q (W2 m c) b s h d).trans ?_
  refine (proj_entry m c b s _).trans ?_
  unfold Cert.Att.proj Cert.Att.cur3 Cert.Att.cur2 Cert.Att.cur1
  congr 1
  · refine Finset.sum_congr rfl fun k _ => ?_
    congr 1
    exact host0_wq (W0 m c) k (Cert.Att.col h d)
  · exact host0_bq (W0 m c) (Cert.Att.col h d)

/-- The key heads: the key projection. -/
theorem stageK (c : Dev nD) (b : Fin 2) (s : Fin 2048) (h : Fin 16) (d : Fin 64) :
    (V3 m c main_v16 : S2x2048x16x64.Idx → EReal) (ix4 b s h d)
      = Cert.Att.proj (Cert.Att.cur3 (aX m c)) (Cert.Att.cur2 (aWk m c)) (Cert.Att.cur1 (aBk m c)) b s (Cert.Att.col h d) := by
  refine (host1_k (W2 m c) b s h d).trans ?_
  refine (proj_entry m c b s _).trans ?_
  unfold Cert.Att.proj Cert.Att.cur3 Cert.Att.cur2 Cert.Att.cur1
  congr 1
  · refine Finset.sum_congr rfl fun k _ => ?_
    congr 1
    exact host0_wk (W0 m c) k (Cert.Att.col h d)
  · exact host0_bk (W0 m c) (Cert.Att.col h d)

/-- The value heads: the value projection. -/
theorem stageV (c : Dev nD) (b : Fin 2) (s : Fin 2048) (h : Fin 16) (d : Fin 64) :
    (V3 m c main_v17 : S2x2048x16x64.Idx → EReal) (ix4 b s h d)
      = Cert.Att.proj (Cert.Att.cur3 (aX m c)) (Cert.Att.cur2 (aWv m c)) (Cert.Att.cur1 (aBv m c)) b s (Cert.Att.col h d) := by
  refine (host1_v (W2 m c) b s h d).trans ?_
  refine (proj_entry m c b s _).trans ?_
  unfold Cert.Att.proj Cert.Att.cur3 Cert.Att.cur2 Cert.Att.cur1
  congr 1
  · refine Finset.sum_congr rfl fun k _ => ?_
    congr 1
    exact host0_wv (W0 m c) k (Cert.Att.col h d)
  · exact host0_bv (W0 m c) (Cert.Att.col h d)

/-! ## Real arguments give real projections -/

/-- A projection of real arrays, as a function, is the coercion of the real projection. -/
theorem proj_real (X : S2x2048x1024.Idx → EReal) (Wm : S1024x1024.Idx → EReal) (Bv : S1024.Idx → EReal)
    (x : S2x2048x1024.Idx → ℝ) (w : S1024x1024.Idx → ℝ) (bb : S1024.Idx → ℝ)
    (hx : X = fun i => ((x i : ℝ) : EReal)) (hw : Wm = fun i => ((w i : ℝ) : EReal)) (hb : Bv = fun i => ((bb i : ℝ) : EReal)) :
    Cert.Att.proj (Cert.Att.cur3 X) (Cert.Att.cur2 Wm) (Cert.Att.cur1 Bv)
      = fun b s e => ((Cert.Att.projR (fun a b c => x (ix3 a b c)) (fun a b => w (ix2 a b)) (fun a => bb (ix1 a)) b s e : ℝ) : EReal) := by
  subst hx; subst hw; subst hb
  funext b s e
  exact Cert.Att.proj_coe (fun a b c => x (ix3 a b c)) (fun a b => w (ix2 a b)) (fun a => bb (ix1 a)) b s e

/-! ## The result -/

/-- With every argument array real, what @main leaves in its result buffer is the model of the arguments. -/
theorem kernel_value (h : Cert.Pre_KernelIdeal (hPre_finite_inputs := Cert.Pre_finite_inputs.Gen.facts) m) (c : Dev nD) :
    (W7 (F := Ideal) m c (Proc.devRef .tc main_v24) : S2x2048x1024.Idx → EReal)
      = fun i => Cert.Att.model (Cert.Att.cur3 (m ((c.tc : Thread Cert.KernelIdeal.nD Cert.KernelIdeal.τ).loc Cert.KernelIdeal.main_arg0))) (Cert.Att.cur2 (m ((c.tc : Thread Cert.KernelIdeal.nD Cert.KernelIdeal.τ).loc Cert.KernelIdeal.main_arg1))) (Cert.Att.cur1 (m ((c.tc : Thread Cert.KernelIdeal.nD Cert.KernelIdeal.τ).loc Cert.KernelIdeal.main_arg2))) (Cert.Att.cur2 (m ((c.tc : Thread Cert.KernelIdeal.nD Cert.KernelIdeal.τ).loc Cert.KernelIdeal.main_arg3))) (Cert.Att.cur1 (m ((c.tc : Thread Cert.KernelIdeal.nD Cert.KernelIdeal.τ).loc Cert.KernelIdeal.main_arg4))) (Cert.Att.cur2 (m ((c.tc : Thread Cert.KernelIdeal.nD Cert.KernelIdeal.τ).loc Cert.KernelIdeal.main_arg5))) (Cert.Att.cur1 (m ((c.tc : Thread Cert.KernelIdeal.nD Cert.KernelIdeal.τ).loc Cert.KernelIdeal.main_arg6))) (Cert.Att.cur2 (m ((c.tc : Thread Cert.KernelIdeal.nD Cert.KernelIdeal.τ).loc Cert.KernelIdeal.main_arg7))) (Cert.Att.cur1 (m ((c.tc : Thread Cert.KernelIdeal.nD Cert.KernelIdeal.τ).loc Cert.KernelIdeal.main_arg8))) (i 0) (i 1) (i 2) := by
  obtain ⟨⟨x, hx⟩, ⟨wq, hwq⟩, ⟨bq, hbq⟩, ⟨wk, hwk⟩, ⟨bk, hbk⟩, ⟨wv, hwv⟩, ⟨bv, hbv⟩, -, -⟩ := Cert.Finite.real_of_pre m h c
  have eQ := proj_real (aX m c) (aWq m c) (aBq m c) x wq bq hx hwq hbq
  have eK := proj_real (aX m c) (aWk m c) (aBk m c) x wk bk hx hwk hbk
  have eV := proj_real (aX m c) (aWv m c) (aBv m c) x wv bv hx hwv hbv
  -- the context rows the third call is entered with
  have hctx : ∀ (b : Fin 2) (s : Fin 2048) (e : Fin 1024),
      act2 (V5 m) c (ix2 (rowOf b s) e)
        = Cert.Att.ctx (Cert.Att.proj (Cert.Att.cur3 (aX m c)) (Cert.Att.cur2 (aWq m c)) (Cert.Att.cur1 (aBq m c)))
            (Cert.Att.proj (Cert.Att.cur3 (aX m c)) (Cert.Att.cur2 (aWk m c)) (Cert.Att.cur1 (aBk m c)))
            (Cert.Att.proj (Cert.Att.cur3 (aX m c)) (Cert.Att.cur2 (aWv m c)) (Cert.Att.cur1 (aBv m c))) b s e := by
    intro b s e
    refine (host2_ctx (W4 m c) (rowOf b s) e).trans ?_
    have h4 : (W4 m c (Proc.devRef .tc main_v18) : S2x2048x16x64.Idx → EReal)
        = ((dat1 (F := Ideal) (V3 m) c).arrAt 3 cfg1.N : S2x2048x16x64.Idx → EReal) := W4_arr m c 3
    rw [h4, ix4_congr (Cert.Att.headOf e) (Cert.Att.laneOf e) (rowOf_div b s) (rowOf_mod b s)]
    rw [flash_array (V3 m) c _ _ _
      (fun b s h d => (stageQ m c b s h d).trans (congrFun (congrFun (congrFun eQ b) s) (Cert.Att.col h d)))
      (fun b s h d => (stageK m c b s h d).trans (congrFun (congrFun (congrFun eK b) s) (Cert.Att.col h d)))
      (fun b s h d => (stageV m c b s h d).trans (congrFun (congrFun (congrFun eV b) s) (Cert.Att.col h d)))
      b s (Cert.Att.headOf e) (Cert.Att.laneOf e)]
    rw [Cert.Att.col_head_lane, eQ, eK, eV]
  funext i
  obtain ⟨b, s, e, rfl⟩ : ∃ (b : Fin 2) (s : Fin 2048) (e : Fin 1024), i = ix3 b s e := ⟨i 0, i 1, i 2, eq_ix3 i⟩
  refine (host3_out (W6 m c) b s e).trans ?_
  have h6 : (W6 m c (Proc.devRef .tc main_v23) : S4096x1024.Idx → EReal)
      = ((dat2 (F := Ideal) (V5 m) c).arrAt 3 cfg2.N : S4096x1024.Idx → EReal) := W6_arr m c 3
  rw [h6]
  refine (reg2_array (V5 m) c (rowOf b s) e).trans ?_
  show _ = Cert.Att.model _ _ _ _ _ _ _ _ _ b s e
  unfold Cert.Att.model
  conv_rhs => unfold Cert.Att.proj
  congr 1
  · refine Finset.sum_congr rfl fun k _ => ?_
    congr 1
    · exact hctx b s k
    · refine (host2_wo (W4 m c) k e).trans ?_
      show (W4 m c (Proc.devRef .tc main_arg7) : S1024x1024.Idx → EReal) (ix2 e k) = _
      rw [W4_main_arg7 m c]; rfl
  · refine (host2_bo (W4 m c) e).trans ?_
    show (W4 m c (Proc.devRef .tc main_arg8) : S1024.Idx → EReal) (ix1 e) = _
    rw [W4_main_arg8 m c]; rfl

end Cert.KernelIdeal.Hand

end
-- ==== Proof.RefValue.lean ====
/-
  The reference program's result read at an index: every stage of its host program (the three projections, the
  scaled scores, the row maximum, the exponentials, their row sums, the quotient, the weighted sum of values and
  the output projection) as a function of the argument arrays.
-/
import proofs.«414835_j10436770529900_3_alg».proof.Proof.Gen.ReferenceIdeal.Run
import proofs.«414835_j10436770529900_3_alg».proof.Proof.Gen.ReferenceIdeal.Read
import proofs.«414835_j10436770529900_3_alg».proof.Proof.Spec

noncomputable section

namespace Cert.ReferenceIdeal.RefValue

open Cert.ReferenceIdeal Cert.ReferenceIdeal.Gen Idealize.ShloMosaic Idealize.ShloMosaic.ValueIdx Cert.Att

/-- An activation-shaped array of the reference, as the host program types it. -/
abbrev Act := (⟨S2x2048x1024, .f32⟩ : BufTy).Contents (Elt Ideal)
/-- A weight matrix of the reference. -/
abbrev Mat := (⟨S1024x1024, .f32⟩ : BufTy).Contents (Elt Ideal)
/-- A bias vector of the reference. -/
abbrev Vec := (⟨S1024, .f32⟩ : BufTy).Contents (Elt Ideal)

/-! ## A linear layer -/

/-- The matrix product, the bias broadcast along the batch and the rows, and their sum: one linear layer at
    (b, s, e). -/
theorem linear_apply (x : Act) (W : Mat) (c : Vec) (b : Fin 2) (s : Fin 2048) (e : Fin 1024) :
    Read.val_main_v3 (F := Ideal) x W c (ix3 b s e) = proj (cur3 x) (cur2 W) (cur1 c) b s e := by
  have el : ∀ k : Fin 1024, Read.lidx_main_v0 (ix3 b s e) k = ix3 b s k := fun k => funext fun a => Fin.ext (by
    match a with | ⟨0, _⟩ => rfl | ⟨1, _⟩ => rfl | ⟨2, _⟩ => rfl)
  have er : ∀ k : Fin 1024, Read.ridx_main_v0 (ix3 b s e) k = ix2 e k := fun k => funext fun a => Fin.ext (by
    match a with | ⟨0, _⟩ => rfl | ⟨1, _⟩ => rfl)
  have eb : Read.idx_main_v1 (Read.idx_main_v2 (ix3 b s e)) = ix1 e := funext fun a => Fin.ext (by
    match a with | ⟨0, _⟩ => rfl)
  rw [Read.val_main_v3_apply, Read.val_main_v0_apply, Read.val_main_v2_apply, Read.val_main_v1_apply, eb]
  simp only [el, er]
  rfl

/-- The keys' layer is the same three operations as the queries', on other arguments. -/
theorem keys_layer (x : Act) (W : Mat) (c : Vec) :
    Read.val_main_v11 (F := Ideal) x W c = Read.val_main_v5 (F := Ideal) x W c := rfl
/-- The values' layer likewise. -/
theorem values_layer (x : Act) (W : Mat) (c : Vec) :
    Read.val_main_v17 (F := Ideal) x W c = Read.val_main_v5 (F := Ideal) x W c := rfl

/-! ## The model axis split into heads -/

/-- Reshaping the 1024 features into 16 heads of 64 lanes and moving the head axis in front of the rows reads
    the layer at feature h * 64 + d. -/
theorem heads_apply (x : Act) (W : Mat) (c : Vec) (b : Fin 2) (h : Fin 16) (s : Fin 2048) (d : Fin 64) :
    Read.val_main_v5 (F := Ideal) x W c (ix4 b h s d) = proj (cur3 x) (cur2 W) (cur1 c) b s (col h d) := by
  have ei : Read.idx_main_v4 (Read.idx_main_v5 (ix4 b h s d)) = ix3 b s (col h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)
  rw [Read.val_main_v5_apply, Read.val_main_v4_apply, ei, linear_apply]

/-! ## The scaled scores -/

/-- The contraction of a query row with a key row over the 64 lanes of a head, divided by the constant. -/
theorem score_apply (x : Act) (Wq : Mat) (cq : Vec) (Wk : Mat) (ck : Vec) (b : Fin 2) (h : Fin 16) (q k : Fin 2048) :
    Read.val_main_v20 (F := Ideal) x Wq cq Wk ck (ix4 b h q k)
      = score (proj (cur3 x) (cur2 Wq) (cur1 cq)) (proj (cur3 x) (cur2 Wk) (cur1 ck)) b h q k := by
  have el : ∀ d : Fin 64, Read.lidx_main_v18 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, Read.ridx_main_v18 (ix4 b h q k) d = ix4 b h k d := fun d => funext fun a => Fin.ext (by
    match a with | ⟨0, _⟩ => rfl | ⟨1, _⟩ => rfl | ⟨2, _⟩ => rfl | ⟨3, _⟩ => rfl)
  rw [Read.val_main_v20_apply, Read.val_main_v18_apply, Read.val_main_v19_apply, Read.val_main_cst_apply, keys_layer]
  simp only [el, er, heads_apply]
  rfl

/-! ## The row maximum -/

/-- The pattern of negative infinity is the bottom of the extended reals. -/
theorem ofBits_neg_inf : Ideal.ofBits .f32 0xFF800000#32 = ⊥ := by simp [Ideal.ofBits, Ideal.ieee]

/-- The keys' axis is the last of the score array's four. -/
theorem reduces_keys : S2x16x2048x2048.Reduces [3] S2x16x2048 := by decide

/-- The score index over (b, h, q) with the key k inserted on the reduced axis. -/
theorem lift_keys (b : Fin 2) (h : Fin 16) (q k : Fin 2048) :
    reduces_keys.lift (ix3 b h q) k = ix4 b h q k := funext fun a => Fin.ext (by
  match a with | ⟨0, _⟩ => rfl | ⟨1, _⟩ => rfl | ⟨2, _⟩ => rfl | ⟨3, _⟩ => rfl)

/-- The reduction by maximum over the keys, from negative infinity, joined once more with negative infinity: the
    supremum of the row's scores. -/
theorem rowmax_apply (x : Act) (Wq : Mat) (cq : Vec) (Wk : Mat) (ck : Vec) (b : Fin 2) (h : Fin 16) (q : Fin 2048) :
    Read.val_main_v23 (F := Ideal) x Wq cq Wk ck (ix3 b h q)
      = Finset.univ.sup fun k : Fin 2048 =>
          score (proj (cur3 x) (cur2 Wq) (cur1 cq)) (proj (cur3 x) (cur2 Wk) (cur1 ck)) b h q k := by
  have hf : (Read.val_main_v20 (F := Ideal) x Wq cq Wk ck ∘ reduces_keys.lift (ix3 b h q))
      = fun k : Fin 2048 => score (proj (cur3 x) (cur2 Wq) (cur1 cq)) (proj (cur3 x) (cur2 Wk) (cur1 ck)) b h q k :=
    funext fun (k : Fin 2048) =>
      (congrArg (Read.val_main_v20 (F := Ideal) x Wq cq Wk ck) (lift_keys b h q k)).trans
        (score_apply x Wq cq Wk ck b h q k)
  rw [Read.val_main_v23_apply, Read.val_main_v22_apply, Read.val_main_cst_1_apply]
  unfold Read.val_main_v21
  rw [Host.reduce_eq_fold_single FloatOps.maximumf _ _ reducesTo_S2x16x2048x2048_S2x16x2048_d3 reduces_keys h_S_, hf]
  show max (Ideal.ofBits .f32 0xFF800000#32) (Finset.univ.fold max (Ideal.ofBits .f32 0xFF800000#32) _) = _
  rw [ofBits_neg_inf, max_bot_left]
  rfl

/-! ## Exponentials, their row sums and the weights -/

/-- The scores of query row q in head h of batch b, as a function of the key row. -/
abbrev rowScores (x : Act) (Wq : Mat) (cq : Vec) (Wk : Mat) (ck : Vec) (b : Fin 2) (h : Fin 16) (q : Fin 2048) :
    Fin 2048 → EReal :=
  fun k => score (proj (cur3 x) (cur2 Wq) (cur1 cq)) (proj (cur3 x) (cur2 Wk) (cur1 ck)) b h q k

/-- Each score less its row's maximum (broadcast back along the keys), exponentiated. -/
theorem exp_apply (x : Act) (Wq : Mat) (cq : Vec) (Wk : Mat) (ck : Vec) (b : Fin 2) (h : Fin 16) (q k : Fin 2048) :
    Read.val_main_v27 (F := Ideal) x Wq cq Wk ck (ix4 b h q k)
      = Ideal.exp (rowScores x Wq cq Wk ck b h q k - Finset.univ.sup (rowScores x Wq cq Wk ck b h q)) := by
  have ei : Read.idx_main_v24 (Read.idx_main_v25 (ix4 b h q k)) = ix3 b h q := funext fun a => Fin.ext (by
    match a with | ⟨0, _⟩ => rfl | ⟨1, _⟩ => rfl | ⟨2, _⟩ => rfl)
  rw [Read.val_main_v27_apply, Read.val_main_v26_apply, Read.val_main_v25_apply, Read.val_main_v24_apply, ei,
    rowmax_apply, score_apply]
  rfl

/-- The row's exponentials summed over the keys, from zero. -/
theorem rowsum_apply (x : Act) (Wq : Mat) (cq : Vec) (Wk : Mat) (ck : Vec) (b : Fin 2) (h : Fin 16) (q : Fin 2048) :
    Read.val_main_v28 (F := Ideal) x Wq cq Wk ck (ix3 b h q)
      = ∑ k : Fin 2048, Ideal.exp (rowScores x Wq cq Wk ck b h q k - Finset.univ.sup (rowScores x Wq cq Wk ck b h q)) := by
  have ei : ∀ k : Fin 2048, Read.idx_main_v28 (ix3 b h q) k = ix4 b h q k := fun k => funext fun a => Fin.ext (by
    match a with | ⟨0, _⟩ => rfl | ⟨1, _⟩ => rfl | ⟨2, _⟩ => rfl | ⟨3, _⟩ => rfl)
  rw [Read.val_main_v28_apply, Read.val_main_cst_2_apply]
  simp only [ei, exp_apply]
  show Ideal.ofBits .f32 0x00000000#32 + _ = _
  rw [Ideal.ofBits_zero_f32, zero_add]

/-- Each exponential over its row's sum (broadcast back along the keys): the weight of key k for query q. -/
theorem weight_apply (x : Act) (Wq : Mat) (cq : Vec) (Wk : Mat) (ck : Vec) (b : Fin 2) (h : Fin 16) (q k : Fin 2048) :
    Read.val_main_v31 (F := Ideal) x Wq cq Wk ck (ix4 b h q k)
      = Ideal.div (Ideal.exp (rowScores x Wq cq Wk ck b h q k - Finset.univ.sup (rowScores x Wq cq Wk ck b h q)))
          (∑ i : Fin 2048, Ideal.exp (rowScores x Wq cq Wk ck b h q i - Finset.univ.sup (rowScores x Wq cq Wk ck b h q))) := by
  have ei : Read.idx_main_v29 (Read.idx_main_v30 (ix4 b h q k)) = ix3 b h q := funext fun a => Fin.ext (by
    match a with | ⟨0, _⟩ => rfl | ⟨1, _⟩ => rfl | ⟨2, _⟩ => rfl)
  rw [Read.val_main_v31_apply, Read.val_main_v30_apply, Read.val_main_v29_apply, ei, exp_apply, rowsum_apply]
  rfl

/-! ## The weighted mean of the value rows -/

/-- The contraction of a row of weights with a lane of the value rows over the keys: the weight first, the value
    second in each product. -/
theorem attend_apply (x : Act) (Wq : Mat) (cq : Vec) (Wk : Mat) (ck : Vec) (Wv : Mat) (cv : Vec)
    (b : Fin 2) (h : Fin 16) (q : Fin 2048) (d : Fin 64) :
    Read.val_main_v32 (F := Ideal) x Wq cq Wk ck Wv cv (ix4 b h q d)
      = softAvg (rowScores x Wq cq Wk ck b h q) (fun k => proj (cur3 x) (cur2 Wv) (cur1 cv) b k (col h d)) := by
  have el : ∀ k : Fin 2048, Read.lidx_main_v32 (ix4 b h q d) k = ix4 b h q k := fun k => funext fun a => Fin.ext (by
    match a with | ⟨0, _⟩ => rfl | ⟨1, _⟩ => rfl | ⟨2, _⟩ => rfl | ⟨3, _⟩ => rfl)
  have er : ∀ k : Fin 2048, Read.ridx_main_v32 (ix4 b h q d) k = ix4 b h k d := fun k => funext fun a => Fin.ext (by
    match a with | ⟨0, _⟩ => rfl | ⟨1, _⟩ => rfl | ⟨2, _⟩ => rfl | ⟨3, _⟩ => rfl)
  rw [Read.val_main_v32_apply, values_layer]
  simp only [el, er, weight_apply, heads_apply]
  rfl

/-- Moving the head axis back behind the rows and merging heads and lanes into the 1024 features reads feature e
    at head e / 64, lane e % 64: the context row. -/
theorem context_apply (x : Act) (Wq : Mat) (cq : Vec) (Wk : Mat) (ck : Vec) (Wv : Mat) (cv : Vec)
    (b : Fin 2) (q : Fin 2048) (e : Fin 1024) :
    Read.val_main_v34 (F := Ideal) x Wq cq Wk ck Wv cv (ix3 b q e)
      = ctx (proj (cur3 x) (cur2 Wq) (cur1 cq)) (proj (cur3 x) (cur2 Wk) (cur1 ck)) (proj (cur3 x) (cur2 Wv) (cur1 cv)) b q e := by
  have ei : Read.idx_main_v33 (Read.idx_main_v34 (ix3 b q e)) = ix4 b (headOf e) q (laneOf e) := funext fun a => Fin.ext (by
    have hb := b.isLt; have hq := q.isLt; have he := e.isLt
    match a with
    | ⟨0, _⟩ => show ((b.val * 2048 + q.val) * 1024 + e.val) / 2097152 = b.val; omega
    | ⟨1, _⟩ => show ((b.val * 2048 + q.val) * 1024 + e.val) / 64 % 16 = e.val / 64; omega
    | ⟨2, _⟩ => show ((b.val * 2048 + q.val) * 1024 + e.val) / 1024 % 2048 = q.val; omega
    | ⟨3, _⟩ => show ((b.val * 2048 + q.val) * 1024 + e.val) % 64 = e.val % 64; omega)
  rw [Read.val_main_v34_apply, Read.val_main_v33_apply, ei, attend_apply, col_head_lane]
  rfl

/-! ## The output layer and the whole result -/

/-- The last linear layer, of the context rows. -/
theorem out_apply (x0 : Act) (x1 : Mat) (x2 : Vec) (x3 : Mat) (x4 : Vec) (x5 : Mat) (x6 : Vec) (x7 : Mat) (x8 : Vec)
    (b : Fin 2) (s : Fin 2048) (e : Fin 1024) :
    Read.val_main_v38 (F := Ideal) x0 x1 x2 x3 x4 x5 x6 x7 x8 (ix3 b s e)
      = model (cur3 x0) (cur2 x1) (cur1 x2) (cur2 x3) (cur1 x4) (cur2 x5) (cur1 x6) (cur2 x7) (cur1 x8) b s e := by
  have el : ∀ k : Fin 1024, Read.lidx_main_v35 (ix3 b s e) k = ix3 b s k := fun k => funext fun a => Fin.ext (by
    match a with | ⟨0, _⟩ => rfl | ⟨1, _⟩ => rfl | ⟨2, _⟩ => rfl)
  have er : ∀ k : Fin 1024, Read.ridx_main_v35 (ix3 b s e) k = ix2 e k := fun k => funext fun a => Fin.ext (by
    match a with | ⟨0, _⟩ => rfl | ⟨1, _⟩ => rfl)
  have eb : Read.idx_main_v36 (Read.idx_main_v37 (ix3 b s e)) = ix1 e := funext fun a => Fin.ext (by
    match a with | ⟨0, _⟩ => rfl)
  rw [Read.val_main_v38_apply, Read.val_main_v35_apply, Read.val_main_v37_apply, Read.val_main_v36_apply, eb]
  simp only [el, er, context_apply]
  rfl

/-- The reference's result is the model of its arguments, element by element. -/
theorem result_eq (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    Cert.ReferenceIdeal.Read.val_main_v38 (F := Ideal) x0 x1 x2 x3 x4 x5 x6 x7 x8
      = fun i => Cert.Att.model (Cert.Att.cur3 x0) (Cert.Att.cur2 x1) (Cert.Att.cur1 x2) (Cert.Att.cur2 x3) (Cert.Att.cur1 x4)
          (Cert.Att.cur2 x5) (Cert.Att.cur1 x6) (Cert.Att.cur2 x7) (Cert.Att.cur1 x8) (i 0) (i 1) (i 2) :=
  funext fun i =>
    (congrArg (Read.val_main_v38 (F := Ideal) x0 x1 x2 x3 x4 x5 x6 x7 x8) (eq_ix3 i)).trans
      (out_apply x0 x1 x2 x3 x4 x5 x6 x7 x8 (i 0) (i 1) (i 2))

end Cert.ReferenceIdeal.RefValue

end
-- ==== Proof.lean ====
/-
  The certificate: a fused-projection / flash-attention / output-projection kernel against softmax attention.

  Both programs compute, from activations x and four weight matrices with their biases, the model of Spec.lean:
  queries, keys and values by three linear layers; per head the scores of each query row against every key row,
  divided by 8; the softmax-weighted mean of the value rows; a last linear layer.  The reference does this in one
  pass over whole arrays.  The kernel fuses the three projections into one product against the concatenated
  weights, multiplies the queries by 1/8 before the score product instead of dividing the scores by 8, and
  accumulates the weighted mean over 16 blocks of 128 keys with a running maximum, denominator and numerator
  rescaled whenever the maximum grows.  On real inputs these are the same numbers: a product by 1/8 inside a sum
  is the sum divided by 8, the rescaling telescopes (exp (M_k - M_(k+1)) * exp (s - M_k) = exp (s - M_(k+1))),
  and a sum divided by the denominator is the sum of the quotients.  Finiteness of the inputs is what makes every
  intermediate value real.

  The frames: each program terminates without a fault and leaves its arguments as launched.  For the two kernel
  programs this is the launch of three pipelined calls among four host stretches (KI/Run.lean, K/Run.lean); for
  the reference it is its run with the result dropped.  Nothing was rewritten by the idealization, so the
  preservation claim is empty.
-/
import proofs.«414835_j10436770529900_3_alg».proof.Defs
import proofs.«414835_j10436770529900_3_alg».proof.Proof.Gen.Kernel
import proofs.«414835_j10436770529900_3_alg».proof.Proof.Gen.KernelIdeal
import proofs.«414835_j10436770529900_3_alg».proof.Proof.Gen.ReferenceIdeal
import proofs.«414835_j10436770529900_3_alg».proof.Proof.Gen.Pre_finite_inputs
import proofs.«414835_j10436770529900_3_alg».proof.Proof.Gen.ReferenceIdeal.Run
import proofs.«414835_j10436770529900_3_alg».proof.Proof.Gen.ReferenceIdeal.Read
import proofs.«414835_j10436770529900_3_alg».proof.Proof.K.Run
import proofs.«414835_j10436770529900_3_alg».proof.Proof.KI.Run
import proofs.«414835_j10436770529900_3_alg».proof.Proof.KI.Bridge
import proofs.«414835_j10436770529900_3_alg».proof.Proof.RefValue
import proofs.«414835_j10436770529900_3_alg».proof.Proof.Finite

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the model of the arguments in their result
    buffers: the kernel by its run and the value read off it, the reference by its run read stage by stage. -/
theorem algebraic : Cert.algebraic_KernelIdeal_ReferenceIdeal := by
  intro m g m' g' hpre hagree
  refine ⟨fun c => (fun i => Cert.Att.model (Cert.Att.cur3 (m ((c.tc : Thread Cert.KernelIdeal.nD Cert.KernelIdeal.τ).loc Cert.KernelIdeal.main_arg0))) (Cert.Att.cur2 (m ((c.tc : Thread Cert.KernelIdeal.nD Cert.KernelIdeal.τ).loc Cert.KernelIdeal.main_arg1))) (Cert.Att.cur1 (m ((c.tc : Thread Cert.KernelIdeal.nD Cert.KernelIdeal.τ).loc Cert.KernelIdeal.main_arg2))) (Cert.Att.cur2 (m ((c.tc : Thread Cert.KernelIdeal.nD Cert.KernelIdeal.τ).loc Cert.KernelIdeal.main_arg3))) (Cert.Att.cur1 (m ((c.tc : Thread Cert.KernelIdeal.nD Cert.KernelIdeal.τ).loc Cert.KernelIdeal.main_arg4))) (Cert.Att.cur2 (m ((c.tc : Thread Cert.KernelIdeal.nD Cert.KernelIdeal.τ).loc Cert.KernelIdeal.main_arg5))) (Cert.Att.cur1 (m ((c.tc : Thread Cert.KernelIdeal.nD Cert.KernelIdeal.τ).loc Cert.KernelIdeal.main_arg6))) (Cert.Att.cur2 (m ((c.tc : Thread Cert.KernelIdeal.nD Cert.KernelIdeal.τ).loc Cert.KernelIdeal.main_arg7))) (Cert.Att.cur1 (m ((c.tc : Thread Cert.KernelIdeal.nD Cert.KernelIdeal.τ).loc Cert.KernelIdeal.main_arg8))) (i 0) (i 1) (i 2) :
      Cert.KernelIdeal.S2x2048x1024.Idx → EReal), ?_, ?_⟩
  · refine (θ_run Cert.KernelIdeal.defs _ _).mono (fun r h c => ?_) (Cert.KernelIdeal.Hand.run_main (F := Ideal) m g)
    exact ⟨(h c _ (Cert.KernelIdeal.Hand.mem_uc Cert.KernelIdeal.main_v24 (by decide))).trans (Cert.KernelIdeal.Hand.kernel_value m hpre c),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c)⟩
  · refine (θ_run Cert.ReferenceIdeal.defs _ _).mono (fun r h c => ⟨(h c).1.trans ?_, (h c).2⟩)
      (Cert.ReferenceIdeal.Value.run (F := Ideal) m' g')
    rw [Cert.ReferenceIdeal.Read.val_main_v38_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
